-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39 : Shape := ⟨2, ![16384, 39]⟩
abbrev S13x16 : Shape := ⟨2, ![13, 16]⟩
abbrev S26x100000x16 : Shape := ⟨3, ![26, 100000, 16]⟩
abbrev S39x1 : Shape := ⟨2, ![39, 1]⟩
abbrev S1 : Shape := ⟨1, ![1]⟩
abbrev S624x400 : Shape := ⟨2, ![624, 400]⟩
abbrev S400 : Shape := ⟨1, ![400]⟩
abbrev S400x400 : Shape := ⟨2, ![400, 400]⟩
abbrev S400x1 : Shape := ⟨2, ![400, 1]⟩
abbrev S_ : Shape := ⟨0, ![]⟩
abbrev S16384x26 : Shape := ⟨2, ![16384, 26]⟩

class Facts : Prop where
  bcast_S_S13x16 : S_.BroadcastsInDim S13x16 (![] : Fin 0 → Fin S13x16.rank)
  reducesTo_S13x16_S_d0_1 : S13x16.ReducesTo [0, 1] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S39x1 : S_.BroadcastsInDim S39x1 (![] : Fin 0 → Fin S39x1.rank)
  reducesTo_S39x1_S_d0_1 : S39x1.ReducesTo [0, 1] S_
  bcast_S_S1 : S_.BroadcastsInDim S1 (![] : Fin 0 → Fin S1.rank)
  reducesTo_S1_S_d0 : S1.ReducesTo [0] S_
  bcast_S_S624x400 : S_.BroadcastsInDim S624x400 (![] : Fin 0 → Fin S624x400.rank)
  reducesTo_S624x400_S_d0_1 : S624x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S400x1 : S_.BroadcastsInDim S400x1 (![] : Fin 0 → Fin S400x1.rank)
  reducesTo_S400x1_S_d0_1 : S400x1.ReducesTo [0, 1] S_
  slices_S16384x39_S16384x26_0_13 : S16384x39.Slices ![0, 13] S16384x26
  bcast_S_S16384x26 : S_.BroadcastsInDim S16384x26 (![] : Fin 0 → Fin S16384x26.rank)
  reducesTo_S16384x26_S_d0_1 : S16384x26.ReducesTo [0, 1] S_

variable [Facts]

def fn_part4 {F : FTy → Type} [FloatOps F] (main_arg0 : IVec S16384x39 32) (main_v63 : IVec S_ 1) (main_v67 : IVec S_ 1) : IVec S_ 1 :=
  let main_v68 : IVec S_ 1 := andi main_v63 main_v67
  let main_v69 : IVec S16384x26 32 := (extractStridedSlice S16384x26 ![0, 13] · slices_S16384x39_S16384x26_0_13) main_arg0
  let main_c_26 : IVec S_ 32 := constantI S_ 32 0#32
  let main_v70 : IVec S16384x26 32 := broadcastInDim S16384x26 ![] bcast_S_S16384x26 main_c_26
  let main_v71 : IVec S16384x26 1 := cmpi .sge main_v69 main_v70
  let main_v72 : IVec S16384x26 32 := (extractStridedSlice S16384x26 ![0, 13] · slices_S16384x39_S16384x26_0_13) main_arg0
  let main_c_27 : IVec S_ 32 := constantI S_ 32 100000#32
  let main_v73 : IVec S16384x26 32 := broadcastInDim S16384x26 ![] bcast_S_S16384x26 main_c_27
  let main_v74 : IVec S16384x26 1 := cmpi .slt main_v72 main_v73
  let main_v75 : IVec S16384x26 1 := andi main_v71 main_v74
  let main_c_28 : IVec S_ 1 := constantI S_ 1 1#1
  let main_v76 : IVec S_ 1 := (fun x v => Host.reduce IntOp.andi x v reducesTo_S16384x26_S_d0_1 h_S_) main_v75 main_c_28
  let main_v77 : IVec S_ 1 := andi main_v68 main_v76
  main_v77

def fn_part3 {F : FTy → Type} [FloatOps F] (main_arg0 : IVec S16384x39 32) (main_arg12 : FVec F S400 .f32) (main_arg13 : FVec F S400x1 .f32) (main_arg14 : FVec F S1 .f32) (main_v48 : IVec S_ 1) (main_v49 : FVec F S400x400 .f32) (main_v50 : FVec F S400x400 .f32) : IVec S_ 1 :=
  let main_v51 : IVec S400x400 1 := cmpf .olt main_v49 main_v50
  let main_c_19 : IVec S_ 1 := constantI S_ 1 1#1
  let main_v52 : IVec S_ 1 := (fun x v => Host.reduce IntOp.andi x v reducesTo_S400x400_S_d0_1 h_S_) main_v51 main_c_19
  let main_v53 : IVec S_ 1 := andi main_v48 main_v52
  let main_v54 : FVec F S400 .f32 := Host.absf main_arg12
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  let main_v59 : FVec F S400x1 .f32 := Host.absf main_arg13
  let main_cst_22 : FVec F S_ .f32 := constant S_ .f32 0x7F800000#32
  let main_v60 : FVec F S400x1 .f32 := broadcastInDim S400x1 ![] bcast_S_S400x1 main_cst_22
  let main_v61 : IVec S400x1 1 := cmpf .olt main_v59 main_v60
  let main_c_23 : IVec S_ 1 := constantI S_ 1 1#1
  let main_v62 : IVec S_ 1 := (fun x v => Host.reduce IntOp.andi x v reducesTo_S400x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_v63 main_v67

def fn_part2 {F : FTy → Type} [FloatOps F] (main_arg0 : IVec S16384x39 32) (main_arg8 : FVec F S26x100000x16 .f32) (main_arg9 : FVec F S624x400 .f32) (main_arg10 : FVec F S400 .f32) (main_arg11 : FVec F S400x400 .f32) (main_arg12 : FVec F S400 .f32) (main_arg13 : FVec F S400x1 .f32) (main_arg14 : FVec F S1 .f32) (main_v33 : IVec S_ 1) : IVec S_ 1 :=
  let main_v34 : FVec F S26x100000x16 .f32 := Host.absf main_arg8
  let main_cst_12 : FVec F S_ .f32 := constant S_ .f32 0x7F800000#32
  let main_v35 : FVec F S26x100000x16 .f32 := broadcastInDim S26x100000x16 ![] bcast_S_S26x100000x16 main_cst_12
  let main_v36 : IVec S26x100000x16 1 := cmpf .olt main_v34 main_v35
  let main_c_13 : IVec S_ 1 := constantI S_ 1 1#1
  let main_v37 : IVec S_ 1 := (fun x v => Host.reduce IntOp.andi x v reducesTo_S26x100000x16_S_d0_1_2 h_S_) main_v36 main_c_13
  let main_v38 : IVec S_ 1 := andi main_v33 main_v37
  let main_v39 : FVec F S624x400 .f32 := Host.absf main_arg9
  let main_cst_14 : FVec F S_ .f32 := constant S_ .f32 0x7F800000#32
  let main_v40 : FVec F S624x400 .f32 := broadcastInDim S624x400 ![] bcast_S_S624x400 main_cst_14
  let main_v41 : IVec S624x400 1 := cmpf .olt main_v39 main_v40
  let main_c_15 : IVec S_ 1 := constantI S_ 1 1#1
  let main_v42 : IVec S_ 1 := (fun x v => Host.reduce IntOp.andi x v reducesTo_S624x400_S_d0_1 h_S_) main_v41 main_c_15
  let main_v43 : IVec S_ 1 := andi main_v38 main_v42
  let main_v44 : FVec F S400 .f32 := Host.absf main_arg10
  let main_cst_16 : FVec F S_ .f32 := constant S_ .f32 0x7F800000#32
  let main_v45 : FVec F S400 .f32 := broadcastInDim S400 ![] bcast_S_S400 main_cst_16
  let main_v46 : IVec S400 1 := cmpf .olt main_v44 main_v45
  let main_c_17 : IVec S_ 1 := constantI S_ 1 1#1
  let main_v47 : IVec S_ 1 := (fun x v => Host.reduce IntOp.andi x v reducesTo_S400_S_d0 h_S_) main_v46 main_c_17
  let main_v48 : IVec S_ 1 := andi main_v43 main_v47
  let main_v49 : FVec F S400x400 .f32 := Host.absf main_arg11
  let main_cst_18 : FVec F S_ .f32 := constant S_ .f32 0x7F800000#32
  let main_v50 : FVec F S400x400 .f32 := broadcastInDim S400x400 ![] bcast_S_S400x400 main_cst_18
  fn_part3 (F := F) main_arg0 main_arg12 main_arg13 main_arg14 main_v48 main_v49 main_v50

def fn_part1 {F : FTy → Type} [FloatOps F] (main_arg0 : IVec S16384x39 32) (main_arg5 : FVec F S1 .f32) (main_arg6 : FVec F S13x16 .f32) (main_arg7 : FVec F S13x16 .f32) (main_arg8 : FVec F S26x100000x16 .f32) (main_arg9 : FVec F S624x400 .f32) (main_arg10 : FVec F S400 .f32) (main_arg11 : FVec F S400x400 .f32) (main_arg12 : FVec F S400 .f32) (main_arg13 : FVec F S400x1 .f32) (main_arg14 : FVec F S1 .f32) (main_v13 : IVec S_ 1) (main_v16 : IVec S39x1 1) : IVec S_ 1 :=
  let main_c_5 : IVec S_ 1 := constantI S_ 1 1#1
  let main_v17 : IVec S_ 1 := (fun x v => Host.reduce IntOp.andi x v reducesTo_S39x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S13x16 .f32 := Host.absf main_arg6
  let main_cst_8 : FVec F S_ .f32 := constant S_ .f32 0x7F800000#32
  let main_v25 : FVec F S13x16 .f32 := broadcastInDim S13x16 ![] bcast_S_S13x16 main_cst_8
  let main_v26 : IVec S13x16 1 := cmpf .olt main_v24 main_v25
  let main_c_9 : IVec S_ 1 := constantI S_ 1 1#1
  let main_v27 : IVec S_ 1 := (fun x v => Host.reduce IntOp.andi x v reducesTo_S13x16_S_d0_1 h_S_) main_v26 main_c_9
  let main_v28 : IVec S_ 1 := andi main_v23 main_v27
  let main_v29 : FVec F S13x16 .f32 := Host.absf main_arg7
  let main_cst_10 : FVec F S_ .f32 := constant S_ .f32 0x7F800000#32
  let main_v30 : FVec F S13x16 .f32 := broadcastInDim S13x16 ![] bcast_S_S13x16 main_cst_10
  let main_v31 : IVec S13x16 1 := cmpf .olt main_v29 main_v30
  let main_c_11 : IVec S_ 1 := constantI S_ 1 1#1
  let main_v32 : IVec S_ 1 := (fun x v => Host.reduce IntOp.andi x v reducesTo_S13x16_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S16384x39 32) (main_arg1 : FVec F S13x16 .f32) (main_arg2 : FVec F S13x16 .f32) (main_arg3 : FVec F S26x100000x16 .f32) (main_arg4 : FVec F S39x1 .f32) (main_arg5 : FVec F S1 .f32) (main_arg6 : FVec F S13x16 .f32) (main_arg7 : FVec F S13x16 .f32) (main_arg8 : FVec F S26x100000x16 .f32) (main_arg9 : FVec F S624x400 .f32) (main_arg10 : FVec F S400 .f32) (main_arg11 : FVec F S400x400 .f32) (main_arg12 : FVec F S400 .f32) (main_arg13 : FVec F S400x1 .f32) (main_arg14 : FVec F S1 .f32) : IVec S_ 1 :=
  let main_v0 : FVec F S13x16 .f32 := Host.absf main_arg1
  let main_cst : FVec F S_ .f32 := constant S_ .f32 0x7F800000#32
  let main_v1 : FVec F S13x16 .f32 := broadcastInDim S13x16 ![] bcast_S_S13x16 main_cst
  let main_v2 : IVec S13x16 1 := cmpf .olt main_v0 main_v1
  let main_c : IVec S_ 1 := constantI S_ 1 1#1
  let main_v3 : IVec S_ 1 := (fun x v => Host.reduce IntOp.andi x v reducesTo_S13x16_S_d0_1 h_S_) main_v2 main_c
  let main_v4 : FVec F S13x16 .f32 := Host.absf main_arg2
  let main_cst_0 : FVec F S_ .f32 := constant S_ .f32 0x7F800000#32
  let main_v5 : FVec F S13x16 .f32 := broadcastInDim S13x16 ![] bcast_S_S13x16 main_cst_0
  let main_v6 : IVec S13x16 1 := cmpf .olt main_v4 main_v5
  let main_c_1 : IVec S_ 1 := constantI S_ 1 1#1
  let main_v7 : IVec S_ 1 := (fun x v => Host.reduce IntOp.andi x v reducesTo_S13x16_S_d0_1 h_S_) main_v6 main_c_1
  let main_v8 : IVec S_ 1 := andi main_v3 main_v7
  let main_v9 : FVec F S26x100000x16 .f32 := Host.absf main_arg3
  let main_cst_2 : FVec F S_ .f32 := constant S_ .f32 0x7F800000#32
  let main_v10 : FVec F S26x100000x16 .f32 := broadcastInDim S26x100000x16 ![] bcast_S_S26x100000x16 main_cst_2
  let main_v11 : IVec S26x100000x16 1 := cmpf .olt main_v9 main_v10
  let main_c_3 : IVec S_ 1 := constantI S_ 1 1#1
  let main_v12 : IVec S_ 1 := (fun x v => Host.reduce IntOp.andi x v reducesTo_S26x100000x16_S_d0_1_2 h_S_) main_v11 main_c_3
  let main_v13 : IVec S_ 1 := andi main_v8 main_v12
  let main_v14 : FVec F S39x1 .f32 := Host.absf main_arg4
  let main_cst_4 : FVec F S_ .f32 := constant S_ .f32 0x7F800000#32
  let main_v15 : FVec F S39x1 .f32 := broadcastInDim S39x1 ![] bcast_S_S39x1 main_cst_4
  let main_v16 : IVec S39x1 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S16384x39 : Shape := ⟨2, ![16384, 39]⟩
abbrev S13x16 : Shape := ⟨2, ![13, 16]⟩
abbrev S26x100000x16 : Shape := ⟨3, ![26, 100000, 16]⟩
abbrev S39x1 : Shape := ⟨2, ![39, 1]⟩
abbrev S1 : Shape := ⟨1, ![1]⟩
abbrev S624x400 : Shape := ⟨2, ![624, 400]⟩
abbrev S400 : Shape := ⟨1, ![400]⟩
abbrev S400x400 : Shape := ⟨2, ![400, 400]⟩
abbrev S400x1 : Shape := ⟨2, ![400, 1]⟩
abbrev S16384x13 : Shape := ⟨2, ![16384, 13]⟩
abbrev S16384x26 : Shape := ⟨2, ![16384, 26]⟩
abbrev S_ : Shape := ⟨0, ![]⟩
abbrev S26 : Shape := ⟨1, ![26]⟩
abbrev S1x26 : Shape := ⟨2, ![1, 26]⟩
abbrev S16384x26x1 : Shape := ⟨3, ![16384, 26, 1]⟩
abbrev S16384x26x2 : Shape := ⟨3, ![16384, 26, 2]⟩
abbrev S16384x26x16 : Shape := ⟨3, ![16384, 26, 16]⟩
abbrev S1x1 : Shape := ⟨2, ![1, 1]⟩
abbrev S1x400 : Shape := ⟨2, ![1, 400]⟩
abbrev S16384x1 : Shape := ⟨2, ![16384, 1]⟩
abbrev S8x1x624 : Shape := ⟨3, ![8, 1, 624]⟩
abbrev S8x1x1 : Shape := ⟨3, ![8, 1, 1]⟩
abbrev S2048x13 : Shape := ⟨2, ![2048, 13]⟩
abbrev S2048x26x16 : Shape := ⟨3, ![2048, 26, 16]⟩
abbrev S2048x1 : Shape := ⟨2, ![2048, 1]⟩
abbrev S1x1x624 : Shape := ⟨3, ![1, 1, 624]⟩
abbrev S1x1x1 : Shape := ⟨3, ![1, 1, 1]⟩
abbrev S2048x26 : Shape := ⟨2, ![2048, 26]⟩
abbrev S2048x26x1 : Shape := ⟨3, ![2048, 26, 1]⟩
abbrev S2048x13x1 : Shape := ⟨3, ![2048, 13, 1]⟩
abbrev S1x13x16 : Shape := ⟨3, ![1, 13, 16]⟩
abbrev S2048x13x16 : Shape := ⟨3, ![2048, 13, 16]⟩
abbrev S2048x39 : Shape := ⟨2, ![2048, 39]⟩
abbrev S2048x39x16 : Shape := ⟨3, ![2048, 39, 16]⟩
abbrev S2048x624 : Shape := ⟨2, ![2048, 624]⟩
abbrev S624 : Shape := ⟨1, ![624]⟩
abbrev S1x624 : Shape := ⟨2, ![1, 624]⟩
abbrev S1x2048x624 : Shape := ⟨3, ![1, 2048, 624]⟩
abbrev S2048x400 : Shape := ⟨2, ![2048, 400]⟩

abbrev nBuf : Space → Nat
  | .hbm => 88
  | .vmem => 24
  | .smem => 0
  | _ => 0

abbrev bufTy : (tb : Table) → Fin (tcTables nBuf tb) → BufTy
  | .hbm, ⟨0, _⟩ => ⟨S16384x39, .i32⟩
  | .hbm, ⟨1, _⟩ => ⟨S13x16, .f32⟩
  | .hbm, ⟨2, _⟩ => ⟨S13x16, .f32⟩
  | .hbm, ⟨3, _⟩ => ⟨S26x100000x16, .f32⟩
  | .hbm, ⟨4, _⟩ => ⟨S39x1, .f32⟩
  | .hbm, ⟨5, _⟩ => ⟨S1, .f32⟩
  | .hbm, ⟨6, _⟩ => ⟨S13x16, .f32⟩
  | .hbm, ⟨7, _⟩ => ⟨S13x16, .f32⟩
  | .hbm, ⟨8, _⟩ => ⟨S26x100000x16, .f32⟩
  | .hbm, ⟨9, _⟩ => ⟨S624x400, .f32⟩
  | .hbm, ⟨10, _⟩ => ⟨S400, .f32⟩
  | .hbm, ⟨11, _⟩ => ⟨S400x400, .f32⟩
  | .hbm, ⟨12, _⟩ => ⟨S400, .f32⟩
  | .hbm, ⟨13, _⟩ => ⟨S400x1, .f32⟩
  | .hbm, ⟨14, _⟩ => ⟨S1, .f32⟩
  | .hbm, ⟨15, _⟩ => ⟨S16384x13, .i32⟩
  | .hbm, ⟨16, _⟩ => ⟨S16384x13, .f32⟩
  | .hbm, ⟨17, _⟩ => ⟨S16384x26, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S_, .i32⟩
  | .hbm, ⟨24, _⟩ => ⟨S16384x26, .i32⟩
  | .hbm, ⟨25, _⟩ => ⟨S16384x26, .i32⟩
  | .hbm, ⟨26, _⟩ => ⟨S26, .i32⟩
  | .hbm, ⟨27, _⟩ => ⟨S1x26, .i32⟩
  | .hbm, ⟨28, _⟩ => ⟨S_, .i32⟩
  | .hbm, ⟨29, _⟩ => ⟨S1x26, .i32⟩
  | .hbm, ⟨30, _⟩ => ⟨S1x26, .i1⟩
  | .hbm, ⟨31, _⟩ => ⟨S_, .i32⟩
  | .hbm, ⟨32, _⟩ => ⟨S1x26, .i32⟩
  | .hbm, ⟨33, _⟩ => ⟨S1x26, .i32⟩
  | .hbm, ⟨34, _⟩ => ⟨S1x26, .i32⟩
  | .hbm, ⟨35, _⟩ => ⟨S_, .i32⟩
  | .hbm, ⟨36, _⟩ => ⟨S16384x26, .i32⟩
  | .hbm, ⟨37, _⟩ => ⟨S16384x26, .i1⟩
  | .hbm, ⟨38, _⟩ => ⟨S_, .i32⟩
  | .hbm, ⟨39, _⟩ => ⟨S16384x26, .i32⟩
  | .hbm, ⟨40, _⟩ => ⟨S16384x26, .i32⟩
  | .hbm, ⟨41, _⟩ => ⟨S16384x26, .i32⟩
  | .hbm, ⟨42, _⟩ => ⟨S16384x26, .i32⟩
  | .hbm, ⟨43, _⟩ => ⟨S16384x26x1, .i32⟩
  | .hbm, ⟨44, _⟩ => ⟨S16384x26x1, .i32⟩
  | .hbm, ⟨45, _⟩ => ⟨S16384x26x2, .i32⟩
  | .hbm, ⟨46, _⟩ => ⟨S16384x26x16, .f32⟩
  | .hbm, ⟨47, _⟩ => ⟨S16384x26x16, .bf16⟩
  | .hbm, ⟨48, _⟩ => ⟨S_, .i32⟩
  | .hbm, ⟨49, _⟩ => ⟨S1x26, .i32⟩
  | .hbm, ⟨50, _⟩ => ⟨S1x26, .i1⟩
  | .hbm, ⟨51, _⟩ => ⟨S_, .i32⟩
  | .hbm, ⟨52, _⟩ => ⟨S1x26, .i32⟩
  | .hbm, ⟨53, _⟩ => ⟨S1x26, .i32⟩
  | .hbm, ⟨54, _⟩ => ⟨S1x26, .i32⟩
  | .hbm, ⟨55, _⟩ => ⟨S_, .i32⟩
  | .hbm, ⟨56, _⟩ => ⟨S16384x26, .i32⟩
  | .hbm, ⟨57, _⟩ => ⟨S16384x26, .i1⟩
  | .hbm, ⟨58, _⟩ => ⟨S_, .i32⟩
  | .hbm, ⟨59, _⟩ => ⟨S16384x26, .i32⟩
  | .hbm, ⟨60, _⟩ => ⟨S16384x26, .i32⟩
  | .hbm, ⟨61, _⟩ => ⟨S16384x26, .i32⟩
  | .hbm, ⟨62, _⟩ => ⟨S16384x26, .i32⟩
  | .hbm, ⟨63, _⟩ => ⟨S16384x26x1, .i32⟩
  | .hbm, ⟨64, _⟩ => ⟨S16384x26x1, .i32⟩
  | .hbm, ⟨65, _⟩ => ⟨S16384x26x2, .i32⟩
  | .hbm, ⟨66, _⟩ => ⟨S16384x26x16, .f32⟩
  | .hbm, ⟨67, _⟩ => ⟨S16384x26x16, .bf16⟩
  | .hbm, ⟨68, _⟩ => ⟨S1x1, .f32⟩
  | .hbm, ⟨69, _⟩ => ⟨S1x400, .f32⟩
  | .hbm, ⟨70, _⟩ => ⟨S1x400, .f32⟩
  | .hbm, ⟨71, _⟩ => ⟨S1x1, .f32⟩
  | .hbm, ⟨72, _⟩ => ⟨S16384x1, .f32⟩
  | .hbm, ⟨73, _⟩ => ⟨S8x1x624, .f32⟩
  | .hbm, ⟨74, _⟩ => ⟨S8x1x1, .f32⟩
  | .hbm, ⟨75, _⟩ => ⟨S_, .f32⟩
  | .hbm, ⟨76, _⟩ => ⟨S1x624, .f32⟩
  | .hbm, ⟨77, _⟩ => ⟨S624, .f32⟩
  | .hbm, ⟨78, _⟩ => ⟨S_, .f32⟩
  | .hbm, ⟨79, _⟩ => ⟨S_, .f32⟩
  | .hbm, ⟨80, _⟩ => ⟨S624, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16384x1, .f32⟩
  | .hbm, ⟨87, _⟩ => ⟨S16384x1, .f32⟩
  | .local _ .vmem, ⟨0, _⟩ => ⟨S2048x13, .f32⟩
  | .local _ .vmem, ⟨1, _⟩ => ⟨S2048x13, .f32⟩
  | .local _ .vmem, ⟨2, _⟩ => ⟨S2048x26x16, .bf16⟩
  | .local _ .vmem, ⟨3, _⟩ => ⟨S2048x26x16, .bf16⟩
  | .local _ .vmem, ⟨4, _⟩ => ⟨S2048x26x16, .bf16⟩
  | .local _ .vmem, ⟨5, _⟩ => ⟨S2048x26x16, .bf16⟩
  | .local _ .vmem, ⟨6, _⟩ => ⟨S13x16, .f32⟩
  | .local _ .vmem, ⟨7, _⟩ => ⟨S13x16, .f32⟩
  | .local _ .vmem, ⟨8, _⟩ => ⟨S39x1, .f32⟩
  | .local _ .vmem, ⟨9, _⟩ => ⟨S1x1, .f32⟩
  | .local _ .vmem, ⟨10, _⟩ => ⟨S13x16, .f32⟩
  | .local _ .vmem, ⟨11, _⟩ => ⟨S13x16, .f32⟩
  | .local _ .vmem, ⟨12, _⟩ => ⟨S624x400, .f32⟩
  | .local _ .vmem, ⟨13, _⟩ => ⟨S1x400, .f32⟩
  | .local _ .vmem, ⟨14, _⟩ => ⟨S400x400, .f32⟩
  | .local _ .vmem, ⟨15, _⟩ => ⟨S1x400, .f32⟩
  | .local _ .vmem, ⟨16, _⟩ => ⟨S400x1, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | .local _ .vmem, ⟨20, _⟩ => ⟨S1x1x624, .f32⟩
  | .local _ .vmem, ⟨21, _⟩ => ⟨S1x1x624, .f32⟩
  | .local _ .vmem, ⟨22, _⟩ => ⟨S1x1x1, .f32⟩
  | .local _ .vmem, ⟨23, _⟩ => ⟨S1x1x1, .f32⟩
  | _, _ => ⟨S16384x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_5 : Ref sig .tc := ⟨.hbm, 48, rfl⟩
abbrev main_v22 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42_0 : Ref sig .tc := ⟨.hbm, 72, rfl⟩
abbrev main_v42_1 : Ref sig .tc := ⟨.hbm, 73, rfl⟩
abbrev main_v42_2 : Ref sig .tc := ⟨.hbm, 74, rfl⟩
abbrev main_cst : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_cst_10 : Ref sig .tc := ⟨.hbm, 81, rfl⟩
abbrev main_v47 : Ref sig .tc := ⟨.hbm, 82, rfl⟩
abbrev main_v48 : Ref sig .tc := ⟨.hbm, 83, rfl⟩
abbrev main_cst_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x26x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x26x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S39x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S13x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S624x400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400x400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x400 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S400x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x624 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S16384x39_S16384x13_0_0 : S16384x39.Slices ![0, 0] S16384x13
  slices_S16384x39_S16384x26_0_13 : S16384x39.Slices ![0, 13] S16384x26
  bcast_S_S16384x26 : S_.BroadcastsInDim S16384x26 (![] : Fin 0 → Fin S16384x26.rank)
  bcast_S26_S1x26_1 : S26.BroadcastsInDim S1x26 (![1] : Fin 1 → Fin S1x26.rank)
  bcast_S_S1x26 : S_.BroadcastsInDim S1x26 (![] : Fin 0 → Fin S1x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bitsLt_bf16_f32 : FTy.bits .bf16 < FTy.bits .f32
  shapeCasts_S1_S1x1 : S1.ShapeCasts S1x1
  shapeCasts_S400_S1x400 : S400.ShapeCasts S1x400
  inb_S2048x13_S2048x13_0_0 : ∀ a, (![0, 0] : Fin 2 → Nat) a + S2048x13.size a ≤ S2048x13.size a
  h_S2048x13 : 0 < S2048x13.numel
  shapeCasts_S2048x13_S2048x13 : S2048x13.ShapeCasts S2048x13
  inb_S2048x26x16_S2048x26x16_0_0_0 : ∀ a, (![0, 0, 0] : Fin 3 → Nat) a + S2048x26x16.size a ≤ S2048x26x16.size a
  h_S2048x26x16 : 0 < S2048x26x16.numel
  shapeCasts_S2048x26x16_S2048x26x16 : S2048x26x16.ShapeCasts S2048x26x16
  inb_S13x16_S13x16_0_0 : ∀ a, (![0, 0] : Fin 2 → Nat) a + S13x16.size a ≤ S13x16.size a
  h_S13x16 : 0 < S13x16.numel
  inb_S39x1_S39x1_0_0 : ∀ a, (![0, 0] : Fin 2 → Nat) a + S39x1.size a ≤ S39x1.size a
  h_S39x1 : 0 < S39x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S624x400_S624x400_0_0 : ∀ a, (![0, 0] : Fin 2 → Nat) a + S624x400.size a ≤ S624x400.size a
  h_S624x400 : 0 < S624x400.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  inb_S400x400_S400x400_0_0 : ∀ a, (![0, 0] : Fin 2 → Nat) a + S400x400.size a ≤ S400x400.size a
  h_S400x400 : 0 < S400x400.numel
  inb_S400x1_S400x1_0_0 : ∀ a, (![0, 0] : Fin 2 → Nat) a + S400x1.size a ≤ S400x1.size a
  h_S400x1 : 0 < S400x1.numel
  reduces_S2048x26x16_S2048x26 : S2048x26x16.Reduces [2] S2048x26
  shapeCasts_S2048x26_S2048x26x1 : S2048x26.ShapeCasts S2048x26x1
  broadcasts_S2048x26x1_S2048x26x16 : S2048x26x1.Broadcasts S2048x26x16
  shapeCasts_S2048x13_S2048x13x1 : S2048x13.ShapeCasts S2048x13x1
  shapeCasts_S13x16_S1x13x16 : S13x16.ShapeCasts S1x13x16
  broadcasts_S2048x13x1_S2048x13x16 : S2048x13x1.Broadcasts S2048x13x16
  broadcasts_S1x13x16_S2048x13x16 : S1x13x16.Broadcasts S2048x13x16
  reduces_S2048x13x16_S2048x13 : S2048x13x16.Reduces [2] S2048x13
  concatenates_S2048x13_S2048x26_S2048x39_d1 : Shape.Concatenates [S2048x13, S2048x26] S2048x39 1
  broadcasts_S1x1_S2048x1 : S1x1.Broadcasts S2048x1
  concatenates_S2048x13x16_S2048x26x16_S2048x39x16_d1 : Shape.Concatenates [S2048x13x16, S2048x26x16] S2048x39x16 1
  shapeCasts_S2048x39x16_S2048x624 : S2048x39x16.ShapeCasts S2048x624
  reduces_S2048x624_S624 : S2048x624.Reduces [0] S624
  shapeCasts_S624_S1x624 : S624.ShapeCasts S1x624
  shapeCasts_S2048x624_S1x2048x624 : S2048x624.ShapeCasts S1x2048x624
  reduces_S1x2048x624_S1 : S1x2048x624.Reduces [1, 2] S1
  shapeCasts_S1_S1x1x1 : S1.ShapeCasts S1x1x1
  inpos_S1x1x1_p0_0_0 : ∀ a, (![0, 0, 0] : Fin 3 → Nat) a < S1x1x1.size a
  shapeCasts_S1x624_S1x1x624 : S1x624.ShapeCasts S1x1x624
  inb_S1x1x624_S1x1x624_0_0_0 : ∀ a, (![0, 0, 0] : Fin 3 → Nat) a + S1x1x624.size a ≤ S1x1x624.size a
  h_S1x1x624 : 0 < S1x1x624.numel
  inb_S1x1x1_S1x1x1_0_0_0 : ∀ a, (![0, 0, 0] : Fin 3 → Nat) a + S1x1x1.size a ≤ S1x1x1.size a
  h_S1x1x1 : 0 < S1x1x1.numel
  broadcasts_S1x400_S2048x400 : S1x400.Broadcasts S2048x400
  inb_S2048x1_S2048x1_0_0 : ∀ a, (![0, 0] : Fin 2 → Nat) a + S2048x1.size a ≤ S2048x1.size a
  h_S2048x1 : 0 < S2048x1.numel
  reducesTo_S8x1x624_S1x624_d0 : S8x1x624.ReducesTo [0] S1x624
  h_S_ : 0 < S_.numel
  shapeCasts_S1x624_S624 : S1x624.ShapeCasts S624
  reducesTo_S8x1x1_S_d0_1_2 : S8x1x1.ReducesTo [0, 1, 2] S_
  reducesTo_S624_S_d0 : S624.ReducesTo [0] S_
  bcast_S_S16384x1 : S_.BroadcastsInDim S16384x1 (![] : Fin 0 → Fin S16384x1.rank)
  gather_S26x100000x16_S16384x26x2_S16384x26x16_2_01_n_n_01_2_1116_wf : GatherDims.WF S26x100000x16 S16384x26x2 S16384x26x16 [2] [0, 1] [] [0, 1] [] 2 ![1, 1, 16]
  dot_S2048x39_S39x1_S2048x1_1_0_0_1_n_n_wf : DotDims.WF S2048x39 S39x1 S2048x1 [1] [0] [0] [1] [] []
  dot_S2048x624_S624x400_S2048x400_1_0_0_1_n_n_wf : DotDims.WF S2048x624 S624x400 S2048x400 [1] [0] [0] [1] [] []
  dot_S2048x400_S400x400_S2048x400_1_0_0_1_n_n_wf : DotDims.WF S2048x400 S400x400 S2048x400 [1] [0] [0] [1] [] []
  dot_S2048x400_S400x1_S2048x1_1_0_0_1_n_n_wf : DotDims.WF S2048x400 S400x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x13.size a ≤ S16384x13.size a
  hwx0_0 : ∀ i : grid0.Coords, EltTy.bits .f32 = 32 ∨ (Rect.block (s := S16384x13) S2048x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x26x16.size a ≤ S16384x26x16.size a
  hwx0_1 : ∀ i : grid0.Coords, EltTy.bits .bf16 = 32 ∨ (Rect.block (s := S16384x26x16) S2048x26x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x26x16.size a ≤ S16384x26x16.size a
  hwx0_2 : ∀ i : grid0.Coords, EltTy.bits .bf16 = 32 ∨ (Rect.block (s := S16384x26x16) S2048x26x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x16.size a ≤ S13x16.size a
  hwx0_3 : ∀ i : grid0.Coords, EltTy.bits .f32 = 32 ∨ (Rect.block (s := S13x16) S13x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x16.size a ≤ S13x16.size a
  hwx0_4 : ∀ i : grid0.Coords, EltTy.bits .f32 = 32 ∨ (Rect.block (s := S13x16) S13x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S39x1.size a ≤ S39x1.size a
  hwx0_5 : ∀ i : grid0.Coords, EltTy.bits .f32 = 32 ∨ (Rect.block (s := S39x1) S39x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S13x16.size a ≤ S13x16.size a
  hwx0_7 : ∀ i : grid0.Coords, EltTy.bits .f32 = 32 ∨ (Rect.block (s := S13x16) S13x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S13x16.size a ≤ S13x16.size a
  hwx0_8 : ∀ i : grid0.Coords, EltTy.bits .f32 = 32 ∨ (Rect.block (s := S13x16) S13x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S624x400.size a ≤ S624x400.size a
  hwx0_9 : ∀ i : grid0.Coords, EltTy.bits .f32 = 32 ∨ (Rect.block (s := S624x400) S624x400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x400.size a ≤ S1x400.size a
  hwx0_10 : ∀ i : grid0.Coords, EltTy.bits .f32 = 32 ∨ (Rect.block (s := S1x400) S1x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400x400.size a ≤ S400x400.size a
  hwx0_11 : ∀ i : grid0.Coords, EltTy.bits .f32 = 32 ∨ (Rect.block (s := S400x400) S400x400.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x400.size a ≤ S1x400.size a
  hwx0_12 : ∀ i : grid0.Coords, EltTy.bits .f32 = 32 ∨ (Rect.block (s := S1x400) S1x400.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S400x1.size a ≤ S400x1.size a
  hwx0_13 : ∀ i : grid0.Coords, EltTy.bits .f32 = 32 ∨ (Rect.block (s := S400x1) S400x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x1.size a ≤ S16384x1.size a
  hwx0_15 : ∀ i : grid0.Coords, EltTy.bits .f32 = 32 ∨ (Rect.block (s := S16384x1) S2048x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x624.size a ≤ S8x1x624.size a
  hwx0_16 : ∀ i : grid0.Coords, EltTy.bits .f32 = 32 ∨ (Rect.block (s := S8x1x624) S1x1x624.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1x1.size a ≤ S8x1x1.size a
  hwx0_17 : ∀ i : grid0.Coords, EltTy.bits .f32 = 32 ∨ (Rect.block (s := S8x1x1) S1x1x1.size (cc0_transform_17 i) (hinb0_17 i)).WholeWords (EltTy.packing .f32)

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S2048x39_S39x1_S2048x1_1_0_0_1_n_n : DotDims S2048x39 S39x1 S2048x1 where
  lhsContracting := [1]
  rhsContracting := [0]
  lhsNonContracting := [0]
  rhsNonContracting := [1]
  lhsBatch := []
  rhsBatch := []
  wf := dot_S2048x39_S39x1_S2048x1_1_0_0_1_n_n_wf
def dot_S2048x624_S624x400_S2048x400_1_0_0_1_n_n : DotDims S2048x624 S624x400 S2048x400 where
  lhsContracting := [1]
  rhsContracting := [0]
  lhsNonContracting := [0]
  rhsNonContracting := [1]
  lhsBatch := []
  rhsBatch := []
  wf := dot_S2048x624_S624x400_S2048x400_1_0_0_1_n_n_wf
def dot_S2048x400_S400x400_S2048x400_1_0_0_1_n_n : DotDims S2048x400 S400x400 S2048x400 where
  lhsContracting := [1]
  rhsContracting := [0]
  lhsNonContracting := [0]
  rhsNonContracting := [1]
  lhsBatch := []
  rhsBatch := []
  wf := dot_S2048x400_S400x400_S2048x400_1_0_0_1_n_n_wf
def dot_S2048x400_S400x1_S2048x1_1_0_0_1_n_n : DotDims S2048x400 S400x1 S2048x1 where
  lhsContracting := [1]
  rhsContracting := [0]
  lhsNonContracting := [0]
  rhsNonContracting := [1]
  lhsBatch := []
  rhsBatch := []
  wf := dot_S2048x400_S400x1_S2048x1_1_0_0_1_n_n_wf

abbrev win0_0 : Pipeline.Window sig grid0 :=
  Pipeline.Window.ofSpec (Memref.whole main_v1) S2048x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x26x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x26x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S13x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S13x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S39x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S13x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S13x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S624x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S400x400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x400.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S400x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42_0) S2048x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v42_1) S1x1x624.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v42_2) S1x1x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x39 : Shape := ⟨2, ![16384, 39]⟩
abbrev S13x16 : Shape := ⟨2, ![13, 16]⟩
abbrev S26x100000x16 : Shape := ⟨3, ![26, 100000, 16]⟩
abbrev S39x1 : Shape := ⟨2, ![39, 1]⟩
abbrev S1 : Shape := ⟨1, ![1]⟩
abbrev S624x400 : Shape := ⟨2, ![624, 400]⟩
abbrev S400 : Shape := ⟨1, ![400]⟩
abbrev S400x400 : Shape := ⟨2, ![400, 400]⟩
abbrev S400x1 : Shape := ⟨2, ![400, 1]⟩
abbrev S16384x13 : Shape := ⟨2, ![16384, 13]⟩
abbrev S16384x26 : Shape := ⟨2, ![16384, 26]⟩
abbrev S26 : Shape := ⟨1, ![26]⟩
abbrev S1x26 : Shape := ⟨2, ![1, 26]⟩
abbrev S16384x13x1 : Shape := ⟨3, ![16384, 13, 1]⟩
abbrev S1x13x16 : Shape := ⟨3, ![1, 13, 16]⟩
abbrev S16384x13x16 : Shape := ⟨3, ![16384, 13, 16]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x1 : Shape := ⟨2, ![16384, 1]⟩
abbrev S1x1 : Shape := ⟨2, ![1, 1]⟩
abbrev S16384x39x16 : Shape := ⟨3, ![16384, 39, 16]⟩
abbrev S16384x624 : Shape := ⟨2, ![16384, 624]⟩
abbrev S624 : Shape := ⟨1, ![624]⟩
abbrev S16384x400 : Shape := ⟨2, ![16384, 400]⟩
abbrev S1x400 : Shape := ⟨2, ![1, 400]⟩

abbrev nBuf : Space → Nat
  | .hbm => 157
  | .vmem => 0
  | .smem => 0
  | _ => 0

abbrev hbmTy0_0 (i : Nat) : BufTy := match i % 128 with
  | 0 => ⟨S16384x39, .i32⟩
  | 1 => ⟨S13x16, .f32⟩
  | 2 => ⟨S13x16, .f32⟩
  | 3 => ⟨S26x100000x16, .f32⟩
  | 4 => ⟨S39x1, .f32⟩
  | 5 => ⟨S1, .f32⟩
  | 6 => ⟨S13x16, .f32⟩
  | 7 => ⟨S13x16, .f32⟩
  | 8 => ⟨S26x100000x16, .f32⟩
  | 9 => ⟨S624x400, .f32⟩
  | 10 => ⟨S400, .f32⟩
  | 11 => ⟨S400x400, .f32⟩
  | 12 => ⟨S400, .f32⟩
  | 13 => ⟨S400x1, .f32⟩
  | 14 => ⟨S1, .f32⟩
  | 15 => ⟨S16384x13, .i32⟩
  | 16 => ⟨S16384x13, .f32⟩
  | 17 => ⟨S16384x26, .i32⟩
  | 18 => ⟨S26, .i32⟩
  | 19 => ⟨S1x26, .i32⟩
  | 20 => ⟨S16384x13x1, .f32⟩
  | 21 => ⟨S1x13x16, .f32⟩
  | 22 => ⟨S16384x13x16, .f32⟩
  | 23 => ⟨S16384x13x16, .f32⟩
  | 24 => ⟨S16384x13x16, .f32⟩
  | 25 => ⟨S1x13x16, .f32⟩
  | 26 => ⟨S16384x13x16, .f32⟩
  | 27 => ⟨S16384x13x16, .f32⟩
  | 28 => ⟨S_, .i32⟩
  | 29 => ⟨S1x26, .i32⟩
  | 30 => ⟨S1x26, .i1⟩
  | 31 => ⟨S_, .i32⟩
  | 32 => ⟨S1x26, .i32⟩
  | 33 => ⟨S1x26, .i32⟩
  | 34 => ⟨S1x26, .i32⟩
  | 35 => ⟨S_, .i32⟩
  | 36 => ⟨S16384x26, .i32⟩
  | 37 => ⟨S16384x26, .i1⟩
  | 38 => ⟨S_, .i32⟩
  | 39 => ⟨S16384x26, .i32⟩
  | 40 => ⟨S16384x26, .i32⟩
  | 41 => ⟨S16384x26, .i32⟩
  | 42 => ⟨S16384x26, .i32⟩
  | 43 => ⟨S16384x26x1, .i32⟩
  | 44 => ⟨S16384x26x1, .i32⟩
  | 45 => ⟨S16384x26x2, .i32⟩
  | 46 => ⟨S16384x26x16, .f32⟩
  | 47 => ⟨S16384x26x16, .f32⟩
  | 48 => ⟨S_, .f32⟩
  | 49 => ⟨S16384x26, .f32⟩
  | 50 => ⟨S16384x26x1, .f32⟩
  | 51 => ⟨S16384x26x1, .f32⟩
  | 52 => ⟨S_, .f32⟩
  | 53 => ⟨S16384x26x1, .f32⟩
  | 54 => ⟨S16384x26x1, .i1⟩
  | 55 => ⟨S_, .f32⟩
  | 56 => ⟨S16384x26x1, .f32⟩
  | 57 => ⟨S16384x26x1, .f32⟩
  | 58 => ⟨S_, .f32⟩
  | 59 => ⟨S16384x26x1, .f32⟩
  | 60 => ⟨S16384x26x1, .f32⟩
  | 61 => ⟨S_, .f32⟩
  | 62 => ⟨S_, .f32⟩
  | 63 => ⟨S16384x26x1, .f32⟩
  | 64 => ⟨S16384x26x1, .f32⟩
  | 65 => ⟨S16384x26x16, .f32⟩
  | 66 => ⟨S16384x26x16, .f32⟩
  | 67 => ⟨S_, .f32⟩
  | 68 => ⟨S16384x13, .f32⟩
  | 69 => ⟨S_, .f32⟩
  | 70 => ⟨S16384x26, .f32⟩
  | 71 => ⟨S16384x39, .f32⟩
  | 72 => ⟨S16384x1, .f32⟩
  | 73 => ⟨S1x1, .f32⟩
  | 74 => ⟨S16384x1, .f32⟩
  | 75 => ⟨S16384x1, .f32⟩
  | 76 => ⟨S16384x13x1, .f32⟩
  | 77 => ⟨S1x13x16, .f32⟩
  | 78 => ⟨S16384x13x16, .f32⟩
  | 79 => ⟨S16384x13x16, .f32⟩
  | 80 => ⟨S16384x13x16, .f32⟩
  | 81 => ⟨S1x13x16, .f32⟩
  | 82 => ⟨S16384x13x16, .f32⟩
  | 83 => ⟨S16384x13x16, .f32⟩
  | 84 => ⟨S_, .i32⟩
  | 85 => ⟨S1x26, .i32⟩
  | 86 => ⟨S1x26, .i1⟩
  | 87 => ⟨S_, .i32⟩
  | 88 => ⟨S1x26, .i32⟩
  | 89 => ⟨S1x26, .i32⟩
  | 90 => ⟨S1x26, .i32⟩
  | 91 => ⟨S_, .i32⟩
  | 92 => ⟨S16384x26, .i32⟩
  | 93 => ⟨S16384x26, .i1⟩
  | 94 => ⟨S_, .i32⟩
  | 95 => ⟨S16384x26, .i32⟩
  | 96 => ⟨S16384x26, .i32⟩
  | 97 => ⟨S16384x26, .i32⟩
  | 98 => ⟨S16384x26, .i32⟩
  | 99 => ⟨S16384x26x1, .i32⟩
  | 100 => ⟨S16384x26x1, .i32⟩
  | 101 => ⟨S16384x26x2, .i32⟩
  | 102 => ⟨S16384x26x16, .f32⟩
  | 103 => ⟨S16384x26x16, .f32⟩
  | 104 => ⟨S_, .f32⟩
  | 105 => ⟨S16384x26, .f32⟩
  | 106 => ⟨S16384x26x1, .f32⟩
  | 107 => ⟨S16384x26x1, .f32⟩
  | 108 => ⟨S_, .f32⟩
  | 109 => ⟨S16384x26x1, .f32⟩
  | 110 => ⟨S16384x26x1, .i1⟩
  | 111 => ⟨S_, .f32⟩
  | 112 => ⟨S16384x26x1, .f32⟩
  | 113 => ⟨S16384x26x1, .f32⟩
  | 114 => ⟨S_, .f32⟩
  | 115 => ⟨S16384x26x1, .f32⟩
  | 116 => ⟨S16384x26x1, .f32⟩
  | 117 => ⟨S_, .f32⟩
  | 118 => ⟨S_, .f32⟩
  | 119 => ⟨S16384x26x1, .f32⟩
  | 120 => ⟨S16384x26x1, .f32⟩
  | 121 => ⟨S16384x26x16, .f32⟩
  | 122 => ⟨S16384x26x16, .f32⟩
  | 123 => ⟨S16384x39x16, .f32⟩
  | 124 => ⟨S16384x624, .f32⟩
  | 125 => ⟨S_, .f32⟩
  | 126 => ⟨S624, .f32⟩
  | 127 => ⟨S624, .f32⟩
  | _ => ⟨S16384x39, .i32⟩

abbrev hbmTy0_1 (i : Nat) : BufTy := match i % 128 with
  | 0 => ⟨S16384x624, .f32⟩
  | 1 => ⟨S_, .f32⟩
  | 2 => ⟨S624, .f32⟩
  | 3 => ⟨S624, .f32⟩
  | 4 => ⟨S_, .f32⟩
  | 5 => ⟨S_, .f32⟩
  | 6 => ⟨S_, .f32⟩
  | 7 => ⟨S_, .f32⟩
  | 8 => ⟨S16384x400, .f32⟩
  | 9 => ⟨S1x400, .f32⟩
  | 10 => ⟨S16384x400, .f32⟩
  | 11 => ⟨S16384x400, .f32⟩
  | 12 => ⟨S_, .f32⟩
  | 13 => ⟨S16384x400, .f32⟩
  | 14 => ⟨S16384x400, .f32⟩
  | 15 => ⟨S16384x400, .f32⟩
  | 16 => ⟨S1x400, .f32⟩
  | 17 => ⟨S16384x400, .f32⟩
  | 18 => ⟨S16384x400, .f32⟩
  | 19 => ⟨S_, .f32⟩
  | 20 => ⟨S16384x400, .f32⟩
  | 21 => ⟨S16384x400, .f32⟩
  | 22 => ⟨S16384x1, .f32⟩
  | 23 => ⟨S1x1, .f32⟩
  | 24 => ⟨S16384x1, .f32⟩
  | 25 => ⟨S16384x1, .f32⟩
  | 26 => ⟨S16384x1, .f32⟩
  | 27 => ⟨S16384x1, .f32⟩
  | 28 => ⟨S16384x1, .f32⟩
  | _ => ⟨S16384x39, .i32⟩

abbrev hbmTy (i : Nat) : BufTy := match i / 128 with
  | 0 => hbmTy0_0 i
  | 1 => hbmTy0_1 i
  | _ => ⟨S16384x39, .i32⟩

abbrev bufTy : (tb : Table) → Fin (tcTables nBuf tb) → BufTy
  | .hbm, ⟨i, _⟩ => hbmTy i
  | _, _ => ⟨S16384x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_10 : Ref sig .tc := ⟨.hbm, 91, rfl⟩
abbrev main_v58 : Ref sig .tc := ⟨.hbm, 92, rfl⟩
abbrev main_v59 : Ref sig .tc := ⟨.hbm, 93, rfl⟩
abbrev main_c_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call2_v0 : Ref sig .tc := ⟨.hbm, 103, rfl⟩
abbrev main_call2_cst : Ref sig .tc := ⟨.hbm, 104, rfl⟩
abbrev main_call2_v1 : Ref sig .tc := ⟨.hbm, 105, rfl⟩
abbrev main_call2_v2 : Ref sig .tc := ⟨.hbm, 106, rfl⟩
abbrev main_v68 : Ref sig .tc := ⟨.hbm, 107, rfl⟩
abbrev main_cst_12 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_cst_15 : Ref sig .tc := ⟨.hbm, 117, rfl⟩
abbrev main_call3_v0 : Ref sig .tc := ⟨.hbm, 118, rfl⟩
abbrev main_call3_v1 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_16 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_cst_18 : Ref sig .tc := ⟨.hbm, 132, rfl⟩
abbrev main_v85 : Ref sig .tc := ⟨.hbm, 133, rfl⟩
abbrev main_cst_19 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call4_cst : Ref sig .tc := ⟨.hbm, 140, rfl⟩
abbrev main_call4_v0 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_call5_cst : Ref sig .tc := ⟨.hbm, 147, rfl⟩
abbrev main_call5_v0 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩

abbrev nD : Nat := 1
abbrev τ : Topo := Topo.v7x

variable {F : FTy → Type} [FloatOps F]

class Facts₀ : Prop where
  slices_S16384x39_S16384x13_0_0 : S16384x39.Slices ![0, 0] S16384x13
  slices_S16384x39_S16384x26_0_13 : S16384x39.Slices ![0, 13] S16384x26
  bcast_S26_S1x26_1 : S26.BroadcastsInDim S1x26 (![1] : Fin 1 → Fin S1x26.rank)
  bcast_S16384x13_S16384x13x1_0_1 : S16384x13.BroadcastsInDim S16384x13x1 (![0, 1] : Fin 2 → Fin S16384x13x1.rank)
  bcast_S13x16_S1x13x16_1_2 : S13x16.BroadcastsInDim S1x13x16 (![1, 2] : Fin 2 → Fin S1x13x16.rank)
  bcast_S16384x13x1_S16384x13x16_0_1_2 : S16384x13x1.BroadcastsInDim S16384x13x16 (![0, 1, 2] : Fin 3 → Fin S16384x13x16.rank)
  bcast_S1x13x16_S16384x13x16_0_1_2 : S1x13x16.BroadcastsInDim S16384x13x16 (![0, 1, 2] : Fin 3 → Fin S16384x13x16.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26x16_S16384x26_d2 : S16384x26x16.ReducesTo [2] S16384x26
  h_S_ : 0 < S_.numel
  bcast_S_S16384x26x1 : S_.BroadcastsInDim S16384x26x1 (![] : Fin 0 → Fin S16384x26x1.rank)
  bcast_S16384x26x1_S16384x26x16_0_1_2 : S16384x26x1.BroadcastsInDim S16384x26x16 (![0, 1, 2] : Fin 3 → Fin S16384x26x16.rank)
  reducesTo_S16384x13x16_S16384x13_d2 : S16384x13x16.ReducesTo [2] S16384x13
  concatenates_S16384x13_S16384x26_S16384x39_d1 : Shape.Concatenates [S16384x13, S16384x26] S16384x39 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  concatenates_S16384x13x16_S16384x26x16_S16384x39x16_d1 : Shape.Concatenates [S16384x13x16, S16384x26x16] S16384x39x16 1
  shapeCasts_S16384x39x16_S16384x624 : S16384x39x16.ShapeCasts S16384x624
  reducesTo_S16384x624_S624_d0 : S16384x624.ReducesTo [0] S624
  reducesTo_S624_S_d0 : S624.ReducesTo [0] S_
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  bcast_S_S16384x1 : S_.BroadcastsInDim S16384x1 (![] : Fin 0 → Fin S16384x1.rank)
  gather_S26x100000x16_S16384x26x2_S16384x26x16_2_01_n_n_01_2_1116_wf : GatherDims.WF S26x100000x16 S16384x26x2 S16384x26x16 [2] [0, 1] [] [0, 1] [] 2 ![1, 1, 16]
  dot_S16384x39_S39x1_S16384x1_1_0_0_1_n_n_wf : DotDims.WF S16384x39 S39x1 S16384x1 [1] [0] [0] [1] [] []
  dot_S16384x624_S624x400_S16384x400_1_0_0_1_n_n_wf : DotDims.WF S16384x624 S624x400 S16384x400 [1] [0] [0] [1] [] []
  dot_S16384x400_S400x400_S16384x400_1_0_0_1_n_n_wf : DotDims.WF S16384x400 S400x400 S16384x400 [1] [0] [0] [1] [] []
  dot_S16384x400_S400x1_S16384x1_1_0_0_1_n_n_wf : DotDims.WF S16384x400 S400x1 S16384x1 [1] [0] [0] [1] [] []

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x39_S39x1_S16384x1_1_0_0_1_n_n : DotDims S16384x39 S39x1 S16384x1 where
  lhsContracting := [1]
  rhsContracting := [0]
  lhsNonContracting := [0]
  rhsNonContracting := [1]
  lhsBatch := []
  rhsBatch := []
  wf := dot_S16384x39_S39x1_S16384x1_1_0_0_1_n_n_wf
def dot_S16384x624_S624x400_S16384x400_1_0_0_1_n_n : DotDims S16384x624 S624x400 S16384x400 where
  lhsContracting := [1]
  rhsContracting := [0]
  lhsNonContracting := [0]
  rhsNonContracting := [1]
  lhsBatch := []
  rhsBatch := []
  wf := dot_S16384x624_S624x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x400_S400x1_S16384x1_1_0_0_1_n_n : DotDims S16384x400 S400x1 S16384x1 where
  lhsContracting := [1]
  rhsContracting := [0]
  lhsNonContracting := [0]
  rhsNonContracting := [1]
  lhsBatch := []
  rhsBatch := []
  wf := dot_S16384x400_S400x1_S16384x1_1_0_0_1_n_n_wf

class Facts : Prop extends Facts₀ where

variable [Facts]
-- ==== Proof.Spec.lean ====
/- The model both programs compute, written row by row over the extended reals.

   For one batch row with dense features `xd` (13 numbers) and two looked-up embedding rows per sparse field
   (`gf`, `gs`: 26 rows of 16 numbers, for the first- and the second-order part):
   * an embedding row `e` is renormalised to `e · s(‖e‖²)`, where `s(q) = 0.1 / (√q + 1e-7)` when `√q > 0.1` and `1` otherwise;
   * a dense field `f` becomes the 16 numbers `xd f · W f k + B f k`;
   * the second-order feature row is the 39 × 16 numbers (dense fields first, then sparse) laid out flat, 624 numbers;
   * the first-order term is `∑_f (∑_k field f k) · lw f + lb`;
   * the deep term is three affine layers with `max(·, 0)` between them, applied to the feature row.
   The second-order term is one scalar for the whole batch: half of the sum over the 624 columns of
   (column sum)² − (column sum of squares).  The literals stay as their f32 words: both programs carry the same words. -/
import Idealize.ShloMosaic.PureOps.Ideal
import Idealize.ShloMosaic.PureOps.Ideal.Laws
import Mathlib.Data.EReal.Operations
import Mathlib.Algebra.BigOperators.Fin
import Mathlib.Algebra.BigOperators.Group.Finset.Basic

noncomputable section

namespace DeepFM

open Idealize.ShloMosaic
open scoped BigOperators

/-- The f32 word of 0.1. -/
abbrev lit01 : EReal := Ideal.ofBits .f32 0x3DCCCCCD#32
/-- The f32 word of 1e-7. -/
abbrev lit1e7 : EReal := Ideal.ofBits .f32 0x33D6BF95#32
/-- The f32 word of 1. -/
abbrev litOne : EReal := Ideal.ofBits .f32 0x3F800000#32
/-- The f32 word of 0. -/
abbrev litZero : EReal := Ideal.ofBits .f32 0x00000000#32
/-- The f32 word of 0.5. -/
abbrev litHalf : EReal := Ideal.ofBits .f32 0x3F000000#32

/-- The max-norm scale of an embedding row, from the row's sum of squares `q`:
    `0.1 / (√q + 1e-7)` where `√q > 0.1`, else `1`. -/
def scaleSq (q : EReal) : EReal :=
  Scalar.select (Ideal.cmp .ogt (Ideal.sqrt q) lit01) (Ideal.div lit01 (Ideal.sqrt q + lit1e7)) litOne

/-- An embedding row renormalised to norm at most 0.1. -/
def normed (e : Fin 16 → EReal) (k : Fin 16) : EReal := e k * scaleSq (∑ k', e k' * e k')

/-- A dense field's 16 numbers: the scalar feature through its own affine map. -/
def denseField (xd : Fin 13 → EReal) (W B : Fin 13 → Fin 16 → EReal) (f : Fin 13) (k : Fin 16) : EReal :=
  xd f * W f k + B f k

/-- Thirteen dense fields followed by twenty-six sparse ones. -/
def catField {α : Type} (d : Fin 13 → α) (s : Fin 26 → α) (f : Fin 39) : α :=
  if h : f.val < 13 then d ⟨f.val, h⟩ else s ⟨f.val - 13, by have := f.isLt; omega⟩

/-- 39 fields of 16 numbers laid out flat: entry `j` is number `j % 16` of field `j / 16`. -/
def flat (a : Fin 39 → Fin 16 → EReal) (j : Fin 624) : EReal :=
  a ⟨j.val / 16, by have := j.isLt; omega⟩ ⟨j.val % 16, Nat.mod_lt _ (by decide)⟩

/-- The second-order feature row of one batch row. -/
def featRow (xd : Fin 13 → EReal) (W B : Fin 13 → Fin 16 → EReal) (g : Fin 26 → Fin 16 → EReal) : Fin 624 → EReal :=
  flat (catField (denseField xd W B) (fun f => normed (g f)))

/-- The first-order term of one batch row. -/
def firstRow (xd : Fin 13 → EReal) (W B : Fin 13 → Fin 16 → EReal) (g : Fin 26 → Fin 16 → EReal)
    (lw : Fin 39 → EReal) (lb : EReal) : EReal :=
  (∑ f : Fin 39, catField (fun f => ∑ k, denseField xd W B f k) (fun f => ∑ k, normed (g f) k) f * lw f) + lb

/-- One affine layer at output `n`. -/
def layer {K M : Nat} (a : Fin K → EReal) (W : Fin K → Fin M → EReal) (b : Fin M → EReal) (n : Fin M) : EReal :=
  (∑ k, a k * W k n) + b n

/-- The rectifier against the f32 word of 0. -/
def relu (x : EReal) : EReal := max x litZero

/-- The deep term of one batch row: three affine layers, rectified between. -/
def mlpRow (a : Fin 624 → EReal) (W0 : Fin 624 → Fin 400 → EReal) (b0 : Fin 400 → EReal)
    (W1 : Fin 400 → Fin 400 → EReal) (b1 : Fin 400 → EReal) (W2 : Fin 400 → EReal) (b2 : EReal) : EReal :=
  (∑ k, relu (layer (fun n => relu (layer a W0 b0 n)) W1 b1 k) * W2 k) + b2

/-- Row `r` of block `t` of the batch, in blocks of 2048 rows. -/
def blkRow (t : Fin 8) (r : Fin 2048) : Fin 16384 := ⟨2048 * t.val + r.val, by have := t.isLt; have := r.isLt; omega⟩

/-- The second-order scalar as the reference computes it: per column, (column sum)² − (column sum of squares), summed, halved. -/
def secondRef (A : Fin 16384 → Fin 624 → EReal) : EReal :=
  litHalf * ∑ j, ((∑ b, A b j) * (∑ b, A b j) - ∑ b, A b j * A b j)

/-- The second-order scalar as the kernel computes it: column sums and the total sum of squares gathered block by block,
    the total subtracted once. -/
def secondKer (A : Fin 16384 → Fin 624 → EReal) : EReal :=
  litHalf * ((∑ j, (∑ t, ∑ r, A (blkRow t r) j) * (∑ t, ∑ r, A (blkRow t r) j))
    - ∑ t, ∑ p : Fin 2048 × Fin 624, A (blkRow t p.1) p.2 * A (blkRow t p.1) p.2)

end DeepFM

end
-- ==== Proof.KerFeat.lean ====
/- The kernel body's arithmetic read at an index: the renormalised embedding rows, the dense fields, the flat
   feature block and its two block reductions, each as the row-wise description of the model (Spec.lean). -/
import proofs.«419042_j7868380086366_2_alg».proof.Proof.Gen.KernelIdeal.Skeleton
import proofs.«419042_j7868380086366_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx
open scoped BigOperators

/-- A loaded block passes through its identity reshape unchanged. -/
theorem pay5_eq (v0 : Vec Ideal S2048x13 .f32) : k0_pay5 (F := Ideal) v0 = v0 :=
  shapeCast_self v0 _

/-- The transported embedding rows widen back to the same extended reals. -/
theorem pay6_eq (v2 : Vec Ideal S2048x26x16 .bf16) (i : S2048x26x16.Idx) : k0_pay6 (F := Ideal) v2 i = v2 i :=
  congrFun (shapeCast_self v2 shapeCasts_S2048x26x16_S2048x26x16) i

theorem pay7_eq (v5 : Vec Ideal S2048x26x16 .bf16) (i : S2048x26x16.Idx) : k0_pay7 (F := Ideal) v5 i = v5 i :=
  congrFun (shapeCast_self v5 shapeCasts_S2048x26x16_S2048x26x16) i

theorem pay8_eq (v13 : Vec Ideal S1x1 .f32) : k0_pay8 (F := Ideal) v13 = v13 :=
  shapeCast_self v13 _

theorem pay9_eq (v16 : Vec Ideal S1x400 .f32) : k0_pay9 (F := Ideal) v16 = v16 :=
  shapeCast_self v16 _

theorem pay10_eq (v19 : Vec Ideal S1x400 .f32) : k0_pay10 (F := Ideal) v19 = v19 :=
  shapeCast_self v19 _

theorem pay11_eq (v22 : Vec Ideal S1x1 .f32) : k0_pay11 (F := Ideal) v22 = v22 :=
  shapeCast_self v22 _

/-! ## The layout operations of the body, each read at an index given by coordinates -/

/-- A sum over the last axis of a [2048, 26, 16] block, read at (r, f): the sum over the 16 numbers of that row.
    The accumulator hypothesis is typed as the body's own proof of it is (an equation between two zero words). -/
theorem laneSum16 (src : FVec Ideal S2048x26x16 .f32) (h : Shape.Reduces S2048x26x16 [2] S2048x26)
    (hφ : FKind.Formats .f32) (hacc : (0x00000000#32 : BitVec 32) = 0x00000000#32) (r : Fin 2048) (f : Fin 26) :
    multiReduction .add [2] S2048x26 src 0x00000000#32 h hφ hacc (ix2 r f) = ∑ k : Fin 16, src (ix3 r f k) := by
  refine (Ideal.multiReduction_add_single src 0x00000000#32 h hφ hacc (ix2 r f)).trans ?_
  refine Finset.sum_congr rfl fun k _ => congrArg src ?_
  funext c
  match c with
  | ⟨0, _⟩ => rfl
  | ⟨1, _⟩ => rfl
  | ⟨2, _⟩ => rfl

/-- The keepdims reshape [2048, 26] → [2048, 26, 1] read at (r, f, 0): both have row-major position 26 r + f. -/
theorem keepdims26_apply {α : Type} (x : S2048x26.Idx → α) (h : S2048x26.ShapeCasts S2048x26x1)
    (r : Fin 2048) (f : Fin 26) (u : Fin 1) : shapeCast S2048x26x1 x h (ix3 r f u) = x (ix2 r f) :=
  shapeCast_apply x h _ _ (by
    have hu : u.val = 0 := by omega
    rw [Shape.rowMajor_val_three, Shape.rowMajor_val_two]
    show r.val * 26 + f.val = (r.val * 26 + f.val) * 1 + u.val
    omega)

/-- The broadcast [2048, 26, 1] → [2048, 26, 16] read at (r, f, k): the one entry of row (r, f). -/
theorem bcast26_apply {α : Type} (x : S2048x26x1.Idx → α) (h : S2048x26x1.Broadcasts S2048x26x16)
    (r : Fin 2048) (f : Fin 26) (k : Fin 16) : broadcastTo S2048x26x16 x h (ix3 r f k) = x (ix3 r f (0 : Fin 1)) :=
  broadcastTo_apply x h (ix3 r f k) (ix3 r f (0 : Fin 1)) fun a => by
    match a with
    | ⟨0, _⟩ => rfl
    | ⟨1, _⟩ => rfl
    | ⟨2, _⟩ => rfl

/-- The keepdims reshape [2048, 13] → [2048, 13, 1] read at (r, f, 0). -/
theorem keepdims13_apply {α : Type} (x : S2048x13.Idx → α) (h : S2048x13.ShapeCasts S2048x13x1)
    (r : Fin 2048) (f : Fin 13) (u : Fin 1) : shapeCast S2048x13x1 x h (ix3 r f u) = x (ix2 r f) :=
  shapeCast_apply x h _ _ (by
    have hu : u.val = 0 := by omega
    rw [Shape.rowMajor_val_three, Shape.rowMajor_val_two]
    show r.val * 13 + f.val = (r.val * 13 + f.val) * 1 + u.val
    omega)

/-- The broadcast [2048, 13, 1] → [2048, 13, 16] read at (r, f, k): the one entry of row (r, f). -/
theorem bcast13_apply {α : Type} (x : S2048x13x1.Idx → α) (h : S2048x13x1.Broadcasts S2048x13x16)
    (r : Fin 2048) (f : Fin 13) (k : Fin 16) : broadcastTo S2048x13x16 x h (ix3 r f k) = x (ix3 r f (0 : Fin 1)) :=
  broadcastTo_apply x h (ix3 r f k) (ix3 r f (0 : Fin 1)) fun a => by
    match a with
    | ⟨0, _⟩ => rfl
    | ⟨1, _⟩ => rfl
    | ⟨2, _⟩ => rfl

/-- The broadcast [1, 13, 16] → [2048, 13, 16] read at (r, f, k): entry (f, k) of the one table, whatever the row. -/
theorem bcastRows_apply {α : Type} (x : S1x13x16.Idx → α) (h : S1x13x16.Broadcasts S2048x13x16)
    (r : Fin 2048) (f : Fin 13) (k : Fin 16) : broadcastTo S2048x13x16 x h (ix3 r f k) = x (ix3 (0 : Fin 1) f k) :=
  broadcastTo_apply x h (ix3 r f k) (ix3 (0 : Fin 1) f k) fun a => by
    match a with
    | ⟨0, _⟩ => rfl
    | ⟨1, _⟩ => rfl
    | ⟨2, _⟩ => rfl

/-- Thirteen dense fields followed by twenty-six sparse ones along the middle axis, read at (r, g, l): field g is
    dense field g below 13 and sparse field g − 13 from 13 on. -/
theorem cat_apply (x₁ : S2048x13x16.Idx → EReal) (x₂ : S2048x26x16.Idx → EReal)
    (h : Shape.Concatenates [S2048x13x16, S2048x26x16] S2048x39x16 1) (r : Fin 2048) (g : Fin 39) (l : Fin 16) :
    concatenate S2048x39x16 1 [⟨S2048x13x16, x₁⟩, ⟨S2048x26x16, x₂⟩] h (ix3 r g l)
      = DeepFM.catField (fun f k => x₁ (ix3 r f k)) (fun f k => x₂ (ix3 r f k)) g l := by
  unfold DeepFM.catField
  by_cases hg : g.val < 13
  · rw [dif_pos hg]
    exact concatenate_pair_apply_left 1 x₁ x₂ h (ix3 r g l) rfl (ix3 r ⟨g.val, hg⟩ l) fun b => by
      match b with
      | ⟨0, _⟩ => rfl
      | ⟨1, _⟩ => rfl
      | ⟨2, _⟩ => rfl
  · rw [dif_neg hg]
    exact concatenate_pair_apply_right 1 x₁ x₂ h (ix3 r g l) rfl rfl
      (ix3 r ⟨g.val - 13, by have := g.isLt; omega⟩ l)
      (fun b hb => by
        match b, hb with
        | ⟨0, _⟩, _ => rfl
        | ⟨1, _⟩, hb => exact absurd rfl hb
        | ⟨2, _⟩, _ => rfl)
      (by show g.val - 13 + 13 = g.val; omega)

/-- A sum over the rows of a [2048, 624] block, read at column j. -/
theorem colSum (src : FVec Ideal S2048x624 .f32) (h : Shape.Reduces S2048x624 [0] S624)
    (hφ : FKind.Formats .f32) (hacc : (0x00000000#32 : BitVec 32) = 0x00000000#32) (j : Fin 624) :
    multiReduction .add [0] S624 src 0x00000000#32 h hφ hacc (ix1 j) = ∑ r : Fin 2048, src (ix2 r j) := by
  refine (Ideal.multiReduction_add_single src 0x00000000#32 h hφ hacc (ix1 j)).trans ?_
  refine Finset.sum_congr rfl fun r _ => congrArg src ?_
  funext c
  match c with
  | ⟨0, _⟩ => rfl
  | ⟨1, _⟩ => rfl

/-- The indices of a [1, 2048, 624] block are the pairs (row, column): the leading coordinate is always 0. -/
def idxEquivBlock : S1x2048x624.Idx ≃ Fin 2048 × Fin 624 where
  toFun i := (i 1, i 2)
  invFun p := ix3 (0 : Fin 1) p.1 p.2
  left_inv i := by
    funext a
    match a with
    | ⟨0, _⟩ =>
      have h0 : (i 0).val < 1 := (i 0).isLt
      exact Fin.ext (by show (0 : ℕ) = (i 0).val; omega)
    | ⟨1, _⟩ => rfl
    | ⟨2, _⟩ => rfl
  right_inv _ := rfl

/-- The sum over every entry of a [2048, 624] block seen as [1, 2048, 624], as a sum over (row, column) pairs. -/
theorem totalSum (src : FVec Ideal S2048x624 .f32) (hc : S2048x624.ShapeCasts S1x2048x624)
    (h : Shape.Reduces S1x2048x624 [1, 2] S1) (hφ : FKind.Formats .f32)
    (hacc : (0x00000000#32 : BitVec 32) = 0x00000000#32) (j : S1.Idx) :
    multiReduction .add [1, 2] S1 (shapeCast S1x2048x624 src hc) 0x00000000#32 h hφ hacc j
      = ∑ p : Fin 2048 × Fin 624, src (ix2 p.1 p.2) := by
  refine (Ideal.multiReduction_add_total _ 0x00000000#32 h (fun b => by match b with | ⟨0, _⟩ => rfl) hφ hacc j).trans ?_
  refine Fintype.sum_equiv idxEquivBlock _ _ fun i => ?_
  obtain ⟨u, a, b, rfl⟩ : ∃ (u : Fin 1) (a : Fin 2048) (b : Fin 624), i = ix3 u a b := ⟨i 0, i 1, i 2, eq_ix3 i⟩
  exact shapeCast_ab_1ab_apply src hc u a b

/-- The max-norm scale computed entry by entry from a column of sums of squares is the model's scale of each entry:
    every operation of the chain is pointwise, and at the extended reals each is the model's own. -/
theorem scale_apply (q : FVec Ideal S2048x26x1 .f32) (i : S2048x26x1.Idx) :
    select (cmpf .ogt (sqrt q) (broadcast S2048x26x1 (Scalar.ofBits (F := Ideal) .f32 0x3DCCCCCD#32)))
        (divf (broadcast S2048x26x1 (Scalar.ofBits (F := Ideal) .f32 0x3DCCCCCD#32))
          (addf (sqrt q) (broadcast S2048x26x1 (Scalar.ofBits (F := Ideal) .f32 0x33D6BF95#32))))
        (broadcast S2048x26x1 (Scalar.ofBits (F := Ideal) .f32 0x3F800000#32)) i
      = DeepFM.scaleSq (q i) := rfl

/-! ## The payloads -/

/-- The first-order rows' sums of squares, one per batch row and sparse field. -/
theorem pay12_apply (v2 : Vec Ideal S2048x26x16 .bf16) (r : Fin 2048) (f : Fin 26) :
    k0_pay12 (F := Ideal) v2 (ix2 r f) = ∑ k : Fin 16, v2 (ix3 r f k) * v2 (ix3 r f k) := by
  unfold k0_pay12
  refine (laneSum16 _ _ _ _ r f).trans ?_
  refine Finset.sum_congr rfl fun k _ => ?_
  show k0_pay6 (F := Ideal) v2 (ix3 r f k) * k0_pay6 (F := Ideal) v2 (ix3 r f k) = _
  rw [pay6_eq]

/-- A second-order embedding row renormalised: the row times the scale of its own sum of squares, which the body
    computes once per row (keepdims) and broadcasts back over the 16 numbers. -/
theorem pay13_apply (v7 : FVec Ideal S2048x26x16 .f32) (r : Fin 2048) (f : Fin 26) (k : Fin 16) :
    k0_pay13 (F := Ideal) v7 (ix3 r f k) = DeepFM.normed (fun k' => v7 (ix3 r f k')) k := by
  unfold k0_pay13 DeepFM.normed
  refine (mulf_apply _ _ _).trans ?_
  refine congrArg (fun z => v7 (ix3 r f k) * z) ?_
  refine (bcast26_apply _ _ r f k).trans ?_
  refine (scale_apply _ _).trans ?_
  refine congrArg DeepFM.scaleSq ?_
  refine (keepdims26_apply _ _ r f 0).trans ?_
  refine (laneSum16 _ _ _ _ r f).trans ?_
  rfl

/-- A second-order dense field: the row's scalar feature broadcast over the 16 numbers, times the field's weights,
    plus its biases (both tables broadcast over the rows). -/
theorem pay15_apply (v1 : FVec Ideal S2048x13 .f32) (v10 v11 : Vec Ideal S13x16 .f32) (r : Fin 2048) (f : Fin 13) (k : Fin 16) :
    k0_pay15 (F := Ideal) v1 v10 v11 (ix3 r f k)
      = DeepFM.denseField (fun f => v1 (ix2 r f)) (fun f k => v10 (ix2 f k)) (fun f k => v11 (ix2 f k)) f k := by
  unfold k0_pay15 DeepFM.denseField
  refine (addf_apply _ _ _).trans ?_
  refine congrArg₂ (fun a b : EReal => a + b) ?_ ?_
  · refine (mulf_apply _ _ _).trans ?_
    refine congrArg₂ (fun a b : EReal => a * b) ?_ ?_
    · refine (bcast13_apply _ _ r f k).trans ?_
      exact keepdims13_apply _ _ r f 0
    · refine (bcastRows_apply _ _ r f k).trans ?_
      exact shapeCast_ab_1ab_apply _ _ 0 f k
  · refine (bcastRows_apply _ _ r f k).trans ?_
    exact shapeCast_ab_1ab_apply _ _ 0 f k

/-- The flat feature block: dense fields then sparse fields, 16 numbers each. Entry (r, j) of the [2048, 624] block
    and entry (r, j / 16, j % 16) of the [2048, 39, 16] one have the same row-major position. -/
theorem pay1_apply (v51 : FVec Ideal S2048x26x16 .f32) (v73 : FVec Ideal S2048x13x16 .f32) (r : Fin 2048) (j : Fin 624) :
    k0_pay1 (F := Ideal) v51 v73 (ix2 r j)
      = DeepFM.flat (DeepFM.catField (fun f k => v73 (ix3 r f k)) (fun f k => v51 (ix3 r f k))) j := by
  unfold k0_pay1 DeepFM.flat
  refine (shapeCast_apply _ _ (ix2 r j)
    (ix3 r (⟨j.val / 16, by have := j.isLt; omega⟩ : Fin 39) (⟨j.val % 16, Nat.mod_lt _ (by decide)⟩ : Fin 16)) ?_).trans ?_
  · rw [Shape.rowMajor_val_three, Shape.rowMajor_val_two]
    show (r.val * 39 + j.val / 16) * 16 + j.val % 16 = r.val * 624 + j.val
    omega
  · exact cat_apply _ _ _ r _ _

/-- The block's column sums. -/
theorem pay2_apply (v51 : FVec Ideal S2048x26x16 .f32) (v73 : FVec Ideal S2048x13x16 .f32) (j : Fin 624) :
    k0_pay2 (F := Ideal) v51 v73 (ix3 (0 : Fin 1) (0 : Fin 1) j) = ∑ r : Fin 2048, k0_pay1 (F := Ideal) v51 v73 (ix2 r j) := by
  unfold k0_pay2
  refine (shapeCast_ab_1ab_apply _ _ (0 : Fin 1) (0 : Fin 1) j).trans ?_
  refine (shapeCast_a_1a_apply _ _ (0 : Fin 1) j).trans ?_
  exact colSum _ _ _ _ j

/-- The block's total sum of squares: the one entry of the [1] sum, extracted and broadcast back to [1, 1, 1]. -/
theorem pay3_apply (v51 : FVec Ideal S2048x26x16 .f32) (v73 : FVec Ideal S2048x13x16 .f32) :
    k0_pay3 (F := Ideal) v51 v73 (ix3 (0 : Fin 1) (0 : Fin 1) (0 : Fin 1))
      = ∑ p : Fin 2048 × Fin 624, k0_pay1 (F := Ideal) v51 v73 (ix2 p.1 p.2) * k0_pay1 (F := Ideal) v51 v73 (ix2 p.1 p.2) := by
  unfold k0_pay3
  refine (broadcast_apply _ _).trans ?_
  unfold extractAt
  refine (shapeCast_apply _ _ _ (ix1 (0 : Fin 1)) ?_).trans ?_
  · rw [Shape.rowMajor_val_three, Shape.rowMajor_val_one]
    rfl
  · exact totalSum _ _ _ _ _ _

end Cert.KernelIdeal.Rows

end
-- ==== Proof.KerDeep.lean ====
/- The kernel body's first-order term and deep term read at a batch row, as the row-wise description of the
   model (Spec.lean). -/
import proofs.«419042_j7868380086366_2_alg».proof.Proof.Gen.KernelIdeal.Skeleton
import proofs.«419042_j7868380086366_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx
open scoped BigOperators

/-! ## The products of the deep term read at an entry

Each product contracts the left operand's columns against the right operand's rows. Into the zero accumulator its
entry `(r, n)` is `∑ k, a (r, k) * w (k, n)`; the four lemmas before each say which coordinate of each operand the
result's index and the contraction's index supply. -/

/-- First layer, left operand: its row is the result's row. -/
theorem lhs_first_0 (i : S2048x400.Idx) (q : dot_S2048x624_S624x400_S2048x400_1_0_0_1_n_n.contr.Idx) :
    (dot_S2048x624_S624x400_S2048x400_1_0_0_1_n_n.lhsIdx i q 0).val = (i 0).val := by
  unfold DotDims.lhsIdx
  rw [dif_neg (show ¬(0 : Fin S2048x624.rank) ∈ dot_S2048x624_S624x400_S2048x400_1_0_0_1_n_n.lhsBatch by decide),
    dif_pos (show (0 : Fin S2048x624.rank) ∈ dot_S2048x624_S624x400_S2048x400_1_0_0_1_n_n.lhsNonContracting by decide)]
  rfl
/-- First layer, left operand: its column is the contraction's coordinate. -/
theorem lhs_first_1 (i : S2048x400.Idx) (q : dot_S2048x624_S624x400_S2048x400_1_0_0_1_n_n.contr.Idx) :
    (dot_S2048x624_S624x400_S2048x400_1_0_0_1_n_n.lhsIdx i q 1).val = (q ⟨0, by decide⟩).val :=
  dot_S2048x624_S624x400_S2048x400_1_0_0_1_n_n.lhsIdx_val_of_single rfl i q
/-- First layer, right operand: its row is the contraction's coordinate. -/
theorem rhs_first_0 (i : S2048x400.Idx) (q : dot_S2048x624_S624x400_S2048x400_1_0_0_1_n_n.contr.Idx) :
    (dot_S2048x624_S624x400_S2048x400_1_0_0_1_n_n.rhsIdx i q 0).val = (q ⟨0, by decide⟩).val :=
  dot_S2048x624_S624x400_S2048x400_1_0_0_1_n_n.rhsIdx_val_of_single rfl i q
/-- First layer, right operand: its column is the result's column. -/
theorem rhs_first_1 (i : S2048x400.Idx) (q : dot_S2048x624_S624x400_S2048x400_1_0_0_1_n_n.contr.Idx) :
    (dot_S2048x624_S624x400_S2048x400_1_0_0_1_n_n.rhsIdx i q 1).val = (i 1).val := by
  unfold DotDims.rhsIdx
  rw [dif_neg (show ¬(1 : Fin S624x400.rank) ∈ dot_S2048x624_S624x400_S2048x400_1_0_0_1_n_n.rhsBatch by decide),
    dif_pos (show (1 : Fin S624x400.rank) ∈ dot_S2048x624_S624x400_S2048x400_1_0_0_1_n_n.rhsNonContracting by decide)]
  rfl

/-- The first layer's product at `(r, n)`. -/
theorem mm_first_apply (a : FVec Ideal S2048x624 .bf16) (w : FVec Ideal S624x400 .bf16) (r : Fin 2048) (n : Fin 400) :
    matmul dot_S2048x624_S624x400_S2048x400_1_0_0_1_n_n none a w (constant (F := Ideal) S2048x400 .f32 0x00000000#32) (ix2 r n)
      = ∑ k : Fin 624, a (ix2 r k) * w (ix2 k n) := by
  simp only [matmul]
  rw [Ideal.matmul_constant_zero_apply,
    ← Equiv.sum_comp (contrEquiv1 dot_S2048x624_S624x400_S2048x400_1_0_0_1_n_n 624 rfl rfl).symm]
  refine Finset.sum_congr rfl fun k _ => ?_
  have hk := contrEquiv1_symm_val dot_S2048x624_S624x400_S2048x400_1_0_0_1_n_n 624 rfl rfl k
  have el : dot_S2048x624_S624x400_S2048x400_1_0_0_1_n_n.lhsIdx (ix2 r n)
      ((contrEquiv1 dot_S2048x624_S624x400_S2048x400_1_0_0_1_n_n 624 rfl rfl).symm k) = ix2 r k :=
    funext fun c => Fin.ext (by
      match c with
      | ⟨0, _⟩ => exact lhs_first_0 _ _
      | ⟨1, _⟩ => exact (lhs_first_1 _ _).trans hk)
  have er : dot_S2048x624_S624x400_S2048x400_1_0_0_1_n_n.rhsIdx (ix2 r n)
      ((contrEquiv1 dot_S2048x624_S624x400_S2048x400_1_0_0_1_n_n 624 rfl rfl).symm k) = ix2 k n :=
    funext fun c => Fin.ext (by
      match c with
      | ⟨0, _⟩ => exact (rhs_first_0 _ _).trans hk
      | ⟨1, _⟩ => exact rhs_first_1 _ _)
  rw [el, er]

/-- Second layer, left operand: its row is the result's row. -/
theorem lhs_second_0 (i : S2048x400.Idx) (q : dot_S2048x400_S400x400_S2048x400_1_0_0_1_n_n.contr.Idx) :
    (dot_S2048x400_S400x400_S2048x400_1_0_0_1_n_n.lhsIdx i q 0).val = (i 0).val := by
  unfold DotDims.lhsIdx
  rw [dif_neg (show ¬(0 : Fin S2048x400.rank) ∈ dot_S2048x400_S400x400_S2048x400_1_0_0_1_n_n.lhsBatch by decide),
    dif_pos (show (0 : Fin S2048x400.rank) ∈ dot_S2048x400_S400x400_S2048x400_1_0_0_1_n_n.lhsNonContracting by decide)]
  rfl
/-- Second layer, left operand: its column is the contraction's coordinate. -/
theorem lhs_second_1 (i : S2048x400.Idx) (q : dot_S2048x400_S400x400_S2048x400_1_0_0_1_n_n.contr.Idx) :
    (dot_S2048x400_S400x400_S2048x400_1_0_0_1_n_n.lhsIdx i q 1).val = (q ⟨0, by decide⟩).val :=
  dot_S2048x400_S400x400_S2048x400_1_0_0_1_n_n.lhsIdx_val_of_single rfl i q
/-- Second layer, right operand: its row is the contraction's coordinate. -/
theorem rhs_second_0 (i : S2048x400.Idx) (q : dot_S2048x400_S400x400_S2048x400_1_0_0_1_n_n.contr.Idx) :
    (dot_S2048x400_S400x400_S2048x400_1_0_0_1_n_n.rhsIdx i q 0).val = (q ⟨0, by decide⟩).val :=
  dot_S2048x400_S400x400_S2048x400_1_0_0_1_n_n.rhsIdx_val_of_single rfl i q
/-- Second layer, right operand: its column is the result's column. -/
theorem rhs_second_1 (i : S2048x400.Idx) (q : dot_S2048x400_S400x400_S2048x400_1_0_0_1_n_n.contr.Idx) :
    (dot_S2048x400_S400x400_S2048x400_1_0_0_1_n_n.rhsIdx i q 1).val = (i 1).val := by
  unfold DotDims.rhsIdx
  rw [dif_neg (show ¬(1 : Fin S400x400.rank) ∈ dot_S2048x400_S400x400_S2048x400_1_0_0_1_n_n.rhsBatch by decide),
    dif_pos (show (1 : Fin S400x400.rank) ∈ dot_S2048x400_S400x400_S2048x400_1_0_0_1_n_n.rhsNonContracting by decide)]
  rfl

/-- The second layer's product at `(r, n)`. -/
theorem mm_second_apply (a : FVec Ideal S2048x400 .bf16) (w : FVec Ideal S400x400 .bf16) (r : Fin 2048) (n : Fin 400) :
    matmul dot_S2048x400_S400x400_S2048x400_1_0_0_1_n_n none a w (constant (F := Ideal) S2048x400 .f32 0x00000000#32) (ix2 r n)
      = ∑ k : Fin 400, a (ix2 r k) * w (ix2 k n) := by
  simp only [matmul]
  rw [Ideal.matmul_constant_zero_apply,
    ← Equiv.sum_comp (contrEquiv1 dot_S2048x400_S400x400_S2048x400_1_0_0_1_n_n 400 rfl rfl).symm]
  refine Finset.sum_congr rfl fun k _ => ?_
  have hk := contrEquiv1_symm_val dot_S2048x400_S400x400_S2048x400_1_0_0_1_n_n 400 rfl rfl k
  have el : dot_S2048x400_S400x400_S2048x400_1_0_0_1_n_n.lhsIdx (ix2 r n)
      ((contrEquiv1 dot_S2048x400_S400x400_S2048x400_1_0_0_1_n_n 400 rfl rfl).symm k) = ix2 r k :=
    funext fun c => Fin.ext (by
      match c with
      | ⟨0, _⟩ => exact lhs_second_0 _ _
      | ⟨1, _⟩ => exact (lhs_second_1 _ _).trans hk)
  have er : dot_S2048x400_S400x400_S2048x400_1_0_0_1_n_n.rhsIdx (ix2 r n)
      ((contrEquiv1 dot_S2048x400_S400x400_S2048x400_1_0_0_1_n_n 400 rfl rfl).symm k) = ix2 k n :=
    funext fun c => Fin.ext (by
      match c with
      | ⟨0, _⟩ => exact (rhs_second_0 _ _).trans hk
      | ⟨1, _⟩ => exact rhs_second_1 _ _)
  rw [el, er]

/-- Output layer, left operand: its row is the result's row. -/
theorem lhs_out_0 (i : S2048x1.Idx) (q : dot_S2048x400_S400x1_S2048x1_1_0_0_1_n_n.contr.Idx) :
    (dot_S2048x400_S400x1_S2048x1_1_0_0_1_n_n.lhsIdx i q 0).val = (i 0).val := by
  unfold DotDims.lhsIdx
  rw [dif_neg (show ¬(0 : Fin S2048x400.rank) ∈ dot_S2048x400_S400x1_S2048x1_1_0_0_1_n_n.lhsBatch by decide),
    dif_pos (show (0 : Fin S2048x400.rank) ∈ dot_S2048x400_S400x1_S2048x1_1_0_0_1_n_n.lhsNonContracting by decide)]
  rfl
/-- Output layer, left operand: its column is the contraction's coordinate. -/
theorem lhs_out_1 (i : S2048x1.Idx) (q : dot_S2048x400_S400x1_S2048x1_1_0_0_1_n_n.contr.Idx) :
    (dot_S2048x400_S400x1_S2048x1_1_0_0_1_n_n.lhsIdx i q 1).val = (q ⟨0, by decide⟩).val :=
  dot_S2048x400_S400x1_S2048x1_1_0_0_1_n_n.lhsIdx_val_of_single rfl i q
/-- Output layer, right operand: its row is the contraction's coordinate. -/
theorem rhs_out_0 (i : S2048x1.Idx) (q : dot_S2048x400_S400x1_S2048x1_1_0_0_1_n_n.contr.Idx) :
    (dot_S2048x400_S400x1_S2048x1_1_0_0_1_n_n.rhsIdx i q 0).val = (q ⟨0, by decide⟩).val :=
  dot_S2048x400_S400x1_S2048x1_1_0_0_1_n_n.rhsIdx_val_of_single rfl i q
/-- Output layer, right operand: its column is the result's column. -/
theorem rhs_out_1 (i : S2048x1.Idx) (q : dot_S2048x400_S400x1_S2048x1_1_0_0_1_n_n.contr.Idx) :
    (dot_S2048x400_S400x1_S2048x1_1_0_0_1_n_n.rhsIdx i q 1).val = (i 1).val := by
  unfold DotDims.rhsIdx
  rw [dif_neg (show ¬(1 : Fin S400x1.rank) ∈ dot_S2048x400_S400x1_S2048x1_1_0_0_1_n_n.rhsBatch by decide),
    dif_pos (show (1 : Fin S400x1.rank) ∈ dot_S2048x400_S400x1_S2048x1_1_0_0_1_n_n.rhsNonContracting by decide)]
  rfl

/-- The output layer's product at `(r, n)` (`n` ranges over the one output column). -/
theorem mm_out_apply (a : FVec Ideal S2048x400 .bf16) (w : FVec Ideal S400x1 .bf16) (r : Fin 2048) (n : Fin 1) :
    matmul dot_S2048x400_S400x1_S2048x1_1_0_0_1_n_n none a w (constant (F := Ideal) S2048x1 .f32 0x00000000#32) (ix2 r n)
      = ∑ k : Fin 400, a (ix2 r k) * w (ix2 k n) := by
  simp only [matmul]
  rw [Ideal.matmul_constant_zero_apply,
    ← Equiv.sum_comp (contrEquiv1 dot_S2048x400_S400x1_S2048x1_1_0_0_1_n_n 400 rfl rfl).symm]
  refine Finset.sum_congr rfl fun k _ => ?_
  have hk := contrEquiv1_symm_val dot_S2048x400_S400x1_S2048x1_1_0_0_1_n_n 400 rfl rfl k
  have el : dot_S2048x400_S400x1_S2048x1_1_0_0_1_n_n.lhsIdx (ix2 r n)
      ((contrEquiv1 dot_S2048x400_S400x1_S2048x1_1_0_0_1_n_n 400 rfl rfl).symm k) = ix2 r k :=
    funext fun c => Fin.ext (by
      match c with
      | ⟨0, _⟩ => exact lhs_out_0 _ _
      | ⟨1, _⟩ => exact (lhs_out_1 _ _).trans hk)
  have er : dot_S2048x400_S400x1_S2048x1_1_0_0_1_n_n.rhsIdx (ix2 r n)
      ((contrEquiv1 dot_S2048x400_S400x1_S2048x1_1_0_0_1_n_n 400 rfl rfl).symm k) = ix2 k n :=
    funext fun c => Fin.ext (by
      match c with
      | ⟨0, _⟩ => exact (rhs_out_0 _ _).trans hk
      | ⟨1, _⟩ => exact rhs_out_1 _ _)
  rw [el, er]

/-! ## The hidden layers at an entry

A hidden layer is a product, a bias row broadcast over the batch rows, and the maximum with zero; the changes of
float format around the products are the identity on the extended reals. -/

/-- The first hidden layer of batch row `r` at unit `n`, for any feature block `a`. -/
theorem hidden_first_apply (a : FVec Ideal S2048x624 .f32) (v15 : FVec Ideal S624x400 .f32) (v17 : FVec Ideal S1x400 .f32)
    (r : Fin 2048) (n : Fin 400) :
    maximumf (addf (matmul dot_S2048x624_S624x400_S2048x400_1_0_0_1_n_n none (truncf .bf16 a bitsLt_bf16_f32)
          (truncf .bf16 v15 bitsLt_bf16_f32) (constant (F := Ideal) S2048x400 .f32 0x00000000#32))
        (broadcastTo S2048x400 v17 broadcasts_S1x400_S2048x400))
      (broadcast S2048x400 (Scalar.ofBits (F := Ideal) .f32 0x00000000#32)) (ix2 r n)
      = DeepFM.relu (DeepFM.layer (fun k => a (ix2 r k)) (fun k n => v15 (ix2 k n)) (fun n => v17 (ix2 (0 : Fin 1) n)) n) := by
  refine (congrArg₂ max (congrArg₂ (· + ·) (mm_first_apply _ _ r n)
    (broadcastTo_1b_ab_apply v17 broadcasts_S1x400_S2048x400 r n)) rfl).trans ?_
  rfl

/-- The second hidden layer of batch row `r` at unit `n`, for any block `a` of first-layer outputs. -/
theorem hidden_second_apply (a : FVec Ideal S2048x400 .f32) (v18 : FVec Ideal S400x400 .f32) (v20 : FVec Ideal S1x400 .f32)
    (r : Fin 2048) (n : Fin 400) :
    maximumf (addf (matmul dot_S2048x400_S400x400_S2048x400_1_0_0_1_n_n none (truncf .bf16 a bitsLt_bf16_f32)
          (truncf .bf16 v18 bitsLt_bf16_f32) (constant (F := Ideal) S2048x400 .f32 0x00000000#32))
        (broadcastTo S2048x400 v20 broadcasts_S1x400_S2048x400))
      (broadcast S2048x400 (Scalar.ofBits (F := Ideal) .f32 0x00000000#32)) (ix2 r n)
      = DeepFM.relu (DeepFM.layer (fun k => a (ix2 r k)) (fun k n => v18 (ix2 k n)) (fun n => v20 (ix2 (0 : Fin 1) n)) n) := by
  refine (congrArg₂ max (congrArg₂ (· + ·) (mm_second_apply _ _ r n)
    (broadcastTo_1b_ab_apply v20 broadcasts_S1x400_S2048x400 r n)) rfl).trans ?_
  rfl

/-! ## The first-order term's steps read at an entry -/

/-- First-order product, left operand: its row is the result's row. -/
theorem lhs_lin_0 (i : S2048x1.Idx) (q : dot_S2048x39_S39x1_S2048x1_1_0_0_1_n_n.contr.Idx) :
    (dot_S2048x39_S39x1_S2048x1_1_0_0_1_n_n.lhsIdx i q 0).val = (i 0).val := by
  unfold DotDims.lhsIdx
  rw [dif_neg (show ¬(0 : Fin S2048x39.rank) ∈ dot_S2048x39_S39x1_S2048x1_1_0_0_1_n_n.lhsBatch by decide),
    dif_pos (show (0 : Fin S2048x39.rank) ∈ dot_S2048x39_S39x1_S2048x1_1_0_0_1_n_n.lhsNonContracting by decide)]
  rfl
/-- First-order product, left operand: its column is the contraction's coordinate. -/
theorem lhs_lin_1 (i : S2048x1.Idx) (q : dot_S2048x39_S39x1_S2048x1_1_0_0_1_n_n.contr.Idx) :
    (dot_S2048x39_S39x1_S2048x1_1_0_0_1_n_n.lhsIdx i q 1).val = (q ⟨0, by decide⟩).val :=
  dot_S2048x39_S39x1_S2048x1_1_0_0_1_n_n.lhsIdx_val_of_single rfl i q
/-- First-order product, right operand: its row is the contraction's coordinate. -/
theorem rhs_lin_0 (i : S2048x1.Idx) (q : dot_S2048x39_S39x1_S2048x1_1_0_0_1_n_n.contr.Idx) :
    (dot_S2048x39_S39x1_S2048x1_1_0_0_1_n_n.rhsIdx i q 0).val = (q ⟨0, by decide⟩).val :=
  dot_S2048x39_S39x1_S2048x1_1_0_0_1_n_n.rhsIdx_val_of_single rfl i q
/-- First-order product, right operand: its column is the result's column. -/
theorem rhs_lin_1 (i : S2048x1.Idx) (q : dot_S2048x39_S39x1_S2048x1_1_0_0_1_n_n.contr.Idx) :
    (dot_S2048x39_S39x1_S2048x1_1_0_0_1_n_n.rhsIdx i q 1).val = (i 1).val := by
  unfold DotDims.rhsIdx
  rw [dif_neg (show ¬(1 : Fin S39x1.rank) ∈ dot_S2048x39_S39x1_S2048x1_1_0_0_1_n_n.rhsBatch by decide),
    dif_pos (show (1 : Fin S39x1.rank) ∈ dot_S2048x39_S39x1_S2048x1_1_0_0_1_n_n.rhsNonContracting by decide)]
  rfl

/-- The first-order product at `(r, n)`: the 39 field sums of row `r` against the 39 weights. -/
theorem mm_lin_apply (a : FVec Ideal S2048x39 .f32) (w : FVec Ideal S39x1 .f32) (r : Fin 2048) (n : Fin 1) :
    matmul dot_S2048x39_S39x1_S2048x1_1_0_0_1_n_n none a w (constant (F := Ideal) S2048x1 .f32 0x00000000#32) (ix2 r n)
      = ∑ f : Fin 39, a (ix2 r f) * w (ix2 f n) := by
  simp only [matmul]
  rw [Ideal.matmul_constant_zero_apply,
    ← Equiv.sum_comp (contrEquiv1 dot_S2048x39_S39x1_S2048x1_1_0_0_1_n_n 39 rfl rfl).symm]
  refine Finset.sum_congr rfl fun k _ => ?_
  have hk := contrEquiv1_symm_val dot_S2048x39_S39x1_S2048x1_1_0_0_1_n_n 39 rfl rfl k
  have el : dot_S2048x39_S39x1_S2048x1_1_0_0_1_n_n.lhsIdx (ix2 r n)
      ((contrEquiv1 dot_S2048x39_S39x1_S2048x1_1_0_0_1_n_n 39 rfl rfl).symm k) = ix2 r k :=
    funext fun c => Fin.ext (by
      match c with
      | ⟨0, _⟩ => exact lhs_lin_0 _ _
      | ⟨1, _⟩ => exact (lhs_lin_1 _ _).trans hk)
  have er : dot_S2048x39_S39x1_S2048x1_1_0_0_1_n_n.rhsIdx (ix2 r n)
      ((contrEquiv1 dot_S2048x39_S39x1_S2048x1_1_0_0_1_n_n 39 rfl rfl).symm k) = ix2 k n :=
    funext fun c => Fin.ext (by
      match c with
      | ⟨0, _⟩ => exact (rhs_lin_0 _ _).trans hk
      | ⟨1, _⟩ => exact rhs_lin_1 _ _)
  rw [el, er]

section Layout
variable {α : Type}

/-- A matrix viewed with a trailing unit axis reads, at `(i, j, u)`, its entry `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array stretched along its unit axis reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array repeated over a leading axis reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-- A sum over the last axis of an `[a, b, c]` array reads, at `(i, j)`, the sum of the `c` entries `(i, j, ·)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => rfl
  | ⟨1, _⟩ => rfl
  | ⟨2, _⟩ => rfl

/-- The 39 field sums: a field below 13 reads the dense block. -/
theorem cat_left_apply (x₁ : FVec Ideal S2048x13 .f32) (x₂ : FVec Ideal S2048x26 .f32) (r : Fin 2048) (f : Fin 39)
    (hf : f.val < 13) :
    concatenate S2048x39 1 [⟨S2048x13, x₁⟩, ⟨S2048x26, x₂⟩] concatenates_S2048x13_S2048x26_S2048x39_d1 (ix2 r f)
      = x₁ (ix2 r ⟨f.val, hf⟩) :=
  concatenate_pair_apply_left 1 x₁ x₂ concatenates_S2048x13_S2048x26_S2048x39_d1 (ix2 r f) rfl (ix2 r ⟨f.val, hf⟩)
    (fun b => by
      match b with
      | ⟨0, _⟩ => rfl
      | ⟨1, _⟩ => rfl)

/-- The 39 field sums: a field from 13 on reads the sparse block, thirteen fields earlier. -/
theorem cat_right_apply (x₁ : FVec Ideal S2048x13 .f32) (x₂ : FVec Ideal S2048x26 .f32) (r : Fin 2048) (f : Fin 39)
    (hf : 13 ≤ f.val) :
    concatenate S2048x39 1 [⟨S2048x13, x₁⟩, ⟨S2048x26, x₂⟩] concatenates_S2048x13_S2048x26_S2048x39_d1 (ix2 r f)
      = x₂ (ix2 r ⟨f.val - 13, by have := f.isLt; omega⟩) :=
  concatenate_pair_apply_right 1 x₁ x₂ concatenates_S2048x13_S2048x26_S2048x39_d1 (ix2 r f) rfl rfl
    (ix2 r ⟨f.val - 13, by have := f.isLt; omega⟩)
    (fun b hb => by
      match b with
      | ⟨0, _⟩ => rfl
      | ⟨1, _⟩ => exact absurd rfl hb)
    (by show f.val - 13 + 13 = f.val; omega)

/-- The first-order term of batch row `r` of the block, given that `v25` holds the first-order rows' sums of squares. -/
theorem pay14_apply (v1 : FVec Ideal S2048x13 .f32) (v4 : FVec Ideal S2048x26x16 .f32) (v8 v9 : Vec Ideal S13x16 .f32)
    (v12 : Vec Ideal S39x1 .f32) (v14 : FVec Ideal S1x1 .f32) (v25 : FVec Ideal S2048x26 .f32)
    (hv25 : ∀ (r : Fin 2048) (f : Fin 26), v25 (ix2 r f) = ∑ k : Fin 16, v4 (ix3 r f k) * v4 (ix3 r f k)) (r : Fin 2048) :
    k0_pay14 (F := Ideal) v1 v4 v8 v9 v12 v14 v25 (ix2 r (0 : Fin 1))
      = DeepFM.firstRow (fun f => v1 (ix2 r f)) (fun f k => v8 (ix2 f k)) (fun f k => v9 (ix2 f k))
          (fun f k => v4 (ix3 r f k)) (fun f => v12 (ix2 f (0 : Fin 1))) (v14 (ix2 (0 : Fin 1) (0 : Fin 1))) := by
  unfold k0_pay14
  unfold DeepFM.firstRow
  refine congrArg₂ (· + ·) ?_ (broadcastTo_1b_ab_apply v14 broadcasts_S1x1_S2048x1 r (0 : Fin 1))
  refine (mm_lin_apply _ _ r (0 : Fin 1)).trans ?_
  refine Finset.sum_congr rfl fun f _ => ?_
  refine congrArg (· * v12 (ix2 f (0 : Fin 1))) ?_
  unfold DeepFM.catField
  by_cases hf : f.val < 13
  · rw [dif_pos hf]
    refine (cat_left_apply _ _ r f hf).trans ?_
    refine (laneSum_apply _ _ _ _ r ⟨f.val, hf⟩).trans ?_
    refine Finset.sum_congr rfl fun k _ => ?_
    unfold DeepFM.denseField
    refine congrArg₂ (· + ·) (congrArg₂ (· * ·) ?_ ?_) ?_
    · exact (broadcastTo_ab1_abc_apply _ _ r _ k).trans (shapeCast_ab_ab1_apply v1 _ r _ 0)
    · exact (broadcastTo_1bc_abc_apply _ _ r _ k).trans (shapeCast_ab_1ab_apply v8 _ 0 _ k)
    · exact (broadcastTo_1bc_abc_apply _ _ r _ k).trans (shapeCast_ab_1ab_apply v9 _ 0 _ k)
  · rw [dif_neg hf]
    refine (cat_right_apply _ _ r f (Nat.not_lt.1 hf)).trans ?_
    refine (laneSum_apply _ _ _ _ r _).trans ?_
    refine Finset.sum_congr rfl fun k _ => ?_
    unfold DeepFM.normed
    refine congrArg (v4 (ix3 r _ k) * ·) ?_
    refine (broadcastTo_ab1_abc_apply _ _ r _ k).trans ?_
    refine Eq.trans ?_ (congrArg DeepFM.scaleSq
      ((shapeCast_ab_ab1_apply v25 shapeCasts_S2048x26_S2048x26x1 r _ (0 : Fin 1)).trans (hv25 r _)))
    rfl

/-- The stored value of batch row `r`: the first-order term plus the deep term of the row's features. -/
theorem pay4_apply (v15 : Vec Ideal S624x400 .f32) (v17 : FVec Ideal S1x400 .f32) (v18 : Vec Ideal S400x400 .f32)
    (v20 : FVec Ideal S1x400 .f32) (v21 : Vec Ideal S400x1 .f32) (v23 : FVec Ideal S1x1 .f32)
    (v51 : FVec Ideal S2048x26x16 .f32) (v65 : FVec Ideal S2048x1 .f32) (v73 : FVec Ideal S2048x13x16 .f32) (r : Fin 2048) :
    k0_pay4 (F := Ideal) v15 v17 v18 v20 v21 v23 v51 v65 v73 (ix2 r (0 : Fin 1))
      = v65 (ix2 r (0 : Fin 1))
        + DeepFM.mlpRow (fun j => k0_pay1 (F := Ideal) v51 v73 (ix2 r j)) (fun k n => v15 (ix2 k n)) (fun n => v17 (ix2 (0 : Fin 1) n))
            (fun k n => v18 (ix2 k n)) (fun n => v20 (ix2 (0 : Fin 1) n)) (fun k => v21 (ix2 k (0 : Fin 1)))
            (v23 (ix2 (0 : Fin 1) (0 : Fin 1))) := by
  unfold k0_pay4
  unfold DeepFM.mlpRow
  refine congrArg (v65 (ix2 r (0 : Fin 1)) + ·) ?_
  refine congrArg₂ (· + ·) ?_ (broadcastTo_1b_ab_apply v23 broadcasts_S1x1_S2048x1 r (0 : Fin 1))
  refine (mm_out_apply _ _ r (0 : Fin 1)).trans ?_
  refine Finset.sum_congr rfl fun k _ => ?_
  refine congrArg (· * v21 (ix2 k (0 : Fin 1))) ?_
  refine (hidden_second_apply _ v18 v20 r k).trans ?_
  refine congrArg DeepFM.relu ?_
  refine congrArg (fun a => DeepFM.layer a (fun k n => v18 (ix2 k n)) (fun n => v20 (ix2 (0 : Fin 1) n)) k) ?_
  funext n
  exact hidden_first_apply (k0_pay1 (F := Ideal) v51 v73) v15 v17 r n

end Cert.KernelIdeal.Rows

end
-- ==== Proof.KerPoint.lean ====
/- One grid point of the kernel, and the three output arrays as functions of whole arrays.

   Grid point `t` of 8 handles batch rows 2048·t … 2048·t + 2047.  From its input blocks the body computes, row by row,
   the first-order term plus the deep term; the block's 624 column sums of the feature rows; and the block's total sum of
   squares of the feature rows. -/
import proofs.«419042_j7868380086366_2_alg».proof.Proof.Gen.KernelIdeal.Skeleton
import proofs.«419042_j7868380086366_2_alg».proof.Proof.Spec
import proofs.«419042_j7868380086366_2_alg».proof.Proof.KerFeat
import proofs.«419042_j7868380086366_2_alg».proof.Proof.KerDeep
import Idealize.ShloMosaic.Lib.ValueIdx

noncomputable section

namespace Cert.KernelIdeal.Whole

open Cert.KernelIdeal Cert.KernelIdeal.Gen Idealize.ShloMosaic Idealize.ShloMosaic.TcCoe Idealize.ShloMosaic.ValueIdx
open scoped BigOperators

/-- A batch coordinate as a number below 16384. -/
def rowOf (i : Fin 16384) : Fin 16384 := i

/-- The feature array: row `b` is the feature row of batch row `b`. -/
def featArr (xd : (⟨2, ![16384, 13]⟩ : Shape).Idx → EReal) (gs : (⟨3, ![16384, 26, 16]⟩ : Shape).Idx → EReal)
    (w6 w7 : (⟨2, ![13, 16]⟩ : Shape).Idx → EReal) (b : Fin 16384) (j : Fin 624) : EReal :=
  DeepFM.featRow (fun f => xd (ix2 b f)) (fun f k => w6 (ix2 f k)) (fun f k => w7 (ix2 f k)) (fun f k => gs (ix3 b f k)) j

/-- The first output: per batch row, the first-order term plus the deep term. -/
def partArr (xd : (⟨2, ![16384, 13]⟩ : Shape).Idx → EReal) (gf gs : (⟨3, ![16384, 26, 16]⟩ : Shape).Idx → EReal)
    (w1 w2 : (⟨2, ![13, 16]⟩ : Shape).Idx → EReal) (w4 : (⟨2, ![39, 1]⟩ : Shape).Idx → EReal) (b5 : (⟨2, ![1, 1]⟩ : Shape).Idx → EReal)
    (w6 w7 : (⟨2, ![13, 16]⟩ : Shape).Idx → EReal) (w9 : (⟨2, ![624, 400]⟩ : Shape).Idx → EReal) (b10 : (⟨2, ![1, 400]⟩ : Shape).Idx → EReal)
    (w11 : (⟨2, ![400, 400]⟩ : Shape).Idx → EReal) (b12 : (⟨2, ![1, 400]⟩ : Shape).Idx → EReal) (w13 : (⟨2, ![400, 1]⟩ : Shape).Idx → EReal)
    (b14 : (⟨2, ![1, 1]⟩ : Shape).Idx → EReal) (b : Fin 16384) : EReal :=
  DeepFM.firstRow (fun f => xd (ix2 b f)) (fun f k => w1 (ix2 f k)) (fun f k => w2 (ix2 f k)) (fun f k => gf (ix3 b f k))
      (fun f => w4 (ix2 f (0 : Fin 1))) (b5 (ix2 (0 : Fin 1) (0 : Fin 1)))
    + DeepFM.mlpRow (featArr xd gs w6 w7 b) (fun k n => w9 (ix2 k n)) (fun n => b10 (ix2 (0 : Fin 1) n)) (fun k n => w11 (ix2 k n))
        (fun n => b12 (ix2 (0 : Fin 1) n)) (fun k => w13 (ix2 k (0 : Fin 1))) (b14 (ix2 (0 : Fin 1) (0 : Fin 1)))

/-- The second output: row `t` holds the 624 column sums of block `t`'s feature rows. -/
def colArr (A : Fin 16384 → Fin 624 → EReal) (t : Fin 8) (j : Fin 624) : EReal := ∑ r : Fin 2048, A (DeepFM.blkRow t r) j

/-- The third output: entry `t` holds block `t`'s total sum of squares of the feature rows. -/
def sqArr (A : Fin 16384 → Fin 624 → EReal) (t : Fin 8) : EReal :=
  ∑ p : Fin 2048 × Fin 624, A (DeepFM.blkRow t p.1) p.2 * A (DeepFM.blkRow t p.1) p.2

/-! ## One grid point's stored values, from its input blocks -/

section Point

variable (x0 : Vec Ideal S2048x13 .f32) (x1 x2 : Vec Ideal S2048x26x16 .bf16) (x3 x4 : Vec Ideal S13x16 .f32)
  (x5 : Vec Ideal S39x1 .f32) (x6 : Vec Ideal S1x1 .f32) (x7 x8 : Vec Ideal S13x16 .f32) (x9 : Vec Ideal S624x400 .f32)
  (x10 : Vec Ideal S1x400 .f32) (x11 : Vec Ideal S400x400 .f32) (x12 : Vec Ideal S1x400 .f32) (x13 : Vec Ideal S400x1 .f32)
  (x14 : Vec Ideal S1x1 .f32)

/-- The point's flat feature block, row by row. -/
theorem feat_row (r : Fin 2048) (j : Fin 624) :
    k0_pay1 (F := Ideal) (k0_pay13 (k0_pay7 x2)) (k0_pay15 (k0_pay5 x0) x7 x8) (ix2 r j)
      = DeepFM.featRow (fun f => x0 (ix2 r f)) (fun f k => x7 (ix2 f k)) (fun f k => x8 (ix2 f k)) (fun f k => x2 (ix3 r f k)) j := by
  refine (Rows.pay1_apply (k0_pay13 (k0_pay7 x2)) (k0_pay15 (k0_pay5 x0) x7 x8) r j).trans ?_
  unfold DeepFM.featRow
  have hd : (fun (f : Fin 13) (k : Fin 16) => k0_pay15 (F := Ideal) (k0_pay5 x0) x7 x8 (ix3 r f k))
      = DeepFM.denseField (fun f => x0 (ix2 r f)) (fun f k => x7 (ix2 f k)) (fun f k => x8 (ix2 f k)) := by
    funext f k
    rw [Rows.pay15_apply, Rows.pay5_eq]
  have hs : (fun (f : Fin 26) (k : Fin 16) => k0_pay13 (F := Ideal) (k0_pay7 x2) (ix3 r f k))
      = fun f => DeepFM.normed (fun k => x2 (ix3 r f k)) := by
    funext f k
    rw [Rows.pay13_apply]
    simp only [Rows.pay7_eq]
  rw [hd, hs]

/-- The value stored for batch row `r` of the point: the first-order term plus the deep term. -/
theorem part_row (r : Fin 2048) :
    k0_pay4 (F := Ideal) x9 (k0_pay9 x10) x11 (k0_pay10 x12) x13 (k0_pay11 x14) (k0_pay13 (k0_pay7 x2))
        (k0_pay14 (k0_pay5 x0) (k0_pay6 x1) x3 x4 x5 (k0_pay8 x6) (k0_pay12 x1)) (k0_pay15 (k0_pay5 x0) x7 x8) (ix2 r (0 : Fin 1))
      = DeepFM.firstRow (fun f => x0 (ix2 r f)) (fun f k => x3 (ix2 f k)) (fun f k => x4 (ix2 f k)) (fun f k => x1 (ix3 r f k))
            (fun f => x5 (ix2 f (0 : Fin 1))) (x6 (ix2 (0 : Fin 1) (0 : Fin 1)))
        + DeepFM.mlpRow (DeepFM.featRow (fun f => x0 (ix2 r f)) (fun f k => x7 (ix2 f k)) (fun f k => x8 (ix2 f k)) (fun f k => x2 (ix3 r f k)))
            (fun k n => x9 (ix2 k n)) (fun n => x10 (ix2 (0 : Fin 1) n)) (fun k n => x11 (ix2 k n)) (fun n => x12 (ix2 (0 : Fin 1) n))
            (fun k => x13 (ix2 k (0 : Fin 1))) (x14 (ix2 (0 : Fin 1) (0 : Fin 1))) := by
  have h25 : ∀ (r : Fin 2048) (f : Fin 26), k0_pay12 (F := Ideal) x1 (ix2 r f)
      = ∑ k : Fin 16, k0_pay6 (F := Ideal) x1 (ix3 r f k) * k0_pay6 (F := Ideal) x1 (ix3 r f k) := fun r f => by
    rw [Rows.pay12_apply]
    simp only [Rows.pay6_eq]
  have hf : (fun j => k0_pay1 (F := Ideal) (k0_pay13 (k0_pay7 x2)) (k0_pay15 (k0_pay5 x0) x7 x8) (ix2 r j))
      = DeepFM.featRow (fun f => x0 (ix2 r f)) (fun f k => x7 (ix2 f k)) (fun f k => x8 (ix2 f k)) (fun f k => x2 (ix3 r f k)) :=
    funext fun j => feat_row x0 x2 x7 x8 r j
  refine (Rows.pay4_apply x9 (k0_pay9 x10) x11 (k0_pay10 x12) x13 (k0_pay11 x14) (k0_pay13 (k0_pay7 x2))
    (k0_pay14 (k0_pay5 x0) (k0_pay6 x1) x3 x4 x5 (k0_pay8 x6) (k0_pay12 x1)) (k0_pay15 (k0_pay5 x0) x7 x8) r).trans ?_
  rw [hf, Rows.pay14_apply (k0_pay5 x0) (k0_pay6 x1) x3 x4 x5 (k0_pay8 x6) (k0_pay12 x1) h25 r]
  simp only [Rows.pay5_eq, Rows.pay6_eq, Rows.pay8_eq, Rows.pay9_eq, Rows.pay10_eq, Rows.pay11_eq]

/-- The point's column sums of its feature rows. -/
theorem col_row (j : Fin 624) :
    k0_pay2 (F := Ideal) (k0_pay13 (k0_pay7 x2)) (k0_pay15 (k0_pay5 x0) x7 x8) (ix3 (0 : Fin 1) (0 : Fin 1) j)
      = ∑ r : Fin 2048, DeepFM.featRow (fun f => x0 (ix2 r f)) (fun f k => x7 (ix2 f k)) (fun f k => x8 (ix2 f k)) (fun f k => x2 (ix3 r f k)) j := by
  refine (Rows.pay2_apply (k0_pay13 (k0_pay7 x2)) (k0_pay15 (k0_pay5 x0) x7 x8) j).trans ?_
  exact Finset.sum_congr rfl fun r _ => feat_row x0 x2 x7 x8 r j

/-- The point's total sum of squares of its feature rows. -/
theorem sq_row :
    k0_pay3 (F := Ideal) (k0_pay13 (k0_pay7 x2)) (k0_pay15 (k0_pay5 x0) x7 x8) (ix3 (0 : Fin 1) (0 : Fin 1) (0 : Fin 1))
      = ∑ p : Fin 2048 × Fin 624,
          DeepFM.featRow (fun f => x0 (ix2 p.1 f)) (fun f k => x7 (ix2 f k)) (fun f k => x8 (ix2 f k)) (fun f k => x2 (ix3 p.1 f k)) p.2
          * DeepFM.featRow (fun f => x0 (ix2 p.1 f)) (fun f k => x7 (ix2 f k)) (fun f k => x8 (ix2 f k)) (fun f k => x2 (ix3 p.1 f k)) p.2 := by
  refine (Rows.pay3_apply (k0_pay13 (k0_pay7 x2)) (k0_pay15 (k0_pay5 x0) x7 x8)).trans ?_
  exact Finset.sum_congr rfl fun p _ => by rw [feat_row x0 x2 x7 x8 p.1 p.2]

end Point

end Cert.KernelIdeal.Whole

end
-- ==== Proof.KerTail.lean ====
/- The kernel program's host operations after the region, as one function of the three arrays the region leaves.

   With `P` the per-row values (16384 × 1), `C` the per-block column sums (8 × 1 × 624) and `Q` the per-block sums of
   squares (8 × 1 × 1), the result at batch row `b` is
   `P b + ½ · ( ∑_j (∑_t C t j)² − ∑_t Q t )`. -/
import proofs.«419042_j7868380086366_2_alg».proof.Proof.Gen.KernelIdeal
import proofs.«419042_j7868380086366_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Tail

open Cert.KernelIdeal Cert.KernelIdeal.Gen Idealize.ShloMosaic Idealize.ShloMosaic.ValueIdx
open scoped BigOperators

/-- The block column sums added over the 8 blocks, as a 624-vector. -/
def colTotal (C : FVec Ideal S8x1x624 .f32) : FVec Ideal S624 .f32 :=
  shapeCast S624 (Host.reduceAdd (F := Ideal) C (constant (F := Ideal) S_ .f32 0x00000000#32) reducesTo_S8x1x624_S1x624_d0 h_S_)
    shapeCasts_S1x624_S624

/-- The second-order scalar from the two partial arrays. -/
def secondScalar (C : FVec Ideal S8x1x624 .f32) (Q : FVec Ideal S8x1x1 .f32) : FVec Ideal S_ .f32 :=
  mulf (constant (F := Ideal) S_ .f32 0x3F000000#32)
    (subf (Host.reduceAdd (F := Ideal) (mulf (colTotal C) (colTotal C)) (constant (F := Ideal) S_ .f32 0x00000000#32) reducesTo_S624_S_d0 h_S_)
      (Host.reduceAdd (F := Ideal) Q (constant (F := Ideal) S_ .f32 0x00000000#32) reducesTo_S8x1x1_S_d0_1_2 h_S_))

/-- The thirteen operations after the region, composed. -/
def tail (P : FVec Ideal S16384x1 .f32) (C : FVec Ideal S8x1x624 .f32) (Q : FVec Ideal S8x1x1 .f32) : FVec Ideal S16384x1 .f32 :=
  addf P (broadcastInDim S16384x1 ![] bcast_S_S16384x1 (secondScalar C Q))

/-- A host sum over the block axis of an 8 × 1 × 624 array from the zero word, at column `j`: the sum over the 8 blocks. -/
theorem blockSum_apply (C : FVec Ideal S8x1x624 .f32) (j : Fin 624) :
    Host.reduceAdd (F := Ideal) C (constant (F := Ideal) S_ .f32 0x00000000#32) reducesTo_S8x1x624_S1x624_d0 h_S_
        (ix2 (0 : Fin 1) j)
      = ∑ t : Fin 8, C (ix3 t (0 : Fin 1) j) := by
  have hR : S8x1x624.Reduces [0] S1x624 := by decide
  refine (Ideal.hostReduceAdd_single reducesTo_S8x1x624_S1x624_d0 hR C _ (ix2 (0 : Fin 1) j)).trans ?_
  rw [constant_apply, Ideal.ofBits_zero_f32, zero_add]
  show ∑ t : Fin 8, C (hR.lift (ix2 (0 : Fin 1) j) t) = _
  refine Finset.sum_congr rfl fun t _ => congrArg C (funext fun a => ?_)
  match a with
  | ⟨0, _⟩ => rfl
  | ⟨1, _⟩ => rfl
  | ⟨2, _⟩ => rfl

/-- The block column sums added over the blocks, at column `j`. -/
theorem colTotal_apply (C : FVec Ideal S8x1x624 .f32) (j : Fin 624) :
    colTotal C (ix1 j) = ∑ t : Fin 8, C (ix3 t (0 : Fin 1) j) := by
  unfold colTotal
  rw [shapeCast_1a_a_apply]
  exact blockSum_apply C j

/-- An index of a 624-vector is its one coordinate. -/
def vecIdx : S624.Idx ≃ Fin 624 where
  toFun i := i 0
  invFun := ix1
  left_inv i := (eq_ix1 i).symm
  right_inv _ := rfl

/-- A host sum over the one axis of a 624-vector from the zero word: the sum of its entries. -/
theorem vecSum_apply (v : FVec Ideal S624 .f32) :
    Host.reduceAdd (F := Ideal) v (constant (F := Ideal) S_ .f32 0x00000000#32) reducesTo_S624_S_d0 h_S_ ix0
      = ∑ j : Fin 624, v (ix1 j) := by
  refine (Ideal.hostReduceAdd_total reducesTo_S624_S_d0 (fun b => b.elim0) v _ ix0).trans ?_
  rw [constant_apply, Ideal.ofBits_zero_f32, zero_add]
  exact Fintype.sum_equiv vecIdx _ _ fun i => congrArg v (vecIdx.left_inv i).symm

/-- An index of the 8 × 1 × 1 array is its block coordinate. -/
def blockIdx : S8x1x1.Idx ≃ Fin 8 where
  toFun i := i 0
  invFun t := ix3 t (0 : Fin 1) (0 : Fin 1)
  left_inv i := by
    funext a
    match a with
    | ⟨0, _⟩ => rfl
    | ⟨1, h1⟩ =>
      have h : (i ⟨1, h1⟩).val < 1 := (i ⟨1, h1⟩).isLt
      exact Fin.ext (by show 0 = (i ⟨1, h1⟩).val; omega)
    | ⟨2, h2⟩ =>
      have h : (i ⟨2, h2⟩).val < 1 := (i ⟨2, h2⟩).isLt
      exact Fin.ext (by show 0 = (i ⟨2, h2⟩).val; omega)
  right_inv _ := rfl

/-- A host sum over every axis of an 8 × 1 × 1 array from the zero word: the sum over the 8 blocks. -/
theorem allSum_apply (Q : FVec Ideal S8x1x1 .f32) :
    Host.reduceAdd (F := Ideal) Q (constant (F := Ideal) S_ .f32 0x00000000#32) reducesTo_S8x1x1_S_d0_1_2 h_S_ ix0
      = ∑ t : Fin 8, Q (ix3 t (0 : Fin 1) (0 : Fin 1)) := by
  refine (Ideal.hostReduceAdd_total reducesTo_S8x1x1_S_d0_1_2 (fun b => b.elim0) Q _ ix0).trans ?_
  rw [constant_apply, Ideal.ofBits_zero_f32, zero_add]
  exact Fintype.sum_equiv blockIdx _ _ fun i => congrArg Q (blockIdx.left_inv i).symm

/-- The second-order scalar read at its one index. -/
theorem secondScalar_apply (C : FVec Ideal S8x1x624 .f32) (Q : FVec Ideal S8x1x1 .f32) :
    secondScalar C Q ix0
      = DeepFM.litHalf * ((∑ j : Fin 624, (∑ t : Fin 8, C (ix3 t (0 : Fin 1) j)) * (∑ t : Fin 8, C (ix3 t (0 : Fin 1) j)))
          - ∑ t : Fin 8, Q (ix3 t (0 : Fin 1) (0 : Fin 1))) := by
  unfold secondScalar
  rw [mulf_apply, subf_apply, constant_apply, vecSum_apply, allSum_apply]
  simp only [mulf_apply, colTotal_apply]

/-- The result at batch row `b`. -/
theorem tail_apply (P : FVec Ideal S16384x1 .f32) (C : FVec Ideal S8x1x624 .f32) (Q : FVec Ideal S8x1x1 .f32) (b : Fin 16384) :
    tail P C Q (ix2 b (0 : Fin 1))
      = P (ix2 b (0 : Fin 1))
        + DeepFM.litHalf * ((∑ j : Fin 624, (∑ t : Fin 8, C (ix3 t (0 : Fin 1) j)) * (∑ t : Fin 8, C (ix3 t (0 : Fin 1) j)))
            - ∑ t : Fin 8, Q (ix3 t (0 : Fin 1) (0 : Fin 1))) := by
  unfold tail
  rw [addf_apply, StableHlo.Predicate.bcast_scalar bcast_S_S16384x1 h_S_, eq_ix0 (Shape.Idx.first h_S_), secondScalar_apply]

end Cert.KernelIdeal.Tail

end
-- ==== Proof.KerWhole.lean ====
/- The kernel program's three output arrays and its result, as whole-array functions of the arrays the region finds.

   Grid point `t` of 8 handles batch rows 2048·t … 2048·t + 2047: it writes the rows' first-order-plus-deep values into
   its block of the first output, the block's 624 column sums of the feature rows into row `t` of the second, and the
   block's total sum of squares into entry `t` of the third.  The blocks tile each output, so after the region each
   output array is one function of the region-entry arrays, and the thirteen host operations after the region
   turn the three arrays into the result. -/
import proofs.«419042_j7868380086366_2_alg».proof.Proof.Gen.KernelIdeal.Frame
import proofs.«419042_j7868380086366_2_alg».proof.Proof.Spec
import proofs.«419042_j7868380086366_2_alg».proof.Proof.KerPoint
import proofs.«419042_j7868380086366_2_alg».proof.Proof.KerTail
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open scoped BigOperators

/-! ## The region-entry arrays and the blocks the windows stage -/

section Blocks

variable (m : (ℓ : Loc nD τ sig) → Buf (Elt Ideal) ℓ) (ρ : Dev nD → PrngReg)

/-- A grid point as a block number below 8. -/
def blkOf (t : Fin cfg0.N) : Fin 8 := ⟨t.val, by have h := t.isLt; have hN : cfg0.N = 8 := N_0; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three batch-blocked inputs and the three outputs move with
    the point along axis 0; every other window stays at block 0. -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_15.index t (0 : Fin 2) = t.val ∧ win0_15.index t (1 : Fin 2) = 0)
    ∧ (win0_16.index t (0 : Fin 3) = t.val ∧ win0_16.index t (1 : Fin 3) = 0 ∧ win0_16.index t (2 : Fin 3) = 0)
    ∧ (win0_17.index t (0 : Fin 3) = t.val ∧ win0_17.index t (1 : Fin 3) = 0 ∧ win0_17.index t (2 : Fin 3) = 0) :=
  (by decide +kernel : ∀ t : Fin grid0.N, _)

theorem idx_const : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Block `t` of the dense-feature window is rows 2048·t … of its array. -/
theorem iblk0_apply (c : Dev nD) (t : Fin cfg0.N) (r : Fin 2048) (f : Fin 13) :
    (iblk m c 0 t : Vec Ideal S2048x13 .f32) (ix2 r f)
      = (V m c main_v1 : S16384x13.Idx → EReal) (ix2 (DeepFM.blkRow (blkOf t) r) f) := by
  obtain ⟨⟨e0, e1⟩, -⟩ := idx_facts t
  unfold iblk
  rw [View.read_apply]
  show V m c main_v1 _ = V m c main_v1 _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 13 + 1 * f.val = f.val; rw [e1]; omega

/-- Block `t` of the first-order embedding window. -/
theorem iblk1_apply (c : Dev nD) (t : Fin cfg0.N) (r : Fin 2048) (f : Fin 26) (k : Fin 16) :
    (iblk m c 1 t : Vec Ideal S2048x26x16 .bf16) (ix3 r f k)
      = (V m c main_v21 : S16384x26x16.Idx → EReal) (ix3 (DeepFM.blkRow (blkOf t) r) f k) := by
  obtain ⟨-, ⟨e0, e1, e2⟩, -⟩ := idx_facts t
  unfold iblk
  rw [View.read_apply]
  show V m c main_v21 _ = V m c main_v21 _
  congr 1
  funext a
  apply Fin.ext
  match a with
  | ⟨0, _⟩ => show win0_1.index t (0 : Fin 3) * 2048 + 1 * r.val = 2048 * t.val + r.val; rw [e0]; omega
  | ⟨1, _⟩ => show win0_1.index t (1 : Fin 3) * 26 + 1 * f.val = f.val; rw [e1]; omega
  | ⟨2, _⟩ => show win0_1.index t (2 : Fin 3) * 16 + 1 * k.val = k.val; rw [e2]; omega

/-- Block `t` of the second-order embedding window. -/
theorem iblk2_apply (c : Dev nD) (t : Fin cfg0.N) (r : Fin 2048) (f : Fin 26) (k : Fin 16) :
    (iblk m c 2 t : Vec Ideal S2048x26x16 .bf16) (ix3 r f k)
      = (V m c main_v37 : S16384x26x16.Idx → EReal) (ix3 (DeepFM.blkRow (blkOf t) r) f k) := by
  obtain ⟨-, -, ⟨e0, e1, e2⟩, -⟩ := idx_facts t
  unfold iblk
  rw [View.read_apply]
  show V m c main_v37 _ = V m c main_v37 _
  congr 1
  funext a
  apply Fin.ext
  match a with
  | ⟨0, _⟩ => show win0_2.index t (0 : Fin 3) * 2048 + 1 * r.val = 2048 * t.val + r.val; rw [e0]; omega
  | ⟨1, _⟩ => show win0_2.index t (1 : Fin 3) * 26 + 1 * f.val = f.val; rw [e1]; omega
  | ⟨2, _⟩ => show win0_2.index t (2 : Fin 3) * 16 + 1 * k.val = k.val; rw [e2]; omega

/-! The twelve weight and bias windows stage their whole arrays at every point. -/

theorem idxc3 : ∀ t : Fin cfg0.N, win0_3.index t (0 : Fin 2) = 0 ∧ win0_3.index t (1 : Fin 2) = 0 :=
  (by decide +kernel : ∀ t : Fin grid0.N, _)

theorem iblk3_eq (c : Dev nD) (t : Fin cfg0.N) :
    (iblk m c 3 t : Vec Ideal S13x16 .f32) = (V m c main_arg1 : S13x16.Idx → EReal) := by
  obtain ⟨e0, e1⟩ := idxc3 t
  funext y
  unfold iblk
  rw [View.read_apply]
  show V m c main_arg1 _ = V m c main_arg1 _
  congr 1
  funext a
  apply Fin.ext
  match a with
  | ⟨0, _⟩ => show win0_3.index t (0 : Fin 2) * 13 + 1 * (y 0).val = (y 0).val; rw [e0]; omega
  | ⟨1, _⟩ => show win0_3.index t (1 : Fin 2) * 16 + 1 * (y 1).val = (y 1).val; rw [e1]; omega

theorem idxc4 : ∀ t : Fin cfg0.N, win0_4.index t (0 : Fin 2) = 0 ∧ win0_4.index t (1 : Fin 2) = 0 :=
  (by decide +kernel : ∀ t : Fin grid0.N, _)

theorem iblk4_eq (c : Dev nD) (t : Fin cfg0.N) :
    (iblk m c 4 t : Vec Ideal S13x16 .f32) = (V m c main_arg2 : S13x16.Idx → EReal) := by
  obtain ⟨e0, e1⟩ := idxc4 t
  funext y
  unfold iblk
  rw [View.read_apply]
  show V m c main_arg2 _ = V m c main_arg2 _
  congr 1
  funext a
  apply Fin.ext
  match a with
  | ⟨0, _⟩ => show win0_4.index t (0 : Fin 2) * 13 + 1 * (y 0).val = (y 0).val; rw [e0]; omega
  | ⟨1, _⟩ => show win0_4.index t (1 : Fin 2) * 16 + 1 * (y 1).val = (y 1).val; rw [e1]; omega

theorem idxc5 : ∀ t : Fin cfg0.N, win0_5.index t (0 : Fin 2) = 0 ∧ win0_5.index t (1 : Fin 2) = 0 :=
  (by decide +kernel : ∀ t : Fin grid0.N, _)

theorem iblk5_eq (c : Dev nD) (t : Fin cfg0.N) :
    (iblk m c 5 t : Vec Ideal S39x1 .f32) = (V m c main_arg4 : S39x1.Idx → EReal) := by
  obtain ⟨e0, e1⟩ := idxc5 t
  funext y
  unfold iblk
  rw [View.read_apply]
  show V m c main_arg4 _ = V m c main_arg4 _
  congr 1
  funext a
  apply Fin.ext
  match a with
  | ⟨0, _⟩ => show win0_5.index t (0 : Fin 2) * 39 + 1 * (y 0).val = (y 0).val; rw [e0]; omega
  | ⟨1, _⟩ => show win0_5.index t (1 : Fin 2) * 1 + 1 * (y 1).val = (y 1).val; rw [e1]; omega

theorem idxc6 : ∀ t : Fin cfg0.N, win0_6.index t (0 : Fin 2) = 0 ∧ win0_6.index t (1 : Fin 2) = 0 :=
  (by decide +kernel : ∀ t : Fin grid0.N, _)

theorem iblk6_eq (c : Dev nD) (t : Fin cfg0.N) :
    (iblk m c 6 t : Vec Ideal S1x1 .f32) = (V m c main_v38 : S1x1.Idx → EReal) := by
  obtain ⟨e0, e1⟩ := idxc6 t
  funext y
  unfold iblk
  rw [View.read_apply]
  show V m c main_v38 _ = V m c main_v38 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

theorem idxc7 : ∀ t : Fin cfg0.N, win0_7.index t (0 : Fin 2) = 0 ∧ win0_7.index t (1 : Fin 2) = 0 :=
  (by decide +kernel : ∀ t : Fin grid0.N, _)

theorem iblk7_eq (c : Dev nD) (t : Fin cfg0.N) :
    (iblk m c 7 t : Vec Ideal S13x16 .f32) = (V m c main_arg6 : S13x16.Idx → EReal) := by
  obtain ⟨e0, e1⟩ := idxc7 t
  funext y
  unfold iblk
  rw [View.read_apply]
  show V m c main_arg6 _ = V m c main_arg6 _
  congr 1
  funext a
  apply Fin.ext
  match a with
  | ⟨0, _⟩ => show win0_7.index t (0 : Fin 2) * 13 + 1 * (y 0).val = (y 0).val; rw [e0]; omega
  | ⟨1, _⟩ => show win0_7.index t (1 : Fin 2) * 16 + 1 * (y 1).val = (y 1).val; rw [e1]; omega

theorem idxc8 : ∀ t : Fin cfg0.N, win0_8.index t (0 : Fin 2) = 0 ∧ win0_8.index t (1 : Fin 2) = 0 :=
  (by decide +kernel : ∀ t : Fin grid0.N, _)

theorem iblk8_eq (c : Dev nD) (t : Fin cfg0.N) :
    (iblk m c 8 t : Vec Ideal S13x16 .f32) = (V m c main_arg7 : S13x16.Idx → EReal) := by
  obtain ⟨e0, e1⟩ := idxc8 t
  funext y
  unfold iblk
  rw [View.read_apply]
  show V m c main_arg7 _ = V m c main_arg7 _
  congr 1
  funext a
  apply Fin.ext
  match a with
  | ⟨0, _⟩ => show win0_8.index t (0 : Fin 2) * 13 + 1 * (y 0).val = (y 0).val; rw [e0]; omega
  | ⟨1, _⟩ => show win0_8.index t (1 : Fin 2) * 16 + 1 * (y 1).val = (y 1).val; rw [e1]; omega

theorem idxc9 : ∀ t : Fin cfg0.N, win0_9.index t (0 : Fin 2) = 0 ∧ win0_9.index t (1 : Fin 2) = 0 :=
  (by decide +kernel : ∀ t : Fin grid0.N, _)

theorem iblk9_eq (c : Dev nD) (t : Fin cfg0.N) :
    (iblk m c 9 t : Vec Ideal S624x400 .f32) = (V m c main_arg9 : S624x400.Idx → EReal) := by
  obtain ⟨e0, e1⟩ := idxc9 t
  funext y
  unfold iblk
  rw [View.read_apply]
  show V m c main_arg9 _ = V m c main_arg9 _
  congr 1
  funext a
  apply Fin.ext
  match a with
  | ⟨0, _⟩ => show win0_9.index t (0 : Fin 2) * 624 + 1 * (y 0).val = (y 0).val; rw [e0]; omega
  | ⟨1, _⟩ => show win0_9.index t (1 : Fin 2) * 400 + 1 * (y 1).val = (y 1).val; rw [e1]; omega

theorem idxc10 : ∀ t : Fin cfg0.N, win0_10.index t (0 : Fin 2) = 0 ∧ win0_10.index t (1 : Fin 2) = 0 :=
  (by decide +kernel : ∀ t : Fin grid0.N, _)

theorem iblk10_eq (c : Dev nD) (t : Fin cfg0.N) :
    (iblk m c 10 t : Vec Ideal S1x400 .f32) = (V m c main_v39 : S1x400.Idx → EReal) := by
  obtain ⟨e0, e1⟩ := idxc10 t
  funext y
  unfold iblk
  rw [View.read_apply]
  show V m c main_v39 _ = V m c main_v39 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 400 + 1 * (y 1).val = (y 1).val; rw [e1]; omega

theorem idxc11 : ∀ t : Fin cfg0.N, win0_11.index t (0 : Fin 2) = 0 ∧ win0_11.index t (1 : Fin 2) = 0 :=
  (by decide +kernel : ∀ t : Fin grid0.N, _)

theorem iblk11_eq (c : Dev nD) (t : Fin cfg0.N) :
    (iblk m c 11 t : Vec Ideal S400x400 .f32) = (V m c main_arg11 : S400x400.Idx → EReal) := by
  obtain ⟨e0, e1⟩ := idxc11 t
  funext y
  unfold iblk
  rw [View.read_apply]
  show V m c main_arg11 _ = V m c main_arg11 _
  congr 1
  funext a
  apply Fin.ext
  match a with
  | ⟨0, _⟩ => show win0_11.index t (0 : Fin 2) * 400 + 1 * (y 0).val = (y 0).val; rw [e0]; omega
  | ⟨1, _⟩ => show win0_11.index t (1 : Fin 2) * 400 + 1 * (y 1).val = (y 1).val; rw [e1]; omega

theorem idxc12 : ∀ t : Fin cfg0.N, win0_12.index t (0 : Fin 2) = 0 ∧ win0_12.index t (1 : Fin 2) = 0 :=
  (by decide +kernel : ∀ t : Fin grid0.N, _)

theorem iblk12_eq (c : Dev nD) (t : Fin cfg0.N) :
    (iblk m c 12 t : Vec Ideal S1x400 .f32) = (V m c main_v40 : S1x400.Idx → EReal) := by
  obtain ⟨e0, e1⟩ := idxc12 t
  funext y
  unfold iblk
  rw [View.read_apply]
  show V m c main_v40 _ = V m c main_v40 _
  congr 1
  funext a
  apply Fin.ext
  match a with
  | ⟨0, _⟩ => show win0_12.index t (0 : Fin 2) * 1 + 1 * (y 0).val = (y 0).val; rw [e0]; omega
  | ⟨1, _⟩ => show win0_12.index t (1 : Fin 2) * 400 + 1 * (y 1).val = (y 1).val; rw [e1]; omega

theorem idxc13 : ∀ t : Fin cfg0.N, win0_13.index t (0 : Fin 2) = 0 ∧ win0_13.index t (1 : Fin 2) = 0 :=
  (by decide +kernel : ∀ t : Fin grid0.N, _)

theorem iblk13_eq (c : Dev nD) (t : Fin cfg0.N) :
    (iblk m c 13 t : Vec Ideal S400x1 .f32) = (V m c main_arg13 : S400x1.Idx → EReal) := by
  obtain ⟨e0, e1⟩ := idxc13 t
  funext y
  unfold iblk
  rw [View.read_apply]
  show V m c main_arg13 _ = V m c main_arg13 _
  congr 1
  funext a
  apply Fin.ext
  match a with
  | ⟨0, _⟩ => show win0_13.index t (0 : Fin 2) * 400 + 1 * (y 0).val = (y 0).val; rw [e0]; omega
  | ⟨1, _⟩ => show win0_13.index t (1 : Fin 2) * 1 + 1 * (y 1).val = (y 1).val; rw [e1]; omega

theorem idxc14 : ∀ t : Fin cfg0.N, win0_14.index t (0 : Fin 2) = 0 ∧ win0_14.index t (1 : Fin 2) = 0 :=
  (by decide +kernel : ∀ t : Fin grid0.N, _)

theorem iblk14_eq (c : Dev nD) (t : Fin cfg0.N) :
    (iblk m c 14 t : Vec Ideal S1x1 .f32) = (V m c main_v41 : S1x1.Idx → EReal) := by
  obtain ⟨e0, e1⟩ := idxc14 t
  funext y
  unfold iblk
  rw [View.read_apply]
  show V m c main_v41 _ = V m c main_v41 _
  congr 1
  funext a
  apply Fin.ext
  match a with
  | ⟨0, _⟩ => show win0_14.index t (0 : Fin 2) * 1 + 1 * (y 0).val = (y 0).val; rw [e0]; omega
  | ⟨1, _⟩ => show win0_14.index t (1 : Fin 2) * 1 + 1 * (y 1).val = (y 1).val; rw [e1]; omega

/-! ## The three output arrays as functions of the region-entry arrays -/

/-- The feature array of the region-entry arrays. -/
def featOf (c : Dev nD) : Fin 16384 → Fin 624 → EReal :=
  featArr (V m c main_v1) (V m c main_v37) (V m c main_arg6) (V m c main_arg7)

/-- What the first output array ends holding. -/
def G15 (c : Dev nD) : S16384x1.Idx → EReal := fun i =>
  partArr (V m c main_v1) (V m c main_v21) (V m c main_v37) (V m c main_arg1) (V m c main_arg2) (V m c main_arg4) (V m c main_v38)
    (V m c main_arg6) (V m c main_arg7) (V m c main_arg9) (V m c main_v39) (V m c main_arg11) (V m c main_v40) (V m c main_arg13)
    (V m c main_v41) ⟨(i 0).val, (i 0).isLt⟩

/-- What the second output array ends holding. -/
def G16 (c : Dev nD) : S8x1x624.Idx → EReal := fun i =>
  colArr (featOf m c) ⟨(i 0).val, (i 0).isLt⟩ ⟨(i 2).val, (i 2).isLt⟩

/-- What the third output array ends holding. -/
def G17 (c : Dev nD) : S8x1x1.Idx → EReal := fun i =>
  sqArr (featOf m c) ⟨(i 0).val, (i 0).isLt⟩

/-! ## What each grid point writes back -/

/-- Point `t` writes block `t` of `G15`: the stored values of its 2048 batch rows. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  unfold out0_15
  rw [View.canon_unit_zero hz2]
  simp only [View.ld_unit_zero (S := S2048x13) hz2, View.ld_unit_zero (S := S2048x26x16) hz3, View.ld_unit_zero (S := S13x16) hz2,
    View.ld_unit_zero (S := S39x1) hz2, View.ld_unit_zero (S := S1x1) hz2, View.ld_unit_zero (S := S624x400) hz2,
    View.ld_unit_zero (S := S1x400) hz2, View.ld_unit_zero (S := S400x400) hz2, View.ld_unit_zero (S := S400x1) hz2]
  obtain ⟨-, -, -, ⟨e0, e1⟩, -⟩ := idx_facts t
  funext y
  obtain ⟨r, rfl⟩ : ∃ r : Fin 2048, y = ix2 r (0 : Fin 1) :=
    ⟨y 0, funext fun a => by
      match a with
      | ⟨0, _⟩ => rfl
      | ⟨1, _⟩ => exact Fin.ext (by have h : (y 1).val < 1 := (y 1).isLt; show (y 1).val = 0; omega)⟩
  refine (part_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) r).trans ?_
  rw [View.read_apply]
  have hb : (⟨(((cfg0.win 15).blk t).view.emb (ix2 r (0 : Fin 1)) 0).val, (((cfg0.win 15).blk t).view.emb (ix2 r (0 : Fin 1)) 0).isLt⟩ : Fin 16384)
      = DeepFM.blkRow (blkOf t) r :=
    Fin.ext (by show win0_15.index t (0 : Fin 2) * 2048 + 1 * r.val = 2048 * t.val + r.val; rw [e0]; omega)
  unfold G15
  dsimp only
  rw [hb]
  unfold partArr featArr
  simp only [iblk0_apply, iblk1_apply, iblk2_apply, iblk3_eq, iblk4_eq, iblk5_eq, iblk6_eq, iblk7_eq, iblk8_eq, iblk9_eq,
    iblk10_eq, iblk11_eq, iblk12_eq, iblk13_eq, iblk14_eq]
  exact (cast_eq _ _).symm

/-- Point `t` writes row `t` of `G16`: its block's column sums. -/
theorem flushed16_eq (c : Dev nD) (t : Fin cfg0.N) :
    (dats m 0 c).flushed 16 t = ((cfg0.win 16).blk t).view.read (Elt Ideal) (G16 m c) := by
  show (cfg0.win 16).cut (grid0.coords t) ((dats m 0 c).after 16 t) = _
  rw [after0_16]
  unfold out0_16
  rw [View.canon_unit_zero hz3]
  simp only [View.ld_unit_zero (S := S2048x13) hz2, View.ld_unit_zero (S := S2048x26x16) hz3, View.ld_unit_zero (S := S13x16) hz2,
    View.ld_unit_zero (S := S39x1) hz2, View.ld_unit_zero (S := S1x1) hz2, View.ld_unit_zero (S := S624x400) hz2,
    View.ld_unit_zero (S := S1x400) hz2, View.ld_unit_zero (S := S400x400) hz2, View.ld_unit_zero (S := S400x1) hz2]
  obtain ⟨-, -, -, -, ⟨e0, e1, e2⟩, -⟩ := idx_facts t
  funext y
  obtain ⟨j, rfl⟩ : ∃ j : Fin 624, y = ix3 (0 : Fin 1) (0 : Fin 1) j :=
    ⟨y 2, funext fun a => by
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl⟩
  refine (col_row (iblk m c 0 t) (iblk m c 2 t) (iblk m c 7 t) (iblk m c 8 t) j).trans ?_
  rw [View.read_apply]
  have hb0 : (⟨(((cfg0.win 16).blk t).view.emb (ix3 (0 : Fin 1) (0 : Fin 1) j) 0).val, (((cfg0.win 16).blk t).view.emb (ix3 (0 : Fin 1) (0 : Fin 1) j) 0).isLt⟩ : Fin 8)
      = blkOf t :=
    Fin.ext (by show win0_16.index t (0 : Fin 3) * 1 + 1 * 0 = t.val; rw [e0]; omega)
  have hb2 : (⟨(((cfg0.win 16).blk t).view.emb (ix3 (0 : Fin 1) (0 : Fin 1) j) 2).val, (((cfg0.win 16).blk t).view.emb (ix3 (0 : Fin 1) (0 : Fin 1) j) 2).isLt⟩ : Fin 624)
      = j :=
    Fin.ext (by show win0_16.index t (2 : Fin 3) * 624 + 1 * j.val = j.val; rw [e2]; omega)
  unfold G16
  dsimp only
  rw [hb0, hb2]
  unfold colArr featOf featArr
  simp only [iblk0_apply, iblk2_apply, iblk7_eq, iblk8_eq]
  exact (cast_eq _ _).symm

/-- Point `t` writes entry `t` of `G17`: its block's total sum of squares. -/
theorem flushed17_eq (c : Dev nD) (t : Fin cfg0.N) :
    (dats m 0 c).flushed 17 t = ((cfg0.win 17).blk t).view.read (Elt Ideal) (G17 m c) := by
  show (cfg0.win 17).cut (grid0.coords t) ((dats m 0 c).after 17 t) = _
  rw [after0_17]
  unfold out0_17
  rw [View.canon_unit_zero hz3]
  simp only [View.ld_unit_zero (S := S2048x13) hz2, View.ld_unit_zero (S := S2048x26x16) hz3, View.ld_unit_zero (S := S13x16) hz2,
    View.ld_unit_zero (S := S39x1) hz2, View.ld_unit_zero (S := S1x1) hz2, View.ld_unit_zero (S := S624x400) hz2,
    View.ld_unit_zero (S := S1x400) hz2, View.ld_unit_zero (S := S400x400) hz2, View.ld_unit_zero (S := S400x1) hz2]
  obtain ⟨-, -, -, -, -, ⟨e0, e1, e2⟩⟩ := idx_facts t
  funext y
  obtain rfl : y = ix3 (0 : Fin 1) (0 : Fin 1) (0 : Fin 1) :=
    funext fun a => by
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => exact Fin.ext (by have h : (y 2).val < 1 := (y 2).isLt; show (y 2).val = 0; omega)
  refine (sq_row (iblk m c 0 t) (iblk m c 2 t) (iblk m c 7 t) (iblk m c 8 t)).trans ?_
  rw [View.read_apply]
  have hb0 : (⟨(((cfg0.win 17).blk t).view.emb (ix3 (0 : Fin 1) (0 : Fin 1) (0 : Fin 1)) 0).val, (((cfg0.win 17).blk t).view.emb (ix3 (0 : Fin 1) (0 : Fin 1) (0 : Fin 1)) 0).isLt⟩ : Fin 8)
      = blkOf t :=
    Fin.ext (by show win0_17.index t (0 : Fin 3) * 1 + 1 * 0 = t.val; rw [e0]; omega)
  unfold G17
  dsimp only
  rw [hb0]
  unfold sqArr featOf featArr
  simp only [iblk0_apply, iblk2_apply, iblk7_eq, iblk8_eq]
  exact (cast_eq _ _).symm

/-! ## The blocks tile each output, so each output array ends at its function -/

theorem mem_blk15 (t : Fin cfg0.N) (i : S16384x1.Idx) :
    i ∈ ((cfg0.win 15).blk t).view.set ↔ ∀ a : Fin 2, win0_15.index t a * S2048x1.size a ≤ (i a).val ∧ (i a).val < win0_15.index t a * S2048x1.size a + S2048x1.size a := by
  show i ∈ ((View.whole main_v42_0).slice (win0_15.rect t)).set ↔ _
  rw [View.set_slice_whole, Rect.mem_set_unit]
  exact Iff.rfl

theorem mem_blk16 (t : Fin cfg0.N) (i : S8x1x624.Idx) :
    i ∈ ((cfg0.win 16).blk t).view.set ↔ ∀ a : Fin 3, win0_16.index t a * S1x1x624.size a ≤ (i a).val ∧ (i a).val < win0_16.index t a * S1x1x624.size a + S1x1x624.size a := by
  show i ∈ ((View.whole main_v42_1).slice (win0_16.rect t)).set ↔ _
  rw [View.set_slice_whole, Rect.mem_set_unit]
  exact Iff.rfl

theorem mem_blk17 (t : Fin cfg0.N) (i : S8x1x1.Idx) :
    i ∈ ((cfg0.win 17).blk t).view.set ↔ ∀ a : Fin 3, win0_17.index t a * S1x1x1.size a ≤ (i a).val ∧ (i a).val < win0_17.index t a * S1x1x1.size a + S1x1x1.size a := by
  show i ∈ ((View.whole main_v42_2).slice (win0_17.rect t)).set ↔ _
  rw [View.set_slice_whole, Rect.mem_set_unit]
  exact Iff.rfl

/-- Batch row `b` lies in the block of point `b / 2048`. -/
theorem cover15 (i : S16384x1.Idx) :
    ∃ t : Fin cfg0.N, (cfg0.win 15).flush t = true ∧ i ∈ ((cfg0.win 15).blk t).view.set := by
  have hi0 : (i 0).val < 16384 := (i 0).isLt
  have hi1 : (i 1).val < 1 := (i 1).isLt
  have hN : cfg0.N = 8 := N_0
  have ht : (i 0).val / 2048 < cfg0.N := by rw [hN]; omega
  obtain ⟨-, -, -, ⟨e0, e1⟩, -⟩ := idx_facts ⟨(i 0).val / 2048, ht⟩
  refine ⟨⟨(i 0).val / 2048, ht⟩, flush0_15 _, ?_⟩
  rw [mem_blk15]
  intro a
  match a with
  | ⟨0, _⟩ =>
    show win0_15.index ⟨(i 0).val / 2048, ht⟩ (0 : Fin 2) * 2048 ≤ (i 0).val ∧ (i 0).val < win0_15.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_15.index ⟨(i 0).val / 2048, ht⟩ (1 : Fin 2) * 1 ≤ (i 1).val ∧ (i 1).val < win0_15.index ⟨(i 0).val / 2048, ht⟩ (1 : Fin 2) * 1 + 1
    rw [e1]; omega

/-- Row `t` of the column-sum array is point `t`'s block. -/
theorem cover16 (i : S8x1x624.Idx) :
    ∃ t : Fin cfg0.N, (cfg0.win 16).flush t = true ∧ i ∈ ((cfg0.win 16).blk t).view.set := by
  have hi0 : (i 0).val < 8 := (i 0).isLt
  have hi1 : (i 1).val < 1 := (i 1).isLt
  have hi2 : (i 2).val < 624 := (i 2).isLt
  have hN : cfg0.N = 8 := N_0
  have ht : (i 0).val < cfg0.N := by rw [hN]; omega
  obtain ⟨-, -, -, -, ⟨e0, e1, e2⟩, -⟩ := idx_facts ⟨(i 0).val, ht⟩
  refine ⟨⟨(i 0).val, ht⟩, flush0_16 _, ?_⟩
  rw [mem_blk16]
  intro a
  match a with
  | ⟨0, _⟩ =>
    show win0_16.index ⟨(i 0).val, ht⟩ (0 : Fin 3) * 1 ≤ (i 0).val ∧ (i 0).val < win0_16.index ⟨(i 0).val, ht⟩ (0 : Fin 3) * 1 + 1
    rw [e0]; show (i 0).val * 1 ≤ (i 0).val ∧ (i 0).val < (i 0).val * 1 + 1; omega
  | ⟨1, _⟩ =>
    show win0_16.index ⟨(i 0).val, ht⟩ (1 : Fin 3) * 1 ≤ (i 1).val ∧ (i 1).val < win0_16.index ⟨(i 0).val, ht⟩ (1 : Fin 3) * 1 + 1
    rw [e1]; omega
  | ⟨2, _⟩ =>
    show win0_16.index ⟨(i 0).val, ht⟩ (2 : Fin 3) * 624 ≤ (i 2).val ∧ (i 2).val < win0_16.index ⟨(i 0).val, ht⟩ (2 : Fin 3) * 624 + 624
    rw [e2]; omega

/-- Entry `t` of the sum-of-squares array is point `t`'s block. -/
theorem cover17 (i : S8x1x1.Idx) :
    ∃ t : Fin cfg0.N, (cfg0.win 17).flush t = true ∧ i ∈ ((cfg0.win 17).blk t).view.set := by
  have hi0 : (i 0).val < 8 := (i 0).isLt
  have hi1 : (i 1).val < 1 := (i 1).isLt
  have hi2 : (i 2).val < 1 := (i 2).isLt
  have hN : cfg0.N = 8 := N_0
  have ht : (i 0).val < cfg0.N := by rw [hN]; omega
  obtain ⟨-, -, -, -, -, ⟨e0, e1, e2⟩⟩ := idx_facts ⟨(i 0).val, ht⟩
  refine ⟨⟨(i 0).val, ht⟩, flush0_17 _, ?_⟩
  rw [mem_blk17]
  intro a
  match a with
  | ⟨0, _⟩ =>
    show win0_17.index ⟨(i 0).val, ht⟩ (0 : Fin 3) * 1 ≤ (i 0).val ∧ (i 0).val < win0_17.index ⟨(i 0).val, ht⟩ (0 : Fin 3) * 1 + 1
    rw [e0]; show (i 0).val * 1 ≤ (i 0).val ∧ (i 0).val < (i 0).val * 1 + 1; omega
  | ⟨1, _⟩ =>
    show win0_17.index ⟨(i 0).val, ht⟩ (1 : Fin 3) * 1 ≤ (i 1).val ∧ (i 1).val < win0_17.index ⟨(i 0).val, ht⟩ (1 : Fin 3) * 1 + 1
    rw [e1]; omega
  | ⟨2, _⟩ =>
    show win0_17.index ⟨(i 0).val, ht⟩ (2 : Fin 3) * 1 ≤ (i 2).val ∧ (i 2).val < win0_17.index ⟨(i 0).val, ht⟩ (2 : Fin 3) * 1 + 1
    rw [e2]; omega

theorem final15 (c : Dev nD) : (dats m 0 c).arrAt 15 cfg0.N = G15 m c :=
  (dats m 0 c).arrAt_eq_of_cover 15 (G15 m c) (fun t _ => flushed15_eq m c t) cover15

theorem final16 (c : Dev nD) : (dats m 0 c).arrAt 16 cfg0.N = G16 m c :=
  (dats m 0 c).arrAt_eq_of_cover 16 (G16 m c) (fun t _ => flushed16_eq m c t) cover16

theorem final17 (c : Dev nD) : (dats m 0 c).arrAt 17 cfg0.N = G17 m c :=
  (dats m 0 c).arrAt_eq_of_cover 17 (G17 m c) (fun t _ => flushed17_eq m c t) cover17

/-! ## After the region: the host tail, and the run -/

/-- The result buffer after the thirteen operations that follow the region. -/
theorem tail_value (c : Dev nD) :
    Pipeline.afterTail₀ cfgs (dats m) 0 (V0 m) [hostOps1] c main_v51 = Tail.tail (G15 m c) (G16 m c) (G17 m c) := by
  have h15 := (Pipeline.withArrays_arr spec0 launch0.win.arr_inj c (V0 m c) (fun w => (dats m 0 c).arrAt w cfg0.N) 15).trans (final15 m c)
  have h16 := (Pipeline.withArrays_arr spec0 launch0.win.arr_inj c (V0 m c) (fun w => (dats m 0 c).arrAt w cfg0.N) 16).trans (final16 m c)
  have h17 := (Pipeline.withArrays_arr spec0 launch0.win.arr_inj c (V0 m c) (fun w => (dats m 0 c).arrAt w cfg0.N) 17).trans (final17 m c)
  unfold Pipeline.afterTail₀
  show StableHlo.after hostOps1 _ (Proc.devRef .tc main_v51) = _
  after_results
  rw [← h15, ← h16, ← h17]
  rfl

set_option backward.isDefEq.respectTransparency.types false in
/-- The run, read: the result at the tail of the three output arrays, every argument unchanged. -/
theorem run : θ_run defs (onTc (τ := τ) (main (F := Ideal))) ⟨m, fun _ => 0, ρ⟩ fun r => ∀ c : Dev nD,
      r.2.mem ((c.tc : Thread nD τ).loc main_v51) = Tail.tail (G15 m c) (G16 m c) (G17 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).2 main_v51 (Pipeline.mem_restRefs_of main_v51 (by decide) (by decide))).trans (tail_value m c),
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c))),
      (((h c).2 main_arg14 (Pipeline.mem_restRefs_of main_arg14 (by decide) (by decide))).trans (W_main_arg14 m (dats m) c))⟩)
    (run_main m ρ)

end Blocks

end Cert.KernelIdeal.Whole

end
-- ==== Proof.KerPrefix.lean ====
/- The kernel program's host operations before the region: what the arrays the region's windows stage hold, as
   terms of the launch memory.

   The dense columns of the integer input are converted to floats; the sparse columns are clipped to [0, 99999],
   wrapped where negative, paired with their field numbers and used as start indices of a gather from each of the
   two embedding tables, the gathered rows narrowed for transport; four bias vectors are reshaped to rank 2. -/
import proofs.«419042_j7868380086366_2_alg».proof.Proof.Gen.KernelIdeal.Frame
import Idealize.ShloMosaic.Lib.StableHlo.Run
import Idealize.ShloMosaic.PureOps.Ideal

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

/-- The sparse-field columns of the integer input. -/
def sparseIdx (x0 : IVec S16384x39 32) : IVec S16384x26 32 :=
  extractStridedSlice S16384x26 ![0, 13] x0 slices_S16384x39_S16384x26_0_13

/-- An index array clipped to [0, 99999] in signed arithmetic. -/
def clipIdx (y : IVec S16384x26 32) : IVec S16384x26 32 :=
  minsi (broadcastInDim S16384x26 ![] bcast_S_S16384x26 (constantI S_ 32 99999#32))
    (maxsi (broadcastInDim S16384x26 ![] bcast_S_S16384x26 (constantI S_ 32 0#32)) y)

/-- The gather's start indices from an index array: each entry wrapped where negative and paired with its field number. -/
def startIdx (y : IVec S16384x26 32) : IVec S16384x26x2 32 :=
  concatenate S16384x26x2 2
    [⟨S16384x26x1, broadcastInDim S16384x26x1 ![0, 1] bcast_S16384x26_S16384x26x1_0_1
        (broadcastInDim S16384x26 ![0, 1] bcast_S1x26_S16384x26_0_1
          (select (cmpi .slt (broadcastInDim S1x26 ![1] bcast_S26_S1x26_1 (iotaInDim S26 32 0)) (broadcastInDim S1x26 ![] bcast_S_S1x26 (constantI S_ 32 0#32)))
            (addi (broadcastInDim S1x26 ![1] bcast_S26_S1x26_1 (iotaInDim S26 32 0)) (broadcastInDim S1x26 ![] bcast_S_S1x26 (constantI S_ 32 26#32)))
            (broadcastInDim S1x26 ![1] bcast_S26_S1x26_1 (iotaInDim S26 32 0))))⟩,
     ⟨S16384x26x1, broadcastInDim S16384x26x1 ![0, 1] bcast_S16384x26_S16384x26x1_0_1
        (select (cmpi .slt y (broadcastInDim S16384x26 ![] bcast_S_S16384x26 (constantI S_ 32 0#32)))
          (addi y (broadcastInDim S16384x26 ![] bcast_S_S16384x26 (constantI S_ 32 100000#32))) y)⟩]
    concatenates_S16384x26x1_S16384x26x1_S16384x26x2_d2

/-- The rows of an embedding table the start indices name. -/
def gathered (E : FVec Ideal S26x100000x16 .f32) (y : IVec S16384x26 32) : FVec Ideal S16384x26x16 .f32 :=
  Host.gather gather_S26x100000x16_S16384x26x2_S16384x26x16_2_01_n_n_01_2_1116 E (startIdx y)

/-- A two-piece concatenation depends only on its pieces. -/
private theorem concatenate_pair_congr {α : Type} {t s₁ s₂ : Shape} {a : Fin t.rank} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx; subst hy; rfl

variable (m : (ℓ : Loc nD τ sig) → Buf (Elt Ideal) ℓ)

/-- The dense features as floats. -/
theorem V_v1 (c : Dev nD) :
    V m c main_v1 = sitofp (F := Ideal) .f32 (extractStridedSlice S16384x13 ![0, 0] (m ((c.tc : Thread nD τ).loc main_arg0)) slices_S16384x39_S16384x13_0_0) := by
  dsimp only [Gen.V, Gen.V0]
  simp only [Gen.hostOps0, Gen.hostOps0_1, Gen.hostOps0_2, List.flatten_cons, List.flatten_nil, List.append_nil, List.cons_append,
    List.nil_append]
  after_results_simp

/-- The first-order embedding rows, gathered at the clipped indices, narrowed. -/
theorem V_v21 (c : Dev nD) :
    V m c main_v21 = truncf .bf16 (gathered (m ((c.tc : Thread nD τ).loc main_arg3)) (clipIdx (sparseIdx (m ((c.tc : Thread nD τ).loc main_arg0))))) bitsLt_bf16_f32 := by
  dsimp only [Gen.V, Gen.V0]
  simp only [Gen.hostOps0, Gen.hostOps0_1, Gen.hostOps0_2, List.flatten_cons, List.flatten_nil, List.append_nil, List.cons_append,
    List.nil_append]
  -- the narrowing and the gather read through; the start indices are a concatenation of two computed pieces
  after_results_simp
  unfold gathered startIdx
  refine congrArg (fun z => truncf (F := Ideal) .bf16 (Host.gather gather_S26x100000x16_S16384x26x2_S16384x26x16_2_01_n_n_01_2_1116 (m ((c.tc : Thread nD τ).loc main_arg3) : FVec Ideal S26x100000x16 .f32) z) bitsLt_bf16_f32)
    (concatenate_pair_congr _ ?_ ?_)
  · -- the field numbers
    after_results_simp
  · -- the clipped indices, wrapped where negative; the clip's typed references carry identity casts
    after_results_simp
    unfold clipIdx sparseIdx
    simp only [TRef.ofBuf, TRef.toBuf, cast_eq, id_eq]

/-- The second-order embedding rows, gathered at the clipped indices, narrowed. -/
theorem V_v37 (c : Dev nD) :
    V m c main_v37 = truncf .bf16 (gathered (m ((c.tc : Thread nD τ).loc main_arg8)) (clipIdx (sparseIdx (m ((c.tc : Thread nD τ).loc main_arg0))))) bitsLt_bf16_f32 := by
  dsimp only [Gen.V, Gen.V0]
  simp only [Gen.hostOps0, Gen.hostOps0_1, Gen.hostOps0_2, List.flatten_cons, List.flatten_nil, List.append_nil, List.cons_append,
    List.nil_append]
  -- the narrowing and the gather read through; the start indices are a concatenation of two computed pieces
  after_results_simp
  unfold gathered startIdx
  refine congrArg (fun z => truncf (F := Ideal) .bf16 (Host.gather gather_S26x100000x16_S16384x26x2_S16384x26x16_2_01_n_n_01_2_1116 (m ((c.tc : Thread nD τ).loc main_arg8) : FVec Ideal S26x100000x16 .f32) z) bitsLt_bf16_f32)
    (concatenate_pair_congr _ ?_ ?_)
  · -- the field numbers
    after_results_simp
  · -- the clipped indices, wrapped where negative; the clip's typed references carry identity casts
    after_results_simp
    unfold clipIdx sparseIdx
    simp only [TRef.ofBuf, TRef.toBuf, cast_eq, id_eq]

theorem V_v38 (c : Dev nD) : V m c main_v38 = shapeCast S1x1 (m ((c.tc : Thread nD τ).loc main_arg5)) shapeCasts_S1_S1x1 := by
  dsimp only [Gen.V, Gen.V0]
  simp only [Gen.hostOps0, Gen.hostOps0_1, Gen.hostOps0_2, List.flatten_cons, List.flatten_nil, List.append_nil, List.cons_append,
    List.nil_append]
  after_results_simp
  rfl

theorem V_v39 (c : Dev nD) : V m c main_v39 = shapeCast S1x400 (m ((c.tc : Thread nD τ).loc main_arg10)) shapeCasts_S400_S1x400 := by
  dsimp only [Gen.V, Gen.V0]
  simp only [Gen.hostOps0, Gen.hostOps0_1, Gen.hostOps0_2, List.flatten_cons, List.flatten_nil, List.append_nil, List.cons_append,
    List.nil_append]
  after_results_simp
  rfl

theorem V_v40 (c : Dev nD) : V m c main_v40 = shapeCast S1x400 (m ((c.tc : Thread nD τ).loc main_arg12)) shapeCasts_S400_S1x400 := by
  dsimp only [Gen.V, Gen.V0]
  simp only [Gen.hostOps0, Gen.hostOps0_1, Gen.hostOps0_2, List.flatten_cons, List.flatten_nil, List.append_nil, List.cons_append,
    List.nil_append]
  after_results_simp
  rfl

theorem V_v41 (c : Dev nD) : V m c main_v41 = shapeCast S1x1 (m ((c.tc : Thread nD τ).loc main_arg14)) shapeCasts_S1_S1x1 := by
  dsimp only [Gen.V, Gen.V0]
  simp only [Gen.hostOps0, Gen.hostOps0_1, Gen.hostOps0_2, List.flatten_cons, List.flatten_nil, List.append_nil, List.cons_append,
    List.nil_append]
  after_results_simp
  rfl

end Cert.KernelIdeal.Prefix

end
-- ==== Proof.IndexPre.lean ====
/- What the precondition says of the sparse-field indices, and what it makes of the kernel's clip.

   The precondition's last conjunct is the all-reduction of `0 ≤ x ∧ x < 100000` over the 16384 × 26 sparse-field
   columns of the integer input (signed 32-bit comparisons).  Under it every such index `x` satisfies both bounds, so
   clipping it to `[0, 99999]` — `min(99999, max(0, x))` in signed arithmetic — returns `x` itself. -/
import proofs.«419042_j7868380086366_2_alg».proof.Pre_finite_inputs
import proofs.«419042_j7868380086366_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Decode

open Cert.Pre_finite_inputs Idealize.ShloMosaic

variable [hF : Facts]

/-- The element-wise `and` read at an index. -/
private theorem andi_at {s : Shape} {w : Nat} (x y : IVec s w) (i : s.Idx) : andi x y i = IntOp.andi (x i) (y i) := rfl

/-- The element-wise integer comparison read at an index. -/
private theorem cmpi_at {s : Shape} {w : Nat} (p : CmpIPredicate) (x y : IVec s w) (i : s.Idx) :
    cmpi p x y i = IntOp.cmpi p (x i) (y i) := rfl

/-- Under the precondition, every sparse-field index is non-negative and below 100000 as a signed number. -/
theorem idx_in_range (x0 : IVec S16384x39 32) (x1 x2 : FVec Ideal S13x16 .f32) (x3 : FVec Ideal S26x100000x16 .f32)
    (x4 : FVec Ideal S39x1 .f32) (x5 : FVec Ideal S1 .f32) (x6 x7 : FVec Ideal S13x16 .f32) (x8 : FVec Ideal S26x100000x16 .f32)
    (x9 : FVec Ideal S624x400 .f32) (x10 : FVec Ideal S400 .f32) (x11 : FVec Ideal S400x400 .f32) (x12 : FVec Ideal S400 .f32)
    (x13 : FVec Ideal S400x1 .f32) (x14 : FVec Ideal S1 .f32)
    (h : fn (F := Ideal) x0 x1 x2 x3 x4 x5 x6 x7 x8 x9 x10 x11 x12 x13 x14 = fun _ => 1#1) (i : S16384x26.Idx) :
    0 ≤ (extractStridedSlice S16384x26 ![0, 13] x0 hF.slices_S16384x39_S16384x26_0_13 i).toInt
      ∧ (extractStridedSlice S16384x26 ![0, 13] x0 hF.slices_S16384x39_S16384x26_0_13 i).toInt < 100000 := by
  -- the precondition at its one index, opened down to its outermost conjunction
  have h0 := congrFun h ValueIdx.ix0
  dsimp only [fn, fn_part1, fn_part2, fn_part3, fn_part4] at h0
  -- the last conjunct is the all-reduction of the range test over the sparse-field columns
  have h1 := (IntOp.andi_eq_one.1 h0).2
  -- a rank-0 result has a single index, so the reduction runs over every element
  haveI : Subsingleton S_.Idx := ⟨fun a b => funext fun d => d.elim0⟩
  have h2 := Host.reduce_andi_all _ _ _ _ _ h1 i
  -- at the element `i` the test is `0 ≤ x` and `x < 100000`, both signed
  rw [andi_at, cmpi_at, cmpi_at] at h2
  obtain ⟨ha, hb⟩ := IntOp.andi_eq_one.1 h2
  rw [IntOp.cmpi_sge] at ha
  rw [IntOp.cmpi_slt] at hb
  have e0 : (0#32 : BitVec 32).toInt = 0 := by decide
  have e1 : (100000#32 : BitVec 32).toInt = 100000 := by decide
  -- a broadcast constant reads the constant at every index
  change (0#32 : BitVec 32).toInt ≤ _ at ha
  change _ < (100000#32 : BitVec 32).toInt at hb
  rw [e0] at ha
  rw [e1] at hb
  exact ⟨ha, hb⟩

/-- A signed 32-bit number in `[0, 100000)` is unchanged by `min(99999, max(0, ·))`. -/
theorem clip_word (x : BitVec 32) (h0 : 0 ≤ x.toInt) (h1 : x.toInt < 100000) :
    IntOp.minsi 99999#32 (IntOp.maxsi 0#32 x) = x := by
  have e0 : (0#32 : BitVec 32).toInt = 0 := by decide
  have e1 : (99999#32 : BitVec 32).toInt = 99999 := by decide
  -- the lower clip: `x < 0` fails, so the maximum with 0 is `x`
  have hmax : IntOp.maxsi 0#32 x = x := by
    unfold IntOp.maxsi
    rw [if_neg]
    rw [BitVec.slt_iff_toInt_lt, e0]
    omega
  rw [hmax]
  -- the upper clip: `99999 < x` fails, so the minimum with 99999 is `x`
  unfold IntOp.minsi
  rw [if_neg]
  rw [BitVec.slt_iff_toInt_lt, e1]
  omega

/-- So an index array whose entries all lie in `[0, 100000)` is unchanged by the element-wise clip against the two
    broadcast scalars (the form the kernel's host code has: the bounds broadcast from rank 0). -/
theorem clip_array {S : Shape} (hb : S_.BroadcastsInDim S (![] : Fin 0 → Fin S.rank)) (xs : IVec S 32)
    (hr : ∀ i, 0 ≤ (xs i).toInt ∧ (xs i).toInt < 100000) :
    minsi (broadcastInDim S ![] hb (constantI S_ 32 99999#32)) (maxsi (broadcastInDim S ![] hb (constantI S_ 32 0#32)) xs) = xs := by
  funext i
  -- a broadcast constant reads the constant at every index; the clip is element-wise
  show IntOp.minsi 99999#32 (IntOp.maxsi 0#32 (xs i)) = xs i
  exact clip_word (xs i) (hr i).1 (hr i).2

end Cert.Pre_finite_inputs.Decode

end
-- ==== Proof.Bridge.lean ====
/- The two programs' arrays meet: the arrays the kernel's region finds are the reference's own stages.

   Under the precondition every sparse-field index lies in [0, 100000), so the kernel's clip leaves the indices as
   they are, both programs gather the same embedding rows, and narrowing the rows for transport changes nothing on
   the extended reals.  The dense features are converted the same way, and a bias reshaped to rank 2 holds the same
   numbers. -/
import proofs.«419042_j7868380086366_2_alg».proof.Defs
import proofs.«419042_j7868380086366_2_alg».proof.Proof.KerPrefix
import proofs.«419042_j7868380086366_2_alg».proof.Proof.IndexPre
import proofs.«419042_j7868380086366_2_alg».proof.Proof.RefRead
import Idealize.ShloMosaic.Lib.ValueIdx
import Idealize.ShloMosaic.Lib.ValueLayout

noncomputable section

namespace Cert.Bridge

open Idealize.ShloMosaic Idealize.ShloMosaic.ValueIdx Idealize.SL.Sem

/-- Under the kernel program's precondition, every sparse-field index of its integer argument is in range. -/
theorem idx_range_of_pre (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S16384x26.Idx) :
    0 ≤ (Cert.KernelIdeal.Prefix.sparseIdx (m ((c.tc : Thread Cert.KernelIdeal.nD Cert.KernelIdeal.τ).loc Cert.KernelIdeal.main_arg0)) i).toInt
      ∧ (Cert.KernelIdeal.Prefix.sparseIdx (m ((c.tc : Thread Cert.KernelIdeal.nD Cert.KernelIdeal.τ).loc Cert.KernelIdeal.main_arg0)) i).toInt < 100000 :=
  Cert.Pre_finite_inputs.Decode.idx_in_range _ _ _ _ _ _ _ _ _ _ _ _ _ _ _ (hpre c) i

/-- The kernel's converted dense features are the reference's. -/
theorem dense_eq (x0 : IVec Cert.KernelIdeal.S16384x39 32) :
    sitofp (F := Ideal) .f32 (extractStridedSlice Cert.KernelIdeal.S16384x13 ![0, 0] x0 Cert.KernelIdeal.Facts₀.slices_S16384x39_S16384x13_0_0)
      = Cert.ReferenceIdeal.Read.val_main_v1 (F := Ideal) x0 := rfl

/-- The start indices the kernel's host code builds from the unclipped sparse columns are the reference's, for the
    first-order gather: the same operations on the same arrays, the two programs' shape facts apart. -/
theorem startIdx_fo (x0 : IVec Cert.KernelIdeal.S16384x39 32) :
    Cert.KernelIdeal.Prefix.startIdx (Cert.KernelIdeal.Prefix.sparseIdx x0) = Cert.ReferenceIdeal.Read.val_main_v26 (F := Ideal) x0 := rfl

/-- The same for the second-order gather. -/
theorem startIdx_so (x0 : IVec Cert.KernelIdeal.S16384x39 32) :
    Cert.KernelIdeal.Prefix.startIdx (Cert.KernelIdeal.Prefix.sparseIdx x0) = Cert.ReferenceIdeal.Read.val_main_v66 (F := Ideal) x0 := rfl

/-- With every index in range the clip leaves the sparse columns as they are. -/
theorem clip_sparse (x0 : IVec Cert.KernelIdeal.S16384x39 32)
    (hr : ∀ i, 0 ≤ (Cert.KernelIdeal.Prefix.sparseIdx x0 i).toInt ∧ (Cert.KernelIdeal.Prefix.sparseIdx x0 i).toInt < 100000) :
    Cert.KernelIdeal.Prefix.clipIdx (Cert.KernelIdeal.Prefix.sparseIdx x0) = Cert.KernelIdeal.Prefix.sparseIdx x0 :=
  Cert.Pre_finite_inputs.Decode.clip_array (S := Cert.KernelIdeal.S16384x26) Cert.KernelIdeal.Facts₀.bcast_S_S16384x26
    (Cert.KernelIdeal.Prefix.sparseIdx x0) hr

/-- With every index in range the kernel's narrowed gather of the first-order table is the reference's gather. -/
theorem gather_fo_eq (x0 : IVec Cert.KernelIdeal.S16384x39 32) (E : FVec Ideal Cert.KernelIdeal.S26x100000x16 .f32)
    (hr : ∀ i, 0 ≤ (Cert.KernelIdeal.Prefix.sparseIdx x0 i).toInt ∧ (Cert.KernelIdeal.Prefix.sparseIdx x0 i).toInt < 100000)
    (i : Cert.KernelIdeal.S16384x26x16.Idx) :
    (truncf .bf16 (Cert.KernelIdeal.Prefix.gathered E (Cert.KernelIdeal.Prefix.clipIdx (Cert.KernelIdeal.Prefix.sparseIdx x0))) Cert.KernelIdeal.Facts₀.bitsLt_bf16_f32
        : FVec Ideal Cert.KernelIdeal.S16384x26x16 .bf16) i
      = Cert.ReferenceIdeal.Read.val_main_v27 (F := Ideal) x0 E i := by
  rw [clip_sparse x0 hr]
  show Cert.KernelIdeal.Prefix.gathered E (Cert.KernelIdeal.Prefix.sparseIdx x0) i = _
  unfold Cert.KernelIdeal.Prefix.gathered Cert.ReferenceIdeal.Read.val_main_v27
  rw [startIdx_fo]
  rfl

/-- The same for the second-order table. -/
theorem gather_so_eq (x0 : IVec Cert.KernelIdeal.S16384x39 32) (E : FVec Ideal Cert.KernelIdeal.S26x100000x16 .f32)
    (hr : ∀ i, 0 ≤ (Cert.KernelIdeal.Prefix.sparseIdx x0 i).toInt ∧ (Cert.KernelIdeal.Prefix.sparseIdx x0 i).toInt < 100000)
    (i : Cert.KernelIdeal.S16384x26x16.Idx) :
    (truncf .bf16 (Cert.KernelIdeal.Prefix.gathered E (Cert.KernelIdeal.Prefix.clipIdx (Cert.KernelIdeal.Prefix.sparseIdx x0))) Cert.KernelIdeal.Facts₀.bitsLt_bf16_f32
        : FVec Ideal Cert.KernelIdeal.S16384x26x16 .bf16) i
      = Cert.ReferenceIdeal.Read.val_main_v67 (F := Ideal) x0 E i := by
  rw [clip_sparse x0 hr]
  show Cert.KernelIdeal.Prefix.gathered E (Cert.KernelIdeal.Prefix.sparseIdx x0) i = _
  unfold Cert.KernelIdeal.Prefix.gathered Cert.ReferenceIdeal.Read.val_main_v67
  rw [startIdx_so]
  rfl

/-- A one-element bias reshaped to 1 × 1 holds the same number. -/
theorem bias1 (x : FVec Ideal Cert.KernelIdeal.S1 .f32) :
    shapeCast Cert.KernelIdeal.S1x1 x Cert.KernelIdeal.Facts₀.shapeCasts_S1_S1x1 (ix2 (0 : Fin 1) (0 : Fin 1)) = x (ix1 (0 : Fin 1)) :=
  shapeCast_a_1a_apply x _ (0 : Fin 1) (0 : Fin 1)

/-- A 400-element bias reshaped to 1 × 400 holds the same numbers. -/
theorem bias400 (x : FVec Ideal Cert.KernelIdeal.S400 .f32) (n : Fin 400) :
    shapeCast Cert.KernelIdeal.S1x400 x Cert.KernelIdeal.Facts₀.shapeCasts_S400_S1x400 (ix2 (0 : Fin 1) n) = x (ix1 n) :=
  shapeCast_a_1a_apply x _ (0 : Fin 1) n

end Cert.Bridge

end
-- ==== Proof.RefFeat.lean ====
/- The reference's second-order feature array and first-order term read at a batch row, as the row-wise description
   of the model (Spec.lean), over the reference's own converted dense features and gathered embedding rows. -/
import proofs.«419042_j7868380086366_2_alg».proof.Proof.RefRead
import proofs.«419042_j7868380086366_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Cert.ReferenceIdeal Cert.ReferenceIdeal.Read Idealize.ShloMosaic Idealize.ShloMosaic.ValueIdx
open scoped BigOperators

/-! ### The second-order feature array -/

/-- The flat feature index `(b, j)` is field `j / 16`, number `j % 16` of batch row `b` (624 = 39 · 16). -/
theorem idx_v79_ix (b : Fin 16384) (j : Fin 624) :
    idx_main_v79 (ix2 b j)
      = ix3 b (⟨j.val / 16, by have := j.isLt; omega⟩ : Fin 39) (⟨j.val % 16, Nat.mod_lt _ (by decide)⟩ : Fin 16) := by
  funext a
  match a with
  | ⟨0, _⟩ => exact Fin.ext (by show (b.val * 624 + j.val) / 624 = b.val; have := j.isLt; omega)
  | ⟨1, _⟩ => exact Fin.ext (by show (b.val * 624 + j.val) / 16 % 39 = j.val / 16; have := j.isLt; omega)
  | ⟨2, _⟩ => exact Fin.ext (by show (b.val * 624 + j.val) % 16 = j.val % 16; omega)

/-- A dense field of the second-order part: the converted feature through the field's affine map. -/
theorem v52_at (x0 : (⟨S16384x39, .i32⟩ : BufTy).Contents (Elt Ideal)) (x6 x7 : (⟨S13x16, .f32⟩ : BufTy).Contents (Elt Ideal))
    (b : Fin 16384) (f : Fin 13) (k : Fin 16) :
    val_main_v52 (F := Ideal) x0 x6 x7 (ix3 b f k)
      = DeepFM.denseField (fun f => val_main_v1 (F := Ideal) x0 (ix2 b f)) (fun f k => x6 (ix2 f k)) (fun f k => x7 (ix2 f k)) f k := by
  have e1 : idx_main_v45 (idx_main_v47 (ix3 b f k)) = ix2 b f :=
    funext fun a => Fin.ext (by match a with | ⟨0, _⟩ => rfl | ⟨1, _⟩ => rfl)
  have e2 : idx_main_v46 (idx_main_v48 (ix3 b f k)) = ix2 f k :=
    funext fun a => Fin.ext (by match a with | ⟨0, _⟩ => rfl | ⟨1, _⟩ => rfl)
  have e3 : idx_main_v50 (idx_main_v51 (ix3 b f k)) = ix2 f k :=
    funext fun a => Fin.ext (by match a with | ⟨0, _⟩ => rfl | ⟨1, _⟩ => rfl)
  rw [val_main_v52_apply, val_main_v49_apply, val_main_v47_apply, val_main_v45_apply, val_main_v48_apply,
    val_main_v46_apply, val_main_v51_apply, val_main_v50_apply, e1, e2, e3]
  rfl

/-- A sparse field of the second-order part: the gathered row times the max-norm scale of its own sum of squares. -/
theorem v77_at (x0 : (⟨S16384x39, .i32⟩ : BufTy).Contents (Elt Ideal)) (x8 : (⟨S26x100000x16, .f32⟩ : BufTy).Contents (Elt Ideal))
    (b : Fin 16384) (f : Fin 26) (k : Fin 16) :
    val_main_v77 (F := Ideal) x0 x8 (ix3 b f k)
      = DeepFM.normed (fun k' => val_main_v67 (F := Ideal) x0 x8 (ix3 b f k')) k := by
  have e : ∀ k' : Fin 16, idx_main_call2_v1 (idx_main_call2_v2 (idx_main_v76 (ix3 b f k))) k' = ix3 b f k' := fun k' =>
    funext fun a => Fin.ext (by match a with | ⟨0, _⟩ => rfl | ⟨1, _⟩ => rfl | ⟨2, _⟩ => rfl)
  simp only [val_main_v77_apply, val_main_v76_apply, val_main_v75_apply, val_main_v70_apply, val_main_v74_apply,
    val_main_call3_v1_apply, val_main_call3_v0_apply, val_main_cst_15_apply, val_main_v68_apply, val_main_v69_apply,
    val_main_cst_12_apply, val_main_v73_apply, val_main_cst_14_apply, val_main_v72_apply, val_main_v71_apply,
    val_main_cst_13_apply, val_main_call2_v2_apply, val_main_call2_v1_apply, val_main_call2_cst_apply,
    val_main_call2_v0_apply, e, Ideal.ofBits_def, Ideal.ofBits_zero_f32, zero_add, Ideal.mulf_def, Ideal.addf_def,
    Ideal.hostDivf_def, Ideal.hostUnary_sqrt_def, Ideal.cmpf_def]
  rfl

/-- The joined field array at a dense field. -/
theorem v78_left (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (b : Fin 16384) (f : Fin 39) (k : Fin 16) (h : f.val < 13) :
    val_main_v78 (F := Ideal) x0 x6 x7 x8 (ix3 b f k) = val_main_v52 (F := Ideal) x0 x6 x7 (ix3 b (⟨f.val, h⟩ : Fin 13) k) := by
  unfold val_main_v78
  generalize val_main_v52 (F := Ideal) x0 x6 x7 = y1
  generalize val_main_v77 (F := Ideal) x0 x8 = y2
  exact concatenate_pair_apply_left 1 y1 y2 Gen.concatenates_S16384x13x16_S16384x26x16_S16384x39x16_d1 (ix3 b f k) rfl
    (ix3 b (⟨f.val, h⟩ : Fin 13) k) (fun a => by match a with | ⟨0, _⟩ => rfl | ⟨1, _⟩ => rfl | ⟨2, _⟩ => rfl)

/-- The joined field array at a sparse field. -/
theorem v78_right (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (b : Fin 16384) (f : Fin 39) (k : Fin 16) (h : ¬ f.val < 13) :
    val_main_v78 (F := Ideal) x0 x6 x7 x8 (ix3 b f k)
      = val_main_v77 (F := Ideal) x0 x8 (ix3 b (⟨f.val - 13, by have := f.isLt; omega⟩ : Fin 26) k) := by
  unfold val_main_v78
  generalize val_main_v52 (F := Ideal) x0 x6 x7 = y1
  generalize val_main_v77 (F := Ideal) x0 x8 = y2
  exact concatenate_pair_apply_right 1 y1 y2 Gen.concatenates_S16384x13x16_S16384x26x16_S16384x39x16_d1 (ix3 b f k) rfl rfl
    (ix3 b (⟨f.val - 13, by have := f.isLt; omega⟩ : Fin 26) k)
    (fun a => by
      match a with
      | ⟨0, _⟩ => exact fun _ => rfl
      | ⟨1, _⟩ => exact fun hne => (hne rfl).elim
      | ⟨2, _⟩ => exact fun _ => rfl)
    (by show f.val - 13 + 13 = f.val; omega)

/-- The joined field array is the thirteen dense fields followed by the twenty-six renormalised sparse ones. -/
theorem v78_at (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (b : Fin 16384) (f : Fin 39) (k : Fin 16) :
    val_main_v78 (F := Ideal) x0 x6 x7 x8 (ix3 b f k)
      = DeepFM.catField
          (DeepFM.denseField (fun f => val_main_v1 (F := Ideal) x0 (ix2 b f)) (fun f k => x6 (ix2 f k)) (fun f k => x7 (ix2 f k)))
          (fun f => DeepFM.normed (fun k => val_main_v67 (F := Ideal) x0 x8 (ix3 b f k))) f k := by
  unfold DeepFM.catField
  by_cases h : f.val < 13
  · rw [dif_pos h, v78_left x0 x6 x7 x8 b f k h, v52_at]
  · rw [dif_neg h, v78_right x0 x6 x7 x8 b f k h, v77_at]

/-- Row `b` of the reference's flat feature array is the feature row of that batch row. -/
theorem ref_feat (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (b : Fin 16384) (j : Fin 624) :
    val_main_v79 (F := Ideal) x0 x6 x7 x8 (ix2 b j)
      = DeepFM.featRow (fun f => val_main_v1 (F := Ideal) x0 (ix2 b f)) (fun f k => x6 (ix2 f k)) (fun f k => x7 (ix2 f k))
          (fun f k => val_main_v67 (F := Ideal) x0 x8 (ix3 b f k)) j := by
  rw [val_main_v79_apply, idx_v79_ix, v78_at]
  rfl

/-! ### The first-order term -/

/-- A dense field of the first-order part: the converted feature through the field's affine map. -/
theorem v12_at (x0 : (⟨S16384x39, .i32⟩ : BufTy).Contents (Elt Ideal)) (x1 x2 : (⟨S13x16, .f32⟩ : BufTy).Contents (Elt Ideal))
    (b : Fin 16384) (f : Fin 13) (k : Fin 16) :
    val_main_v12 (F := Ideal) x0 x1 x2 (ix3 b f k)
      = DeepFM.denseField (fun f => val_main_v1 (F := Ideal) x0 (ix2 b f)) (fun f k => x1 (ix2 f k)) (fun f k => x2 (ix2 f k)) f k := by
  have e1 : idx_main_v5 (idx_main_v7 (ix3 b f k)) = ix2 b f :=
    funext fun a => Fin.ext (by match a with | ⟨0, _⟩ => rfl | ⟨1, _⟩ => rfl)
  have e2 : idx_main_v6 (idx_main_v8 (ix3 b f k)) = ix2 f k :=
    funext fun a => Fin.ext (by match a with | ⟨0, _⟩ => rfl | ⟨1, _⟩ => rfl)
  have e3 : idx_main_v10 (idx_main_v11 (ix3 b f k)) = ix2 f k :=
    funext fun a => Fin.ext (by match a with | ⟨0, _⟩ => rfl | ⟨1, _⟩ => rfl)
  rw [val_main_v12_apply, val_main_v9_apply, val_main_v7_apply, val_main_v5_apply, val_main_v8_apply,
    val_main_v6_apply, val_main_v11_apply, val_main_v10_apply, e1, e2, e3]
  rfl

/-- A sparse field of the first-order part: the gathered row times the max-norm scale of its own sum of squares. -/
theorem v37_at (x0 : (⟨S16384x39, .i32⟩ : BufTy).Contents (Elt Ideal)) (x3 : (⟨S26x100000x16, .f32⟩ : BufTy).Contents (Elt Ideal))
    (b : Fin 16384) (f : Fin 26) (k : Fin 16) :
    val_main_v37 (F := Ideal) x0 x3 (ix3 b f k)
      = DeepFM.normed (fun k' => val_main_v27 (F := Ideal) x0 x3 (ix3 b f k')) k := by
  have e : ∀ k' : Fin 16, idx_main_call0_v1 (idx_main_call0_v2 (idx_main_v36 (ix3 b f k))) k' = ix3 b f k' := fun k' =>
    funext fun a => Fin.ext (by match a with | ⟨0, _⟩ => rfl | ⟨1, _⟩ => rfl | ⟨2, _⟩ => rfl)
  simp only [val_main_v37_apply, val_main_v36_apply, val_main_v35_apply, val_main_v30_apply, val_main_v34_apply,
    val_main_call1_v1_apply, val_main_call1_v0_apply, val_main_cst_5_apply, val_main_v28_apply, val_main_v29_apply,
    val_main_cst_apply, val_main_v33_apply, val_main_cst_4_apply, val_main_v32_apply, val_main_v31_apply,
    val_main_cst_3_apply, val_main_call0_v2_apply, val_main_call0_v1_apply, val_main_call0_cst_apply,
    val_main_call0_v0_apply, e, Ideal.ofBits_def, Ideal.ofBits_zero_f32, zero_add, Ideal.mulf_def, Ideal.addf_def,
    Ideal.hostDivf_def, Ideal.hostUnary_sqrt_def, Ideal.cmpf_def]
  rfl

/-- A dense field's sum over its sixteen numbers. -/
theorem v38_at (x0 : (⟨S16384x39, .i32⟩ : BufTy).Contents (Elt Ideal)) (x1 x2 : (⟨S13x16, .f32⟩ : BufTy).Contents (Elt Ideal)) (b : Fin 16384) (f : Fin 13) :
    val_main_v38 (F := Ideal) x0 x1 x2 (ix2 b f)
      = ∑ k : Fin 16, DeepFM.denseField (fun f => val_main_v1 (F := Ideal) x0 (ix2 b f)) (fun f k => x1 (ix2 f k))
          (fun f k => x2 (ix2 f k)) f k := by
  have e : ∀ k : Fin 16, idx_main_v38 (ix2 b f) k = ix3 b f k := fun k =>
    funext fun a => Fin.ext (by match a with | ⟨0, _⟩ => rfl | ⟨1, _⟩ => rfl | ⟨2, _⟩ => rfl)
  rw [val_main_v38_apply, val_main_cst_6_apply, Ideal.ofBits_def, Ideal.ofBits_zero_f32, zero_add]
  exact Finset.sum_congr rfl fun k _ => by rw [e, v12_at]

/-- A sparse field's sum over its sixteen renormalised numbers. -/
theorem v39_at (x0 : (⟨S16384x39, .i32⟩ : BufTy).Contents (Elt Ideal)) (x3 : (⟨S26x100000x16, .f32⟩ : BufTy).Contents (Elt Ideal)) (b : Fin 16384) (f : Fin 26) :
    val_main_v39 (F := Ideal) x0 x3 (ix2 b f)
      = ∑ k : Fin 16, DeepFM.normed (fun k' => val_main_v27 (F := Ideal) x0 x3 (ix3 b f k')) k := by
  have e : ∀ k : Fin 16, idx_main_v39 (ix2 b f) k = ix3 b f k := fun k =>
    funext fun a => Fin.ext (by match a with | ⟨0, _⟩ => rfl | ⟨1, _⟩ => rfl | ⟨2, _⟩ => rfl)
  rw [val_main_v39_apply, val_main_cst_7_apply, Ideal.ofBits_def, Ideal.ofBits_zero_f32, zero_add]
  exact Finset.sum_congr rfl fun k _ => by rw [e, v37_at]

/-- The joined field sums at a dense field. -/
theorem v40_left (x0 : (⟨S16384x39, .i32⟩ : BufTy).Contents (Elt Ideal)) (x1 x2 : (⟨S13x16, .f32⟩ : BufTy).Contents (Elt Ideal))
    (x3 : (⟨S26x100000x16, .f32⟩ : BufTy).Contents (Elt Ideal)) (b : Fin 16384) (f : Fin 39) (h : f.val < 13) :
    val_main_v40 (F := Ideal) x0 x1 x2 x3 (ix2 b f) = val_main_v38 (F := Ideal) x0 x1 x2 (ix2 b (⟨f.val, h⟩ : Fin 13)) := by
  unfold val_main_v40
  generalize val_main_v38 (F := Ideal) x0 x1 x2 = y1
  generalize val_main_v39 (F := Ideal) x0 x3 = y2
  exact concatenate_pair_apply_left 1 y1 y2 Gen.concatenates_S16384x13_S16384x26_S16384x39_d1 (ix2 b f) rfl
    (ix2 b (⟨f.val, h⟩ : Fin 13)) (fun a => by match a with | ⟨0, _⟩ => rfl | ⟨1, _⟩ => rfl)

/-- The joined field sums at a sparse field. -/
theorem v40_right (x0 : (⟨S16384x39, .i32⟩ : BufTy).Contents (Elt Ideal)) (x1 x2 : (⟨S13x16, .f32⟩ : BufTy).Contents (Elt Ideal))
    (x3 : (⟨S26x100000x16, .f32⟩ : BufTy).Contents (Elt Ideal)) (b : Fin 16384) (f : Fin 39) (h : ¬ f.val < 13) :
    val_main_v40 (F := Ideal) x0 x1 x2 x3 (ix2 b f)
      = val_main_v39 (F := Ideal) x0 x3 (ix2 b (⟨f.val - 13, by have := f.isLt; omega⟩ : Fin 26)) := by
  unfold val_main_v40
  generalize val_main_v38 (F := Ideal) x0 x1 x2 = y1
  generalize val_main_v39 (F := Ideal) x0 x3 = y2
  exact concatenate_pair_apply_right 1 y1 y2 Gen.concatenates_S16384x13_S16384x26_S16384x39_d1 (ix2 b f) rfl rfl
    (ix2 b (⟨f.val - 13, by have := f.isLt; omega⟩ : Fin 26))
    (fun a => by
      match a with
      | ⟨0, _⟩ => exact fun _ => rfl
      | ⟨1, _⟩ => exact fun hne => (hne rfl).elim)
    (by show f.val - 13 + 13 = f.val; omega)

/-- The joined field sums: thirteen dense field sums followed by twenty-six sparse ones. -/
theorem v40_at (x0 : (⟨S16384x39, .i32⟩ : BufTy).Contents (Elt Ideal)) (x1 x2 : (⟨S13x16, .f32⟩ : BufTy).Contents (Elt Ideal))
    (x3 : (⟨S26x100000x16, .f32⟩ : BufTy).Contents (Elt Ideal)) (b : Fin 16384) (f : Fin 39) :
    val_main_v40 (F := Ideal) x0 x1 x2 x3 (ix2 b f)
      = DeepFM.catField
          (fun f => ∑ k : Fin 16, DeepFM.denseField (fun f => val_main_v1 (F := Ideal) x0 (ix2 b f)) (fun f k => x1 (ix2 f k))
            (fun f k => x2 (ix2 f k)) f k)
          (fun f => ∑ k : Fin 16, DeepFM.normed (fun k' => val_main_v27 (F := Ideal) x0 x3 (ix3 b f k')) k) f := by
  unfold DeepFM.catField
  by_cases h : f.val < 13
  · rw [dif_pos h, v40_left x0 x1 x2 x3 b f h, v38_at]
  · rw [dif_neg h, v40_right x0 x1 x2 x3 b f h, v39_at]

/-- Row `b` of the reference's first-order output. -/
theorem ref_first (x0 : (⟨S16384x39, .i32⟩ : BufTy).Contents (Elt Ideal)) (x1 x2 : (⟨S13x16, .f32⟩ : BufTy).Contents (Elt Ideal))
    (x3 : (⟨S26x100000x16, .f32⟩ : BufTy).Contents (Elt Ideal)) (x4 : (⟨S39x1, .f32⟩ : BufTy).Contents (Elt Ideal))
    (x5 : (⟨S1, .f32⟩ : BufTy).Contents (Elt Ideal)) (b : Fin 16384) :
    val_main_v44 (F := Ideal) x0 x1 x2 x3 x4 x5 (ix2 b (0 : Fin 1))
      = DeepFM.firstRow (fun f => val_main_v1 (F := Ideal) x0 (ix2 b f)) (fun f k => x1 (ix2 f k)) (fun f k => x2 (ix2 f k))
          (fun f k => val_main_v27 (F := Ideal) x0 x3 (ix3 b f k)) (fun f => x4 (ix2 f (0 : Fin 1))) (x5 (ix1 (0 : Fin 1))) := by
  have el : ∀ k : Fin 39, lidx_main_v41 (ix2 b (0 : Fin 1)) k = ix2 b k := fun k =>
    funext fun a => Fin.ext (by match a with | ⟨0, _⟩ => rfl | ⟨1, _⟩ => rfl)
  have er : ∀ k : Fin 39, ridx_main_v41 (ix2 b (0 : Fin 1)) k = ix2 k (0 : Fin 1) := fun k =>
    funext fun a => Fin.ext (by match a with | ⟨0, _⟩ => rfl | ⟨1, _⟩ => rfl)
  have e5 : idx_main_v42 (idx_main_v43 (ix2 b (0 : Fin 1))) = ix1 (0 : Fin 1) :=
    funext fun a => Fin.ext (by match a with | ⟨0, _⟩ => rfl)
  rw [val_main_v44_apply, val_main_v43_apply, val_main_v42_apply, val_main_v41_apply, e5]
  simp only [el, er, v40_at]
  rfl

end Cert.ReferenceIdeal.Rows

end
-- ==== Proof.RefDeep.lean ====
/- The reference's deep term, second-order scalar and final sum read at an index, over its own flat feature array. -/
import proofs.«419042_j7868380086366_2_alg».proof.Proof.RefRead
import proofs.«419042_j7868380086366_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Cert.ReferenceIdeal Cert.ReferenceIdeal.Read Idealize.ShloMosaic Idealize.ShloMosaic.ValueIdx
open scoped BigOperators

/-! ## Indices: the composed index maps of the reference's stages, by coordinates -/

/-- A rank-1 index set is its one coordinate range, so a sum over it is the sum over the coordinate. -/
theorem deep_sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- Column `j` of the feature array, summed over the batch: term `k` is row `k`, column `j`. -/
theorem deep_idx80 (j : Fin 624) (k : Fin 16384) : idx_main_v80 (ix1 j) k = ix2 k j := by
  funext a; match a with | ⟨0, _⟩ => rfl | ⟨1, _⟩ => rfl
/-- The same for the column sum of squares. -/
theorem deep_idx83 (j : Fin 624) (k : Fin 16384) : idx_main_v83 (ix1 j) k = ix2 k j := by
  funext a; match a with | ⟨0, _⟩ => rfl | ⟨1, _⟩ => rfl

/-- First layer: entry `(b, n)` contracts row `b` of the features … -/
theorem deep_lidx87 (b : Fin 16384) (n : Fin 400) (j : Fin 624) : lidx_main_v87 (ix2 b n) j = ix2 b j := by
  funext a; match a with | ⟨0, _⟩ => rfl | ⟨1, _⟩ => rfl
/-- … with column `n` of the first weight matrix … -/
theorem deep_ridx87 (b : Fin 16384) (n : Fin 400) (j : Fin 624) : ridx_main_v87 (ix2 b n) j = ix2 j n := by
  funext a; match a with | ⟨0, _⟩ => rfl | ⟨1, _⟩ => rfl
/-- … and adds entry `n` of the first bias, broadcast along the batch. -/
theorem deep_idx89 (b : Fin 16384) (n : Fin 400) : idx_main_v88 (idx_main_v89 (ix2 b n)) = ix1 n := by
  funext a; match a with | ⟨0, _⟩ => rfl

/-- Second layer: row `b` of the rectified first layer … -/
theorem deep_lidx92 (b : Fin 16384) (n k : Fin 400) : lidx_main_v92 (ix2 b n) k = ix2 b k := by
  funext a; match a with | ⟨0, _⟩ => rfl | ⟨1, _⟩ => rfl
/-- … with column `n` of the second weight matrix … -/
theorem deep_ridx92 (b : Fin 16384) (n k : Fin 400) : ridx_main_v92 (ix2 b n) k = ix2 k n := by
  funext a; match a with | ⟨0, _⟩ => rfl | ⟨1, _⟩ => rfl
/-- … and entry `n` of the second bias. -/
theorem deep_idx94 (b : Fin 16384) (n : Fin 400) : idx_main_v93 (idx_main_v94 (ix2 b n)) = ix1 n := by
  funext a; match a with | ⟨0, _⟩ => rfl

/-- Last layer: row `b` of the rectified second layer … -/
theorem deep_lidx97 (b : Fin 16384) (k : Fin 400) : lidx_main_v97 (ix2 b (0 : Fin 1)) k = ix2 b k := by
  funext a; match a with | ⟨0, _⟩ => rfl | ⟨1, _⟩ => rfl
/-- … with the one column of the last weight matrix … -/
theorem deep_ridx97 (b : Fin 16384) (k : Fin 400) : ridx_main_v97 (ix2 b (0 : Fin 1)) k = ix2 k (0 : Fin 1) := by
  funext a; match a with | ⟨0, _⟩ => rfl | ⟨1, _⟩ => rfl
/-- … and the one entry of the last bias. -/
theorem deep_idx99 (b : Fin 16384) : idx_main_v98 (idx_main_v99 (ix2 b (0 : Fin 1))) = ix1 (0 : Fin 1) := by
  funext a; match a with | ⟨0, _⟩ => rfl

/-! ## The deep term, layer by layer -/

/-- The rectified first layer at `(b, n)`: `max (∑ⱼ feat b j · W₀ j n + b₀ n) 0`. -/
theorem ref_layer1 (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (x9 : (⟨S624x400, .f32⟩ : BufTy).Contents (Elt Ideal))
    (x10 : (⟨S400, .f32⟩ : BufTy).Contents (Elt Ideal)) (b : Fin 16384) (n : Fin 400) :
    val_main_v91 (F := Ideal) x0 x6 x7 x8 x9 x10 (ix2 b n)
      = DeepFM.relu (DeepFM.layer (fun j => val_main_v79 (F := Ideal) x0 x6 x7 x8 (ix2 b j)) (fun k n => x9 (ix2 k n))
          (fun n => x10 (ix1 n)) n) := by
  rw [val_main_v91_apply, val_main_v90_apply, val_main_v87_apply, val_main_v89_apply, val_main_v88_apply,
    val_main_call4_v0_apply, val_main_call4_cst_apply]
  simp only [Ideal.maximumf_def, Ideal.addf_def, Ideal.ofBits_def, deep_lidx87, deep_ridx87, deep_idx89]
  generalize val_main_v79 (F := Ideal) x0 x6 x7 x8 = A
  unfold DeepFM.relu DeepFM.layer
  rfl

/-- The rectified second layer at `(b, n)`, over the rectified first layer of the same row. -/
theorem ref_layer2 (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (x9 : (⟨S624x400, .f32⟩ : BufTy).Contents (Elt Ideal))
    (x10 : (⟨S400, .f32⟩ : BufTy).Contents (Elt Ideal)) (x11 : (⟨S400x400, .f32⟩ : BufTy).Contents (Elt Ideal))
    (x12 : (⟨S400, .f32⟩ : BufTy).Contents (Elt Ideal)) (b : Fin 16384) (n : Fin 400) :
    val_main_v96 (F := Ideal) x0 x6 x7 x8 x9 x10 x11 x12 (ix2 b n)
      = DeepFM.relu (DeepFM.layer
          (fun k => DeepFM.relu (DeepFM.layer (fun j => val_main_v79 (F := Ideal) x0 x6 x7 x8 (ix2 b j)) (fun k n => x9 (ix2 k n))
            (fun n => x10 (ix1 n)) k))
          (fun k n => x11 (ix2 k n)) (fun n => x12 (ix1 n)) n) := by
  rw [val_main_v96_apply, val_main_v95_apply, val_main_v92_apply, val_main_v94_apply, val_main_v93_apply,
    val_main_call5_v0_apply, val_main_call5_cst_apply]
  simp only [Ideal.maximumf_def, Ideal.addf_def, Ideal.ofBits_def, deep_lidx92, deep_ridx92, deep_idx94, ref_layer1]
  generalize val_main_v79 (F := Ideal) x0 x6 x7 x8 = A
  unfold DeepFM.relu DeepFM.layer
  rfl

/-- Row `b` of the reference's deep output is the deep term of row `b` of its feature array. -/
theorem ref_mlp (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) (x9 : (⟨S624x400, .f32⟩ : BufTy).Contents (Elt Ideal))
    (x10 : (⟨S400, .f32⟩ : BufTy).Contents (Elt Ideal)) (x11 : (⟨S400x400, .f32⟩ : BufTy).Contents (Elt Ideal))
    (x12 : (⟨S400, .f32⟩ : BufTy).Contents (Elt Ideal)) (x13 : (⟨S400x1, .f32⟩ : BufTy).Contents (Elt Ideal))
    (x14 : (⟨S1, .f32⟩ : BufTy).Contents (Elt Ideal)) (b : Fin 16384) :
    val_main_v100 (F := Ideal) x0 x6 x7 x8 x9 x10 x11 x12 x13 x14 (ix2 b (0 : Fin 1))
      = DeepFM.mlpRow (fun j => val_main_v79 (F := Ideal) x0 x6 x7 x8 (ix2 b j)) (fun k n => x9 (ix2 k n)) (fun n => x10 (ix1 n))
          (fun k n => x11 (ix2 k n)) (fun n => x12 (ix1 n)) (fun k => x13 (ix2 k (0 : Fin 1))) (x14 (ix1 (0 : Fin 1))) := by
  rw [val_main_v100_apply, val_main_v97_apply, val_main_v99_apply, val_main_v98_apply]
  simp only [Ideal.addf_def, deep_lidx97, deep_ridx97, deep_idx99, ref_layer2]
  generalize val_main_v79 (F := Ideal) x0 x6 x7 x8 = A
  unfold DeepFM.mlpRow
  rfl

/-- The reference's second-order scalar, over its feature array. -/
theorem ref_second (x0 : (⟨S16384x39, .i32⟩ : BufTy).Contents (Elt Ideal)) (x6 x7 : (⟨S13x16, .f32⟩ : BufTy).Contents (Elt Ideal))
    (x8 : (⟨S26x100000x16, .f32⟩ : BufTy).Contents (Elt Ideal)) :
    val_main_v86 (F := Ideal) x0 x6 x7 x8 ix0
      = DeepFM.secondRef (fun b j => val_main_v79 (F := Ideal) x0 x6 x7 x8 (ix2 b j)) := by
  -- a column's sum and its sum of squares, each without the reduction's initial zero
  have h80 : ∀ j : Fin 624, val_main_v80 (F := Ideal) x0 x6 x7 x8 (ix1 j)
      = ∑ b : Fin 16384, val_main_v79 (F := Ideal) x0 x6 x7 x8 (ix2 b j) := by
    intro j
    rw [val_main_v80_apply, val_main_cst_16_apply]
    simp only [Ideal.ofBits_def, Ideal.ofBits_zero_f32, zero_add, deep_idx80]
  have h83 : ∀ j : Fin 624, val_main_v83 (F := Ideal) x0 x6 x7 x8 (ix1 j)
      = ∑ b : Fin 16384, val_main_v79 (F := Ideal) x0 x6 x7 x8 (ix2 b j) * val_main_v79 (F := Ideal) x0 x6 x7 x8 (ix2 b j) := by
    intro j
    rw [val_main_v83_apply, val_main_cst_17_apply]
    simp only [Ideal.ofBits_def, Ideal.ofBits_zero_f32, zero_add, deep_idx83, val_main_v82_apply, Ideal.mulf_def]
  rw [val_main_v86_apply, val_main_v85_apply, val_main_cst_19_apply, val_main_cst_18_apply, deep_sum_idx1]
  simp only [Ideal.mulf_def, Ideal.subf_def, Ideal.ofBits_def, Ideal.ofBits_zero_f32, zero_add, val_main_v84_apply,
    val_main_v81_apply, h80, h83]
  generalize val_main_v79 (F := Ideal) x0 x6 x7 x8 = A
  unfold DeepFM.secondRef
  rfl

/-- The reference's result at row `b`: (first-order + second-order scalar) + deep. -/
theorem ref_out (x0 : (⟨S16384x39, .i32⟩ : BufTy).Contents (Elt Ideal)) (x1 x2 : (⟨S13x16, .f32⟩ : BufTy).Contents (Elt Ideal))
    (x3 : (⟨S26x100000x16, .f32⟩ : BufTy).Contents (Elt Ideal)) (x4 : (⟨S39x1, .f32⟩ : BufTy).Contents (Elt Ideal))
    (x5 : (⟨S1, .f32⟩ : BufTy).Contents (Elt Ideal)) (x6 x7 : (⟨S13x16, .f32⟩ : BufTy).Contents (Elt Ideal))
    (x8 : (⟨S26x100000x16, .f32⟩ : BufTy).Contents (Elt Ideal)) (x9 : (⟨S624x400, .f32⟩ : BufTy).Contents (Elt Ideal))
    (x10 : (⟨S400, .f32⟩ : BufTy).Contents (Elt Ideal)) (x11 : (⟨S400x400, .f32⟩ : BufTy).Contents (Elt Ideal))
    (x12 : (⟨S400, .f32⟩ : BufTy).Contents (Elt Ideal)) (x13 : (⟨S400x1, .f32⟩ : BufTy).Contents (Elt Ideal))
    (x14 : (⟨S1, .f32⟩ : BufTy).Contents (Elt Ideal)) (b : Fin 16384) :
    val_main_v103 (F := Ideal) x0 x1 x2 x3 x4 x5 x6 x7 x8 x9 x10 x11 x12 x13 x14 (ix2 b (0 : Fin 1))
      = (val_main_v44 (F := Ideal) x0 x1 x2 x3 x4 x5 (ix2 b (0 : Fin 1)) + val_main_v86 (F := Ideal) x0 x6 x7 x8 ix0)
        + val_main_v100 (F := Ideal) x0 x6 x7 x8 x9 x10 x11 x12 x13 x14 (ix2 b (0 : Fin 1)) := by
  rw [val_main_v103_apply, val_main_v102_apply, val_main_v101_apply]
  simp only [Ideal.addf_def]

end Cert.ReferenceIdeal.Rows

end
-- ==== Proof.SpecAlgebra.lean ====
/- The two ways of forming the second-order scalar agree on the extended reals.

   Splitting the batch sum into 8 blocks of 2048 rows only regroups a finite sum.  Moving the subtraction out of
   the sum over columns, `∑_j (a_j − b_j) = ∑_j a_j − ∑_j b_j`, is valid because every `b_j` is a sum of squares,
   hence never `−∞`: on the extended reals `−(x + y) = −x − y` can only fail when one of `x`, `y` is `+∞` and the other `−∞`. -/
import proofs.«419042_j7868380086366_2_alg».proof.Proof.Spec
import Mathlib.Data.EReal.Operations
import Mathlib.Algebra.BigOperators.Fin
import Mathlib.Logic.Equiv.Fin.Basic
import Mathlib.Data.Fintype.BigOperators
import Mathlib.Algebra.Order.BigOperators.Group.Finset

noncomputable section

namespace DeepFM

open scoped BigOperators

/-- Batch row `b` is row `b % 2048` of block `b / 2048`, and every (block, row) pair arises once:
    the pairs and the batch rows are in bijection through `blkRow`. -/
def blkEquiv : Fin 8 × Fin 2048 ≃ Fin 16384 where
  toFun p := blkRow p.1 p.2
  invFun b := (⟨b.val / 2048, by have := b.isLt; omega⟩, ⟨b.val % 2048, Nat.mod_lt _ (by decide)⟩)
  left_inv := by
    rintro ⟨t, r⟩
    have ht := t.isLt
    have hr := r.isLt
    refine Prod.ext (Fin.ext ?_) (Fin.ext ?_)
    · show (2048 * t.val + r.val) / 2048 = t.val
      omega
    · show (2048 * t.val + r.val) % 2048 = r.val
      omega
  right_inv := by
    intro b
    refine Fin.ext ?_
    show 2048 * (b.val / 2048) + b.val % 2048 = b.val
    omega

/-- A sum over the 16384 batch rows is the sum over the 8 blocks of the sums over each block's 2048 rows. -/
theorem sum_rows_blocks {M : Type*} [AddCommMonoid M] (f : Fin 16384 → M) :
    ∑ b, f b = ∑ t : Fin 8, ∑ r : Fin 2048, f (blkRow t r) := by
  calc ∑ b, f b = ∑ p : Fin 8 × Fin 2048, f (blkEquiv p) := (Equiv.sum_comp blkEquiv f).symm
    _ = ∑ t : Fin 8, ∑ r : Fin 2048, f (blkRow t r) := Fintype.sum_prod_type _

/-- A square is never negative on the extended reals. -/
theorem mul_self_nonneg' (x : EReal) : 0 ≤ x * x :=
  EReal.mul_nonneg_iff.mpr ((le_total 0 x).imp (fun h => ⟨h, h⟩) (fun h => ⟨h, h⟩))

/-- A non-negative extended real is not `−∞`. -/
theorem ne_bot_of_nonneg {x : EReal} (h : 0 ≤ x) : x ≠ ⊥ :=
  (EReal.bot_lt_zero.trans_le h).ne'

/-- Negation moves out of a finite sum of non-negative terms: no partial sum is `−∞`,
    so `−(x + y) = −x − y` applies at every step. -/
theorem sum_neg_of_nonneg {ι : Type*} (s : Finset ι) (b : ι → EReal) (hb : ∀ i ∈ s, 0 ≤ b i) :
    ∑ i ∈ s, -b i = -∑ i ∈ s, b i := by
  classical
  induction s using Finset.induction_on with
  | empty => simp
  | insert i s hi ih =>
    have hbs : ∀ j ∈ s, 0 ≤ b j := fun j hj => hb j (Finset.mem_insert_of_mem hj)
    have h1 : b i ≠ ⊥ := ne_bot_of_nonneg (hb i (Finset.mem_insert_self i s))
    have h2 : ∑ j ∈ s, b j ≠ ⊥ := ne_bot_of_nonneg (Finset.sum_nonneg hbs)
    rw [Finset.sum_insert hi, Finset.sum_insert hi, ih hbs, EReal.neg_add (Or.inl h1) (Or.inr h2),
      sub_eq_add_neg]

/-- Subtraction of non-negative terms moves out of a finite sum. -/
theorem sum_sub_of_nonneg {ι : Type*} (s : Finset ι) (a b : ι → EReal) (hb : ∀ i ∈ s, 0 ≤ b i) :
    ∑ i ∈ s, (a i - b i) = ∑ i ∈ s, a i - ∑ i ∈ s, b i := by
  simp only [sub_eq_add_neg]
  rw [Finset.sum_add_distrib, sum_neg_of_nonneg s b hb]

/-- The kernel's block-wise form of the second-order scalar is the reference's column-wise form. -/
theorem second_eq (A : Fin 16384 → Fin 624 → EReal) : secondKer A = secondRef A := by
  unfold secondKer secondRef
  refine congrArg (fun z => litHalf * z) ?_
  -- the reference's side: the subtraction leaves the sum over columns, every subtracted term being a sum of squares
  rw [sum_sub_of_nonneg Finset.univ (fun j => (∑ b, A b j) * (∑ b, A b j)) (fun j => ∑ b, A b j * A b j)
    (fun j _ => Finset.sum_nonneg (fun b _ => mul_self_nonneg' (A b j)))]
  refine congrArg₂ (fun x y : EReal => x - y) ?_ ?_
  · -- column sums: the blocks regroup the batch sum
    exact Finset.sum_congr rfl (fun j _ => by rw [← sum_rows_blocks (fun b => A b j)])
  · -- the total of squares: rows of a block and columns are summed in either order
    calc ∑ t, ∑ p : Fin 2048 × Fin 624, A (blkRow t p.1) p.2 * A (blkRow t p.1) p.2
        = ∑ t : Fin 8, ∑ r : Fin 2048, ∑ j : Fin 624, A (blkRow t r) j * A (blkRow t r) j :=
          Finset.sum_congr rfl (fun t _ => Fintype.sum_prod_type _)
      _ = ∑ b : Fin 16384, ∑ j : Fin 624, A b j * A b j :=
          (sum_rows_blocks (fun b => ∑ j : Fin 624, A b j * A b j)).symm
      _ = ∑ j : Fin 624, ∑ b : Fin 16384, A b j * A b j := Finset.sum_comm

end DeepFM

end
-- ==== Proof.Assemble.lean ====
/- Kernel and reference agree, batch row by batch row.

   At row `b` the kernel's result is `(F b + M b) + S'` and the reference's is `(F b + S) + M b`, where `F` is the
   first-order term, `M` the deep term of the row's features, and `S'`, `S` the two forms of the second-order scalar of
   the whole feature array.  Under the precondition both programs read the same embedding rows, so `F`, `M` and the
   feature array are the same on both sides; `S' = S` is the regrouping of finite sums; and addition of extended reals
   is commutative and associative. -/
import proofs.«419042_j7868380086366_2_alg».proof.Defs
import proofs.«419042_j7868380086366_2_alg».proof.Proof.KerWhole
import proofs.«419042_j7868380086366_2_alg».proof.Proof.KerPrefix
import proofs.«419042_j7868380086366_2_alg».proof.Proof.Bridge
import proofs.«419042_j7868380086366_2_alg».proof.Proof.RefFeat
import proofs.«419042_j7868380086366_2_alg».proof.Proof.RefDeep
import proofs.«419042_j7868380086366_2_alg».proof.Proof.SpecAlgebra
import proofs.«419042_j7868380086366_2_alg».proof.Proof.RefRun
import proofs.«419042_j7868380086366_2_alg».proof.Proof.RefRead

set_option maxRecDepth 16384

noncomputable section

namespace Cert.Assemble

open Idealize.ShloMosaic Idealize.ShloMosaic.TcCoe Idealize.ShloMosaic.ValueIdx Idealize.SL.Sem
open Cert.KernelIdeal Cert.KernelIdeal.Gen Cert.KernelIdeal.Whole
open scoped BigOperators

variable (m : (ℓ : Loc nD τ sig) → Buf (Elt Ideal) ℓ)

/-- The kernel's result at batch row `b` is the reference's stage `%103` of the same arguments there. -/
theorem value_eq (hpre : Cert.Pre_KernelIdeal m) (c : Dev nD) (b : Fin 16384) :
    Tail.tail (G15 m c) (G16 m c) (G17 m c) (ix2 b (0 : Fin 1))
      = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (ix2 b (0 : Fin 1)) := by
  have hr := Cert.Bridge.idx_range_of_pre m hpre c
  -- the arrays the region finds are the reference's own stages and arguments
  have eXd : V m c main_v1 = Cert.ReferenceIdeal.Read.val_main_v1 (F := Ideal) (m ((c.tc : Thread nD τ).loc main_arg0)) :=
    (Prefix.V_v1 m c).trans (Cert.Bridge.dense_eq _)
  have eGf : ∀ i, V m c main_v21 i = Cert.ReferenceIdeal.Read.val_main_v27 (F := Ideal) (m ((c.tc : Thread nD τ).loc main_arg0)) (m ((c.tc : Thread nD τ).loc main_arg3)) i :=
    fun i => (congrFun (Prefix.V_v21 m c) i).trans (Cert.Bridge.gather_fo_eq _ _ hr i)
  have eGs : ∀ i, V m c main_v37 i = Cert.ReferenceIdeal.Read.val_main_v67 (F := Ideal) (m ((c.tc : Thread nD τ).loc main_arg0)) (m ((c.tc : Thread nD τ).loc main_arg8)) i :=
    fun i => (congrFun (Prefix.V_v37 m c) i).trans (Cert.Bridge.gather_so_eq _ _ hr i)
  have eB5 : V m c main_v38 (ix2 (0 : Fin 1) (0 : Fin 1)) = (m ((c.tc : Thread nD τ).loc main_arg5)) (ix1 (0 : Fin 1)) :=
    (congrFun (Prefix.V_v38 m c) _).trans (Cert.Bridge.bias1 _)
  have eB10 : ∀ n : Fin 400, V m c main_v39 (ix2 (0 : Fin 1) n) = (m ((c.tc : Thread nD τ).loc main_arg10)) (ix1 n) :=
    fun n => (congrFun (Prefix.V_v39 m c) _).trans (Cert.Bridge.bias400 _ n)
  have eB12 : ∀ n : Fin 400, V m c main_v40 (ix2 (0 : Fin 1) n) = (m ((c.tc : Thread nD τ).loc main_arg12)) (ix1 n) :=
    fun n => (congrFun (Prefix.V_v40 m c) _).trans (Cert.Bridge.bias400 _ n)
  have eB14 : V m c main_v41 (ix2 (0 : Fin 1) (0 : Fin 1)) = (m ((c.tc : Thread nD τ).loc main_arg14)) (ix1 (0 : Fin 1)) :=
    (congrFun (Prefix.V_v41 m c) _).trans (Cert.Bridge.bias1 _)
  -- the reference's feature array is the kernel's
  have hA : (fun (b : Fin 16384) (j : Fin 624) =>
      Cert.ReferenceIdeal.Read.val_main_v79 (F := Ideal) (m ((c.tc : Thread nD τ).loc main_arg0)) (m ((c.tc : Thread nD τ).loc main_arg6)) (m ((c.tc : Thread nD τ).loc main_arg7)) (m ((c.tc : Thread nD τ).loc main_arg8)) (ix2 b j)) = featOf m c := by
    funext b j
    rw [Cert.ReferenceIdeal.Rows.ref_feat]
    unfold featOf featArr
    simp only [eXd, eGs, V_main_arg6 m c, V_main_arg7 m c]
  have hAb : (fun (j : Fin 624) =>
      Cert.ReferenceIdeal.Read.val_main_v79 (F := Ideal) (m ((c.tc : Thread nD τ).loc main_arg0)) (m ((c.tc : Thread nD τ).loc main_arg6)) (m ((c.tc : Thread nD τ).loc main_arg7)) (m ((c.tc : Thread nD τ).loc main_arg8)) (ix2 b j)) = featOf m c b :=
    congrFun hA b
  -- the kernel's side: per-row value plus the block-wise second-order scalar
  have hS : DeepFM.litHalf * ((∑ j : Fin 624, (∑ t : Fin 8, G16 m c (ix3 t (0 : Fin 1) j)) * (∑ t : Fin 8, G16 m c (ix3 t (0 : Fin 1) j)))
      - ∑ t : Fin 8, G17 m c (ix3 t (0 : Fin 1) (0 : Fin 1))) = DeepFM.secondKer (featOf m c) := by
    unfold DeepFM.secondKer G16 G17 colArr sqArr
    rfl
  have hP : G15 m c (ix2 b (0 : Fin 1))
      = DeepFM.firstRow (fun f => Cert.ReferenceIdeal.Read.val_main_v1 (F := Ideal) (m ((c.tc : Thread nD τ).loc main_arg0)) (ix2 b f)) (fun f k => (m ((c.tc : Thread nD τ).loc main_arg1)) (ix2 f k))
            (fun f k => (m ((c.tc : Thread nD τ).loc main_arg2)) (ix2 f k)) (fun f k => Cert.ReferenceIdeal.Read.val_main_v27 (F := Ideal) (m ((c.tc : Thread nD τ).loc main_arg0)) (m ((c.tc : Thread nD τ).loc main_arg3)) (ix3 b f k))
            (fun f => (m ((c.tc : Thread nD τ).loc main_arg4)) (ix2 f (0 : Fin 1))) ((m ((c.tc : Thread nD τ).loc main_arg5)) (ix1 (0 : Fin 1)))
        + DeepFM.mlpRow (featOf m c b) (fun k n => (m ((c.tc : Thread nD τ).loc main_arg9)) (ix2 k n)) (fun n => (m ((c.tc : Thread nD τ).loc main_arg10)) (ix1 n)) (fun k n => (m ((c.tc : Thread nD τ).loc main_arg11)) (ix2 k n))
            (fun n => (m ((c.tc : Thread nD τ).loc main_arg12)) (ix1 n)) (fun k => (m ((c.tc : Thread nD τ).loc main_arg13)) (ix2 k (0 : Fin 1))) ((m ((c.tc : Thread nD τ).loc main_arg14)) (ix1 (0 : Fin 1))) := by
    show partArr (V m c main_v1) (V m c main_v21) (V m c main_v37) (V m c main_arg1) (V m c main_arg2) (V m c main_arg4) (V m c main_v38)
      (V m c main_arg6) (V m c main_arg7) (V m c main_arg9) (V m c main_v39) (V m c main_arg11) (V m c main_v40) (V m c main_arg13)
      (V m c main_v41) b = _
    unfold partArr
    rw [show featArr (V m c main_v1) (V m c main_v37) (V m c main_arg6) (V m c main_arg7) b = featOf m c b from rfl]
    simp only [eXd, eGf, eB5, eB10, eB12, eB14, V_main_arg1 m c, V_main_arg2 m c, V_main_arg4 m c, V_main_arg9 m c,
      V_main_arg11 m c, V_main_arg13 m c]
  rw [Tail.tail_apply, hS, DeepFM.second_eq, hP]
  rw [Cert.ReferenceIdeal.Rows.ref_out, Cert.ReferenceIdeal.Rows.ref_first, Cert.ReferenceIdeal.Rows.ref_second,
    Cert.ReferenceIdeal.Rows.ref_mlp, hA, hAb]
  exact add_right_comm _ _ _

/-- The two idealized programs, from memories agreeing on the arguments, both run and end with equal results. -/
theorem algebraic : Cert.algebraic_KernelIdeal_ReferenceIdeal := by
  intro m ρ m' ρ' hpre hagree
  refine ⟨fun c => Tail.tail (G15 m c) (G16 m c) (G17 m c), Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v103_eq, h0, h1, h2, h3, h4, h5, h6, h7, h8, h9, h10, h11, h12, h13, h14]
  funext i
  obtain ⟨b, rfl⟩ : ∃ b : Fin 16384, i = ix2 b (0 : Fin 1) :=
    ⟨i 0, funext fun a => by
      match a with
      | ⟨0, _⟩ => rfl
      | ⟨1, _⟩ => exact Fin.ext (by have h : (i 1).val < 1 := (i 1).isLt; show (i 1).val = 0; omega)⟩
  exact (value_eq m hpre c b).symm

end Cert.Assemble

end
-- ==== Proof.lean ====
/- The certificate's five conjuncts.

   The two kernel programs' frames and the kernel's run come from the generated frame modules; the reference's frame is
   its generated run with the result dropped; the idealization rewrote nothing, so its conjunct is `True`; the equality of
   results at the ideal instance, under the precondition that every sparse-field index lies in [0, 100000) — which makes
   the kernel's clip of the indices the identity, so both programs gather the same embedding rows —, is proved row by row
   in the modules under Proof/ (the row-wise description of the model, each program's stages read against it, the blocks
   of the kernel's three outputs, its host tail, and the regrouping of the second-order scalar's sums). -/
import proofs.«419042_j7868380086366_2_alg».proof.Defs
import proofs.«419042_j7868380086366_2_alg».proof.Proof.Gen.Kernel
import proofs.«419042_j7868380086366_2_alg».proof.Proof.Gen.Kernel.Frame
import proofs.«419042_j7868380086366_2_alg».proof.Proof.Gen.KernelIdeal
import proofs.«419042_j7868380086366_2_alg».proof.Proof.Gen.KernelIdeal.Frame
import proofs.«419042_j7868380086366_2_alg».proof.Proof.Gen.ReferenceIdeal
import proofs.«419042_j7868380086366_2_alg».proof.Proof.RefRun
import proofs.«419042_j7868380086366_2_alg».proof.Proof.Gen.Pre_finite_inputs
import proofs.«419042_j7868380086366_2_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Assemble.algebraic⟩

end Cert.Proof

end
